-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65_1)) (v1 : (c : Dev Cert.KernelIdeal.nD) → Buf (Elt Ideal) ((c.tc : Thread Cert.KernelIdeal.nD Cert.KernelIdeal.τ).loc Cert.KernelIdeal.main_v65_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_1) = v0 c
          ∧ r.2.mem ((c.tc : Thread Cert.KernelIdeal.nD Cert.KernelIdeal.τ).loc Cert.KernelIdeal.main_v65_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S64x6 .f32) (main_arg10 : FVec F S6 .f32) (main_v33 : IVec S_ 1) : IVec S_ 1 :=
  let main_v34 : FVec F S64x6 .f32 := Host.absf main_arg9
  let main_cst_12 : FVec F S_ .f32 := constant S_ .f32 0x7F800000#32
  let main_v35 : FVec F S64x6 .f32 := broadcastInDim S64x6 ![] bcast_S_S64x6 main_cst_12
  let main_v36 : IVec S64x6 1 := cmpf .olt main_v34 main_v35
  let main_c_13 : IVec S_ 1 := constantI S_ 1 1#1
  let main_v37 : IVec S_ 1 := (fun x v => Host.reduce IntOp.andi x v reducesTo_S64x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x6 .f32) (main_arg10 : FVec F S6 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x6 .f32) (main_arg10 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S1x6 : Shape := ⟨2, ![1, 6]⟩
abbrev S10000x1 : Shape := ⟨2, ![10000, 1]⟩
abbrev S64x1 : Shape := ⟨2, ![64, 1]⟩
abbrev S64x10000 : Shape := ⟨2, ![64, 10000]⟩

abbrev nBuf : Space → Nat
  | .hbm => 94
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x6, .f32⟩
  | .hbm, ⟨10, _⟩ => ⟨S6, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x1, .i32⟩
  | .hbm, ⟨90, _⟩ => ⟨S1x64, .f32⟩
  | .hbm, ⟨91, _⟩ => ⟨S1x6, .f32⟩
  | .hbm, ⟨92, _⟩ => ⟨S64x64, .f32⟩
  | .hbm, ⟨93, _⟩ => ⟨S64x6, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .i32⟩
  | .local _ .vmem, ⟨23, _⟩ => ⟨S10000x1, .i32⟩
  | .local _ .vmem, ⟨24, _⟩ => ⟨S64x64, .f32⟩
  | .local _ .vmem, ⟨25, _⟩ => ⟨S1x64, .f32⟩
  | .local _ .vmem, ⟨26, _⟩ => ⟨S64x6, .f32⟩
  | .local _ .vmem, ⟨27, _⟩ => ⟨S1x6, .f32⟩
  | .local _ .vmem, ⟨28, _⟩ => ⟨S64x64, .f32⟩
  | .local _ .vmem, ⟨29, _⟩ => ⟨S64x6, .f32⟩
  | .local _ .vmem, ⟨30, _⟩ => ⟨S64x64, .f32⟩
  | .local _ .vmem, ⟨31, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg7_0 : Ref sig .tc := ⟨.vmem, 29, rfl⟩
abbrev cc4_scratch0 : Ref sig .tc := ⟨.vmem, 30, rfl⟩
abbrev cc4_scratch1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x6 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x6 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x6 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  shapeCasts_S6_S1x6 : S6.ShapeCasts S1x6
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S10000x64_d1_w32 : S10000x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  transposes_S10000x64_p1_0_S64x10000 : S10000x64.Transposes [1, 0] S64x10000
  broadcasts_S64x1_S64x64 : S64x1.Broadcasts S64x64
  broadcasts_S1x64_S64x64 : S1x64.Broadcasts S64x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S64x6 : S1x6.Broadcasts S64x6
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S64x10000_S10000x64_S64x64_1_0_0_1_n_n_wf : DotDims.WF S64x10000 S10000x64 S64x64 [1] [0] [0] [1] [] []
  dot_S64x10000_S10000x1_S64x1_1_0_0_1_n_n_wf : DotDims.WF S64x10000 S10000x1 S64x1 [1] [0] [0] [1] [] []
  dot_S64x64_S64x64_S64x64_1_0_0_1_n_n_wf : DotDims.WF S64x64 S64x64 S64x64 [1] [0] [0] [1] [] []
  dot_S64x64_S64x6_S64x6_1_0_0_1_n_n_wf : DotDims.WF S64x64 S64x6 S64x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x6.size a ≤ S64x6.size a
  hwx4_4 : ∀ i : grid4.Coords, EltTy.bits .f32 = 32 ∨ (Rect.block (s := S64x6) S64x6.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x6.size a ≤ S1x6.size a
  hwx4_5 : ∀ i : grid4.Coords, EltTy.bits .f32 = 32 ∨ (Rect.block (s := S1x6) S1x6.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x6.size a ≤ S64x6.size a
  hwx4_7 : ∀ i : grid4.Coords, EltTy.bits .f32 = 32 ∨ (Rect.block (s := S64x6) S64x6.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf
def dot_S64x10000_S10000x1_S64x1_1_0_0_1_n_n : DotDims S64x10000 S10000x1 S64x1 where
  lhsContracting := [1]
  rhsContracting := [0]
  lhsNonContracting := [0]
  rhsNonContracting := [1]
  lhsBatch := []
  rhsBatch := []
  wf := dot_S64x10000_S10000x1_S64x1_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S64x6.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S1x6.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65_0) S64x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v65_1) S64x6.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x6 : Shape := ⟨2, ![1, 6]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x6, .f32⟩
  | 10 => ⟨S6, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S_, .f32⟩
  | 6 => ⟨S64x64, .f32⟩
  | 7 => ⟨S100000x1, .i32⟩
  | 8 => ⟨S64x64, .f32⟩
  | 9 => ⟨S_, .f32⟩
  | 10 => ⟨S100000, .f32⟩
  | 11 => ⟨S_, .f32⟩
  | 12 => ⟨S64, .f32⟩
  | 13 => ⟨S100000x1, .i32⟩
  | 14 => ⟨S64, .f32⟩
  | 15 => ⟨S_, .f32⟩
  | 16 => ⟨S64, .f32⟩
  | 17 => ⟨S64, .f32⟩
  | 18 => ⟨S64x1, .f32⟩
  | 19 => ⟨S64x64, .f32⟩
  | 20 => ⟨S64x64, .f32⟩
  | 21 => ⟨S64x64, .f32⟩
  | 22 => ⟨S1x64, .f32⟩
  | 23 => ⟨S64x64, .f32⟩
  | 24 => ⟨S64x64, .f32⟩
  | 25 => ⟨S64x6, .f32⟩
  | 26 => ⟨S1x6, .f32⟩
  | 27 => ⟨S64x6, .f32⟩
  | 28 => ⟨S64x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_cst_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S6_S1x6_1 : S6.BroadcastsInDim S1x6 (![1] : Fin 1 → Fin S1x6.rank)
  bcast_S1x6_S64x6_0_1 : S1x6.BroadcastsInDim S64x6 (![0, 1] : Fin 2 → Fin S64x6.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x64_S64x64_1_0_0_1_n_n_wf : DotDims.WF S64x64 S64x64 S64x64 [1] [0] [0] [1] [] []
  dot_S64x64_S64x6_S64x6_1_0_0_1_n_n_wf : DotDims.WF S64x64 S64x6 S64x6 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf

class Facts : Prop extends Facts₀ where

variable [Facts]
-- ==== Proof.KI.R0.lean ====
import proofs.«408011_j62371515072934_2_alg».proof.Proof.Gen.KernelIdeal.Launch
import proofs.«408011_j62371515072934_2_alg».proof.Proof.Gen.KernelIdeal.Skeleton
import proofs.«408011_j62371515072934_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: a row block times a weight matrix

The grid has ten points. At point `t` the body reads a block of ten thousand rows of the left operand
(128 columns), reads the whole weight (128 by 64), and writes their product, rounded
operands and a zero accumulator, over the whole of the output's block of ten thousand rows. Everything is stated at
a parameter `V`: the contents of the core's buffers when the region is entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`: the window's rectangle at `t` read out of its array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds the block of the point the body runs at. The window moves with the point and is
    fetched at each one; a body that leaves the buffer as it found it (`hafter`) over an array equal to `V`'s (`hA`)
    therefore finds the block of `t` there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the weight at every point. Its index map is constant, so it is fetched at the first
    point only; at a later point the block index is the one of the point before, the body left the buffer as it found
    it (`hafter`), and so what was fetched first is still there — and that is the block of `t`, the same rectangle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-! ## What the body leaves in the output's buffer -/

/-- The output's buffer after the body, from the two input blocks: one piece, the whole buffer, holding the product
    of the left block by the weight. -/
def out0_2 (x0 : Vec F S10000x128 .f32) (x1 : Vec F S128x64 .f32) : Vec F S10000x64 .f32 :=
  View.canon [⟨r0_2, k0_pay1 (View.ld x0 r0_0) (View.ld x1 r0_1)⟩]

/-- The one piece is the whole buffer, so every index of the buffer lies in it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The body on three whole buffers — the inputs' holding `x0` and `x1`, the output's holding anything — ends with the
    inputs' unchanged and the output's at `out0_2 x0 x1`. It loads both inputs whole, loads the output's buffer too (a
    value no later step reads, so whatever was there does not matter), and stores the product over the whole output
    buffer; a buffer overwritten by pieces that cover it reads as those pieces laid down. The grid coordinate is not
    read. -/
theorem sound_kernel0 (c : Dev nD) (E : Set ℕ) (i : grid0.Coords) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`. The arrays are `V`'s. After the body at `t` each input's buffer still
    holds its block and the output's holds the product of the two blocks. The invariant is the untouched rest (the
    scoped buffers and the generator register); every share is whole; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are `V`'s, by projecting the definition. -/
theorem A_eq0 (c : Dev nD) (w : Fin cfg0.W) : (dat0 V c).A w = V c (Pipeline.arrRef spec0 w) := by
  dsimp only [dat0]

/-- What the body leaves, window by window, by projecting the definition. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block when the body is handed it, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is handed at point `t`: the invariant, what the core owes, and each window's current buffer at what
    it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. The inputs' buffers hold their blocks, so the body's triple applies with `x0`, `x1` those
    blocks; the invariant and what the core owes are the same on both sides and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point: the separating product over the three windows written out, then the body's
    triple at that point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«408011_j62371515072934_2_alg».proof.Proof.Gen.KernelIdeal.Launch
import proofs.«408011_j62371515072934_2_alg».proof.Proof.Gen.KernelIdeal.Skeleton
import proofs.«408011_j62371515072934_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the bias-and-rectifier kernel, at a parameter `V`

The region walks ten row blocks of a `[100000, 64]` array. At each point the body reads the current
`[10000, 64]` block `x` and the whole `[1, 64]` bias row `b`, and writes `max (x + b) 0` (the row broadcast
down the rows) over the whole output block. Here: each window's block at a point, what the output's
buffer holds after the body as a function of the two input blocks, the body's triple, and the proof
data and body obligation of the pipeline, all at an arbitrary entry contents `V`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block): its current staging buffer holds its block at every point, for any proof
    data whose array is `V`'s and whose body leaves the block in place. The window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row): its index map is constant, so it is fetched at the first point only; at a later
    point the buffer still holds the previous point's block, and the block index has not moved, so that is this
    point's block too. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole `[10000, 64]` block: what the body loads of window 0 and stores to window 2. -/
abbrev r1_0 : Rect S10000x64 := Rect.unit (s := S10000x64) ![0, 0] S10000x64.size inb_S10000x64_S10000x64_0_0
/-- The whole `[1, 64]` row: what the body loads of window 1. -/
abbrev r1_1 : Rect S1x64 := Rect.unit (s := S1x64) ![0, 0] S1x64.size inb_S1x64_S1x64_0_0

/-! ## What the body leaves in the output window's buffer -/

/-- Window 2's staging buffer after the body, from the two input blocks: one store over the whole block, of
    `max (x0 + broadcast x1) 0`. -/
def out1_2 (x0 : Vec F S10000x64 .f32) (x1 : Vec F S1x64 .f32) : Vec F S10000x64 .f32 :=
  View.canon [⟨r1_0, k1_pay1 (View.ld x0 r1_0) (View.ld x1 r1_1)⟩]

/-- The one store is the whole block, so it covers the buffer. -/
theorem cover1_2 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

/-! ## The body's triple -/

set_option maxHeartbeats 1000000 in
/-- The kernel body on whole staging memrefs, the inputs' at contents `x0`, `x1` and the output's at anything, runs to
    the continuation holding the inputs' as they were and the output's at `out1_2 x0 x1`. The body also loads the
    output's buffer before storing over it; the value loaded is never used, and the store covers the buffer, so what
    it held drops out. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the pipeline on core `c`: the arrays as the region finds them; after the body at point `t`
    each input's buffer at its block and the output's at `out1_2` of the two input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«408011_j62371515072934_2_alg».proof.Proof.Gen.KernelIdeal.Launch
import proofs.«408011_j62371515072934_2_alg».proof.Proof.Gen.KernelIdeal.Skeleton
import proofs.«408011_j62371515072934_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: a row block times a weight matrix

The grid has ten points. At point `t` the body reads a block of ten thousand rows of the left operand
(64 columns), reads the whole weight (64 by 64), and writes their product, rounded
operands and a zero accumulator, over the whole of the output's block of ten thousand rows. Everything is stated at
a parameter `V`: the contents of the core's buffers when the region is entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`: the window's rectangle at `t` read out of its array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's buffer holds the block of the point the body runs at. The window moves with the point and is
    fetched at each one; a body that leaves the buffer as it found it (`hafter`) over an array equal to `V`'s (`hA`)
    therefore finds the block of `t` there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer holds the weight at every point. Its index map is constant, so it is fetched at the first
    point only; at a later point the block index is the one of the point before, the body left the buffer as it found
    it (`hafter`), and so what was fetched first is still there — and that is the block of `t`, the same rectangle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each the whole of its buffer -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x64 := Rect.unit (s := S10000x64) ![0, 0] S10000x64.size inb_S10000x64_S10000x64_0_0

/-! ## What the body leaves in the output's buffer -/

/-- The output's buffer after the body, from the two input blocks: one piece, the whole buffer, holding the product
    of the left block by the weight. -/
def out2_2 (x0 : Vec F S10000x64 .f32) (x1 : Vec F S64x64 .f32) : Vec F S10000x64 .f32 :=
  View.canon [⟨r2_2, k2_pay1 (View.ld x0 r2_0) (View.ld x1 r2_1)⟩]

/-- The one piece is the whole buffer, so every index of the buffer lies in it. -/
theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

/-! ## The body's triple -/

set_option maxHeartbeats 1000000 in
/-- The body on three whole buffers — the inputs' holding `x0` and `x1`, the output's holding anything — ends with the
    inputs' unchanged and the output's at `out2_2 x0 x1`. It loads both inputs whole, loads the output's buffer too (a
    value no later step reads, so whatever was there does not matter), and stores the product over the whole output
    buffer; a buffer overwritten by pieces that cover it reads as those pieces laid down. The grid coordinate is not
    read. -/
theorem sound_kernel2 (c : Dev nD) (E : Set ℕ) (i : grid2.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`. The arrays are `V`'s. After the body at `t` each input's buffer still
    holds its block and the output's holds the product of the two blocks. The invariant is the untouched rest (the
    scoped buffers and the generator register); every share is whole; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are `V`'s, by projecting the definition. -/
theorem A_eq2 (c : Dev nD) (w : Fin cfg2.W) : (dat2 V c).A w = V c (Pipeline.arrRef spec2 w) := by
  dsimp only [dat2]

/-- What the body leaves, window by window, by projecting the definition. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block when the body is handed it, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is handed at point `t`: the invariant, what the core owes, and each window's current buffer at what
    it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back: the same with each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point. The inputs' buffers hold their blocks, so the body's triple applies with `x0`, `x1` those
    blocks; the invariant and what the core owes are the same on both sides and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point: the separating product over the three windows written out, then the body's
    triple at that point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«408011_j62371515072934_2_alg».proof.Proof.Gen.KernelIdeal.Launch
import proofs.«408011_j62371515072934_2_alg».proof.Proof.Gen.KernelIdeal.Skeleton
import proofs.«408011_j62371515072934_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the bias-and-rectifier kernel, at a parameter `V`

The region walks ten row blocks of a `[100000, 64]` array. At each point the body reads the current
`[10000, 64]` block `x` and the whole `[1, 64]` bias row `b`, and writes `max (x + b) 0` (the row broadcast
down the rows) over the whole output block. Here: each window's block at a point, what the output's
buffer holds after the body as a function of the two input blocks, the body's triple, and the proof
data and body obligation of the pipeline, all at an arbitrary entry contents `V`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block): its current staging buffer holds its block at every point, for any proof
    data whose array is `V`'s and whose body leaves the block in place. The window is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row): its index map is constant, so it is fetched at the first point only; at a later
    point the buffer still holds the previous point's block, and the block index has not moved, so that is this
    point's block too. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole `[10000, 64]` block: what the body loads of window 0 and stores to window 2. -/
abbrev r3_0 : Rect S10000x64 := Rect.unit (s := S10000x64) ![0, 0] S10000x64.size inb_S10000x64_S10000x64_0_0
/-- The whole `[1, 64]` row: what the body loads of window 1. -/
abbrev r3_1 : Rect S1x64 := Rect.unit (s := S1x64) ![0, 0] S1x64.size inb_S1x64_S1x64_0_0

/-! ## What the body leaves in the output window's buffer -/

/-- Window 2's staging buffer after the body, from the two input blocks: one store over the whole block, of
    `max (x0 + broadcast x1) 0`. -/
def out3_2 (x0 : Vec F S10000x64 .f32) (x1 : Vec F S1x64 .f32) : Vec F S10000x64 .f32 :=
  View.canon [⟨r3_0, k3_pay1 (View.ld x0 r3_0) (View.ld x1 r3_1)⟩]

/-- The one store is the whole block, so it covers the buffer. -/
theorem cover3_2 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

/-! ## The body's triple -/

set_option maxHeartbeats 1000000 in
/-- The kernel body on whole staging memrefs, the inputs' at contents `x0`, `x1` and the output's at anything, runs to
    the continuation holding the inputs' as they were and the output's at `out3_2 x0 x1`. The body also loads the
    output's buffer before storing over it; the value loaded is never used, and the store covers the buffer, so what
    it held drops out. -/
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the pipeline on core `c`: the arrays as the region finds them; after the body at point `t`
    each input's buffer at its block and the output's at `out3_2` of the two input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Runs.lean ====
/- Region 4, the pooling and the classifier head: what its three runs share. The grid has ten points; at each the
   body adds the block's per-segment sums (a 64 by 10000 indicator times the 10000 by 64 block) and per-segment counts to two
   accumulators kept between points, after clearing them at the first point, and at the last point divides sums by counts,
   applies the projection and the classifier, and writes both outputs. Here: each window's block, the two conditions on
   the coordinate in closed form, where the outputs are idle, and the memrefs and invariant the runs are stated over. -/
import proofs.«408011_j62371515072934_2_alg».proof.Proof.Gen.KernelIdeal.Launch
import proofs.«408011_j62371515072934_2_alg».proof.Proof.Gen.KernelIdeal.Skeleton
import proofs.«408011_j62371515072934_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the hidden features' block of ten thousand rows) holds its block at every point, fetched there or not: where it is not fetched its
    block index has not moved, the window is uncut and never idle, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the segment ids' block of ten thousand rows) holds its block at every point, fetched there or not: where it is not fetched its
    block index has not moved, the window is uncut and never idle, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the projection matrix) holds its block at every point, fetched there or not: where it is not fetched its
    block index has not moved, the window is uncut and never idle, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the projection bias) holds its block at every point, fetched there or not: where it is not fetched its
    block index has not moved, the window is uncut and never idle, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the classifier matrix) holds its block at every point, fetched there or not: where it is not fetched its
    block index has not moved, the window is uncut and never idle, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the classifier bias) holds its block at every point, fetched there or not: where it is not fetched its
    block index has not moved, the window is uncut and never idle, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions on the grid coordinate -/

/-- The first conditional's test: the coordinate is zero (the accumulators are reset). -/
abbrev cond4_0 (i : grid4.Coords) : Prop := (Scalar.cmpi .ne (Scalar.extui (Scalar.cmpi .eq (BitVec.ofNat 32 (i 0).val) 0#32)) 0#32) = 1#1
/-- It holds at the first of the ten points only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's test: the coordinate is nine (the means are taken and both outputs written). -/
abbrev cond4_1 (i : grid4.Coords) : Prop := k4_cond2 i = 1#1
/-- It holds at the last of the ten points only. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle

Three cases: A, the first point (reset, then accumulate); B, points 1 to 8 (accumulate only); C, the last point
(accumulate, then finish). The inputs are never idle; the two outputs are stored at the last point only, so they are
idle and not written back in A and B, and live in C. -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem idleAt4_6_A : ∀ t : Fin cfg4.N, cond4_0 (grid4.coords t) → ¬cond4_1 (grid4.coords t) → cfg4.idle 6 (grid4.coords t) = true := by decide +kernel
theorem noFlush4_6_A : ∀ t : Fin cfg4.N, cond4_0 (grid4.coords t) → ¬cond4_1 (grid4.coords t) → (cfg4.win 6).flush t = false := by decide +kernel
theorem idleAt4_7_A : ∀ t : Fin cfg4.N, cond4_0 (grid4.coords t) → ¬cond4_1 (grid4.coords t) → cfg4.idle 7 (grid4.coords t) = true := by decide +kernel
theorem noFlush4_7_A : ∀ t : Fin cfg4.N, cond4_0 (grid4.coords t) → ¬cond4_1 (grid4.coords t) → (cfg4.win 7).flush t = false := by decide +kernel
theorem idleAt4_6_B : ∀ t : Fin cfg4.N, ¬cond4_0 (grid4.coords t) → ¬cond4_1 (grid4.coords t) → cfg4.idle 6 (grid4.coords t) = true := by decide +kernel
theorem noFlush4_6_B : ∀ t : Fin cfg4.N, ¬cond4_0 (grid4.coords t) → ¬cond4_1 (grid4.coords t) → (cfg4.win 6).flush t = false := by decide +kernel
theorem idleAt4_7_B : ∀ t : Fin cfg4.N, ¬cond4_0 (grid4.coords t) → ¬cond4_1 (grid4.coords t) → cfg4.idle 7 (grid4.coords t) = true := by decide +kernel
theorem noFlush4_7_B : ∀ t : Fin cfg4.N, ¬cond4_0 (grid4.coords t) → ¬cond4_1 (grid4.coords t) → (cfg4.win 7).flush t = false := by decide +kernel
theorem liveAt4_6_C : ∀ t : Fin cfg4.N, ¬cond4_0 (grid4.coords t) → cond4_1 (grid4.coords t) → cfg4.idle 6 (grid4.coords t) = false := by decide +kernel
theorem liveAt4_7_C : ∀ t : Fin cfg4.N, ¬cond4_0 (grid4.coords t) → cond4_1 (grid4.coords t) → cfg4.idle 7 (grid4.coords t) = false := by decide +kernel

/-! ## The memrefs the body is called with -/

/-- The one staging buffer of each output, through which its contents are stated. -/
abbrev VO4_6 : View sig .tc .vmem S64x64 .f32 := (Memref.whole cc4_stg6_0 : Memref sig .tc .vmem S64x64 .f32).view
abbrev VO4_7 : View sig .tc .vmem S64x6 .f32 := (Memref.whole cc4_stg7_0 : Memref sig .tc .vmem S64x6 .f32).view
/-- Each window's current staging memref at point `t`, and that it is a whole buffer. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x6 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x6 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S64x6 .f32 := win4_7.stage (cfg4.slots t 7)
abbrev hs4_7 (t : Fin cfg4.N) : (ms4_7 t).IsWhole := hstage4_7 ((cfg4.slots t 7).cast nbuf4_7)
/-- The two accumulators (segment sums, 64 by 64; segment counts, 64 by 1): whole buffers of the kernel's own, kept
    from one point to the next. -/
abbrev scM4_0 : Memref sig .tc .vmem S64x64 .f32 := Memref.whole cc4_scratch0
abbrev scM4_1 : Memref sig .tc .vmem S64x1 .f32 := Memref.whole cc4_scratch1
abbrev VS4_0 : View sig .tc .vmem S64x64 .f32 := scM4_0.view
abbrev VS4_1 : View sig .tc .vmem S64x1 .f32 := scM4_1.view

/-! ## The region's invariant, opened at the two accumulators -/

/-- The core's scoped buffers that are neither this call's staging buffers nor its two accumulators (the earlier calls'
    staging buffers), each at some contents: carried through every point unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class's invariant with the two accumulators split off as whole memrefs owned at some contents: what the body
    is handed before the first point and what it gives back after the last. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA
  rw [Pipeline.scopedRest_split_of_list spec4 c [cc4_scratch0, cc4_scratch1] (by decide) (by decide)]
  simp only [scM4_0, scM4_1, owns_whole]; try rfl

end Cert.KernelIdeal.Hand

end
-- ==== Proof.KI.R4RunA.lean ====
/- Region 4's body at the first grid point (case A): both accumulators are cleared, then the block's per-segment sums and
   counts are added to the cleared values and stored; neither output is touched. -/
import proofs.«408011_j62371515072934_2_alg».proof.Proof.KI.R4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the two accumulators at the first point, as pieces (last first), with the proof that from
    whole memrefs — the six inputs at their contents, the two outputs at contents handed back untouched, the accumulators at
    anything — the body runs to the continuation holding the inputs and outputs as they were and each accumulator with its
    pieces written. The pieces are found by running the body's memory operations in order: the zeros stored first are what the
    later loads of the accumulators read. -/
noncomputable def kernelRun4_A (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) :
    Σ' (L6 : List (View.Piece (Elt F) S64x64 .f32)) (L7 : List (View.Piece (Elt F) S64x6 .f32)) (LS0 : List (View.Piece (Elt F) S64x64 .f32)), { LS1 : List (View.Piece (Elt F) S64x1 .f32) //
      ∀ (xi6 : Vec F S64x64 .f32) (xi7 : Vec F S64x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.R4RunB.lean ====
/- Region 4's body at the points strictly between the first and the last (case B): the block's per-segment sums and counts
   are added to what the accumulators held and stored; neither output is touched. -/
import proofs.«408011_j62371515072934_2_alg».proof.Proof.KI.R4RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the two accumulators at a middle point, as pieces, with the proof that from whole
    memrefs — the six inputs at their contents, the two outputs at contents handed back untouched, the accumulators at what the
    point before left — the body runs to the continuation holding the inputs and outputs as they were and each accumulator
    with its pieces written. -/
noncomputable def kernelRun4_B (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    Σ' (L6 : List (View.Piece (Elt F) S64x64 .f32)) (L7 : List (View.Piece (Elt F) S64x6 .f32)) (LS0 : List (View.Piece (Elt F) S64x64 .f32)), { LS1 : List (View.Piece (Elt F) S64x1 .f32) //
      ∀ (xi6 : Vec F S64x64 .f32) (xi7 : Vec F S64x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.R4RunC.lean ====
/- Region 4's body at the last grid point (case C): the block's per-segment sums and counts are added to the accumulators,
   and from the totals just stored the means, their projection and the class scores are computed and written to the two outputs. -/
import proofs.«408011_j62371515072934_2_alg».proof.Proof.KI.R4RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the two outputs and the two accumulators at the last point, as pieces, with the proof
    that from whole memrefs — the six inputs at their contents, the two outputs at anything, the accumulators at what the point
    before left — the body runs to the continuation holding the inputs as they were and each output and accumulator with its
    pieces written. The outputs are computed from loads of the accumulators made after this point's own stores into them. -/
noncomputable def kernelRun4_C (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    Σ' (L6 : List (View.Piece (Elt F) S64x64 .f32)) (L7 : List (View.Piece (Elt F) S64x6 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.R4.lean ====
/- Region 4, the pooling and the classifier head, as a pipeline's proof data at the region-entry contents `V`: what each of the
   three cases leaves in the two outputs and the two accumulators; the accumulation point by point (`outsAt4`: totals after
   point `n` are totals after point `n - 1` plus block `n`'s segment sums and counts, starting from zero); the invariant that
   carries the accumulators between points; and the body obligation, by cases on the coordinate. -/
import proofs.«408011_j62371515072934_2_alg».proof.Proof.KI.R4RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What each case leaves in the outputs and the accumulators -/

/-- At the first point nothing is stored into the pooled projection's buffer: no pieces, a placeholder nothing consults, the window
    being neither written back nor read at the next point. -/
def out4_A_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x64 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 hc0 hc1 x0 x1 x2 x3 x4 x5).1)

/-- Likewise for the class scores' buffer at the first point. -/
def out4_A_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x6 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 hc0 hc1 x0 x1 x2 x3 x4 x5).2.1)

/-- At the first point every store into the segment sums' accumulator is of the whole 64 by 64 buffer, so its pieces cover it. -/
theorem scover4_A_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (y : S64x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).2.2.1 S64x64.size (by sl_kernel_rfl) y

/-- What the first point leaves in the segment sums' accumulator: its pieces read back. -/
def sout4_A_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4 x5).2.2.1)

/-- At the first point every store into the segment counts' accumulator is of the whole 64 by 1 buffer, so its pieces cover it. -/
theorem scover4_A_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (y : S64x1.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).2.2.2.1 S64x1.size (by sl_kernel_rfl) y

/-- What the first point leaves in the segment counts' accumulator: its pieces read back. -/
def sout4_A_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x1 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 hc0 hc1 x0 x1 x2 x3 x4 x5).2.2.2.1)

/-- At a middle point nothing is stored into the pooled projection's buffer: no pieces, a placeholder nothing consults, the window
    being neither written back nor read at the next point. -/
def out4_B_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).1)

/-- Likewise for the class scores' buffer at a middle point. -/
def out4_B_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x6 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At a middle point every store into the segment sums' accumulator is of the whole 64 by 64 buffer, so its pieces cover it. -/
theorem scover4_B_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S64x64.size (by sl_kernel_rfl) y

/-- What a middle point leaves in the segment sums' accumulator: its pieces read back. -/
def sout4_B_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At a middle point every store into the segment counts' accumulator is of the whole 64 by 1 buffer, so its pieces cover it. -/
theorem scover4_B_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x1.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S64x1.size (by sl_kernel_rfl) y

/-- What a middle point leaves in the segment counts' accumulator: its pieces read back. -/
def sout4_B_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x1 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-- At the last point the one store into the pooled projection's buffer is of the whole 64 by 64 block, so its pieces cover it. -/
theorem cover4_C_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).1 S64x64.size (by sl_kernel_rfl) y

/-- What the last point leaves in the pooled projection's buffer: its pieces read back. -/
def out4_C_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).1)

/-- At the last point the one store into the class scores' buffer is of the whole 64 by 6 block, so its pieces cover it. -/
theorem cover4_C_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x6.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.1 S64x6.size (by sl_kernel_rfl) y

/-- What the last point leaves in the class scores' buffer: its pieces read back. -/
def out4_C_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x6 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At the last point every store into the segment sums' accumulator is of the whole 64 by 64 buffer, so its pieces cover it. -/
theorem scover4_C_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S64x64.size (by sl_kernel_rfl) y

/-- What the last point leaves in the segment sums' accumulator: its pieces read back. -/
def sout4_C_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At the last point every store into the segment counts' accumulator is of the whole 64 by 1 buffer, so its pieces cover it. -/
theorem scover4_C_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x1.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S64x1.size (by sl_kernel_rfl) y

/-- What the last point leaves in the segment counts' accumulator: its pieces read back. -/
def sout4_C_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x1 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-! ## What the outputs and the accumulators hold after each point -/

/-- THE ACCUMULATION. After the body at position `n`: the two outputs' buffers, then the two accumulators. The first point
    clears the accumulators and adds its block's segment sums and counts; every later point adds its block's to what the
    point before left; the last point, having added, also writes the outputs from the totals. A pair of conditions no
    point meets is no case. -/
def outsAt4 (c : Dev nD) : (n : ℕ) → n < cfg4.N → Vec F S64x64 .f32 × Vec F S64x6 .f32 × Vec F S64x64 .f32 × Vec F S64x1 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 10 = 0 then
      if h1 : (n + 1) % 10 = 9 then
        False.elim (by omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 10 = 9 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2)

/-- `outsAt4` at the first point: the cleared accumulators plus the first block's sums and counts. -/
theorem outsAt4_A (c : Dev nD) (t : Fin cfg4.N) (h0 : t.val % 10 = 0) (h1 : ¬t.val % 10 = 9) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- `outsAt4` at a middle point: the block's sums and counts added to what the point before left. -/
theorem outsAt4_B (c : Dev nD) (t : Fin cfg4.N) (h0 : ¬t.val % 10 = 0) (h1 : ¬t.val % 10 = 9) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: the block's sums and counts added to what the point before left, and the outputs
    computed from those totals. -/
theorem outsAt4_C (c : Dev nD) (t : Fin cfg4.N) (h0 : ¬t.val % 10 = 0) (h1 : t.val % 10 = 9) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: before the first point the class's invariant (both accumulators at anything); afterwards each
    accumulator at what the point before left in it, beside the other calls' staging buffers and the generator register at
    some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n`: the accumulators at that point's totals. -/
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r)) := rfl

/-- Before a point that is not the first: the accumulators at the totals of the point before. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 (F := F) c) ∗ (∃ r, prngReg c r)) := by
  cases n with
  | zero => exact absurd rfl hz
  | succ n => rfl

/-! ## The pipeline's proof data -/

/-- The proof data of this region on core `c`: the arrays as the region finds them; after the body at point `t` each input's
    buffer at its block and the two outputs' at `outsAt4`'s first two components; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`: the invariant, what is owed, and each window's current staging buffer at what
    it then holds. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns: the next point's invariant, and each buffer at what the body leaves (an idle output's as found). -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' buffers hold their blocks; the coordinate's residue says which of the three cases the
    point is in; that case's run applies, handed the accumulators at what the point before left (at anything at the first
    point) and giving them back at this point's totals, which its whole-buffer stores cover; the two outputs are handed back
    as found except at the last point, where the run's stores cover them; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val % 10 = 0
  · by_cases h1 : t.val % 10 = 9
    · exfalso; omega
    · -- the first point
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
      rw [Dat.leavesExact_idle (dat4 V c) 7 t (idleAt4_7_A t ((hcond4_0 t).mpr h0) (fun h => h1 ((hcond4_1 t).mp h))) (noFlush4_7_A t ((hcond4_0 t).mpr h0) (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · exfalso; omega

  · by_cases h1 : t.val % 10 = 9
    · -- the last point
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6_C t (fun h => h0 ((hcond4_0 t).mp h)) ((hcond4_1 t).mpr h1)], after4_6]
      rw [show (dat4 V c).leavesExact 7 t = owns (c : Thread nD τ) (ms4_7 t) fullShare ((dat4 V c).after 7 t) from by
        unfold Dat.leavesExact; rw [liveAt4_7_C t (fun h => h0 ((hcond4_0 t).mp h)) ((hcond4_1 t).mpr h1)], after4_7]
      rw [outsAt4_C V c t h0 h1]
      unfold out4_C_6 out4_C_7 sout4_C_0 sout4_C_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover4_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _)

    · -- a middle point
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
      rw [Dat.leavesExact_idle (dat4 V c) 7 t (idleAt4_7_B t (fun h => h0 ((hcond4_0 t).mp h)) (fun h => h1 ((hcond4_1 t).mp h))) (noFlush4_7_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.Run.lean ====
import proofs.«408011_j62371515072934_2_alg».proof.Proof.KI.R0
import proofs.«408011_j62371515072934_2_alg».proof.Proof.KI.R1
import proofs.«408011_j62371515072934_2_alg».proof.Proof.KI.R2
import proofs.«408011_j62371515072934_2_alg».proof.Proof.KI.R3
import proofs.«408011_j62371515072934_2_alg».proof.Proof.KI.R4
import proofs.«408011_j62371515072934_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over the five regions' proof data

@main is eleven segments: host stretches and kernel regions in order. This module states the buffer contents at
every segment boundary as a fold from the launch memory, makes each region a segment over the thread state "every
unscoped buffer at the boundary's contents, the generator register at some state, nothing owed", chains the
segments, and concludes that from any launch memory with zero counters every weakly fair execution terminates with
every unscoped buffer at the last boundary's contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary

A host stretch carries the contents before it to `StableHlo.after` of them; a kernel region leaves each of its
windows' arrays at what the write-backs make of it (`Dat.arrAt … N`: an input array as entered) and every other
buffer as entered (`Pipeline.withArrays`). `WJ` is the contents after segment `J - 1`, `VJ` the same read at the
TensorCore's references. -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- A reference `hostOps0` does not write keeps its contents. -/
theorem W1_of (c : Dev nD) (r : Ref sig .tc) (h : r ∉ hostOps0_W) :
    W1 m c (Proc.devRef .tc r) = W0 m c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- A reference `hostOps0_1` does not write keeps its contents. -/
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- A reference `hostOps0_2` does not write keeps its contents. -/
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h

/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
/-- At region 0's exit each of its arrays holds what the pipeline leaves, every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- A reference `hostOps1` does not write keeps its contents. -/
theorem W5_of (c : Dev nD) (r : Ref sig .tc) (h : r ∉ hostOps1_W) :
    W5 m c (Proc.devRef .tc r) = W4 m c (Proc.devRef .tc r) :=
  StableHlo.after_of_writes_sub hostOps1 _ hostOps1_writes h

/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
/-- At region 1's exit each of its arrays holds what the pipeline leaves, every other buffer what it held at entry. -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- At region 2's exit: its arrays at what the pipeline leaves, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
/-- At region 2's exit each of its arrays holds what the pipeline leaves, every other buffer what it held at entry. -/
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the host stretch `hostOps3`. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
/-- A reference `hostOps3` does not write keeps its contents. -/
theorem W8_of (c : Dev nD) (r : Ref sig .tc) (h : r ∉ hostOps3_W) :
    W8 m c (Proc.devRef .tc r) = W7 m c (Proc.devRef .tc r) :=
  StableHlo.after_of_writes_sub hostOps3 _ hostOps3_writes h

/-- At region 3's exit: its arrays at what the pipeline leaves, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9 : (c : Dev nD) → (b : Ref sig .tc) → Buf (Elt F) ((c : Thread nD τ).loc b) := fun c b => W9 m c b
/-- At region 3's exit each of its arrays holds what the pipeline leaves, every other buffer what it held at entry. -/
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- After the host stretch `hostOps4`. -/
abbrev W10 : Dev nD → Valuation τ sig (Elt F) := fun c => StableHlo.after hostOps4 (W9 m c)
abbrev V10 : (c : Dev nD) → (b : Ref sig .tc) → Buf (Elt F) ((c : Thread nD τ).loc b) := fun c b => W10 m c b
/-- A reference `hostOps4` does not write keeps its contents. -/
theorem W10_of (c : Dev nD) (r : Ref sig .tc) (h : r ∉ hostOps4_W) :
    W10 m c (Proc.devRef .tc r) = W9 m c (Proc.devRef .tc r) :=
  StableHlo.after_of_writes_sub hostOps4 _ hostOps4_writes h

/-- At region 4's exit: its arrays at what the pipeline leaves, every other buffer as entered. -/
def W11 (c : Dev nD) : Valuation τ sig (Elt F) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
abbrev V11 : (c : Dev nD) → (b : Ref sig .tc) → Buf (Elt F) ((c : Thread nD τ).loc b) := fun c b => W11 m c b
/-- At region 4's exit each of its arrays holds what the pipeline leaves, every other buffer what it held at entry. -/
theorem hF4 (c : Dev nD) (w : Fin cfg4.W) : (dat4 (V10 m) c).arrAt w cfg4.N = V11 m c (Pipeline.arrRef spec4 w) :=
  (W11_arr m c w).symm
theorem hrest4 (c : Dev nD) : ∀ b, b ∉ Finset.univ.image (Pipeline.arrRef spec4) → V11 m c b = V10 m c b :=
  fun b hb => W11_of_ne m c b fun w e => hb (Finset.mem_image.mpr ⟨w, Finset.mem_univ _, e⟩)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments

Each region is entered from every unscoped buffer at its entry contents and left at its exit contents: its arrays
split out of the unscoped buffers and put back at what the write-backs leave; the generator register goes into the
region's invariant and comes back; nothing is owed; the kernels have no semaphore of their own. -/

set_option backward.isDefEq.respectTransparency.types false in
/-- REGION 0 over the thread state: entered from every unscoped buffer at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W6`, left at `W7`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W8`, left at `W9`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W10`, left at `W11`. Its invariant is its own
    (the two scratch accumulators carried from point to point): it is entered from the scoped rest and the generator
    register (`hin4`) and gives them back after the last point (`hout4`). -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V10 m) c
    unfold Pipeline.ΦA at h
    rw [show (pdats m 4 c).Φ 0 = (dat4 (V10 m) c).Φ 0 from rfl]
    iintro ⟨Hp, -, Hr⟩
    iapply h
    isplitl [Hr]; · iexact Hr
    iexact Hp
  hout c := by
    have h := hout4 (V10 m) c
    unfold Pipeline.ΦA at h
    rw [Pipeline.ownSems0_none, show (pdats m 4 c).Φ (Fin.last _) = (dat4 (V10 m) c).Φ (Fin.last cfg4.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V10 m c) (V11 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 11 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)),
    .region (reg4 m) ]
/-- @main IS the run of the segments: @main is the chain of its items, and the segments' run is the chain of their
    fragments, which are those items. -/
theorem main_run (c : Dev nD) : main (F := F) c = Pipeline.Seg.run (segs m) := by
  rewrite [main_chain c, Pipeline.Seg.run_eq_chain,
    show (segs m).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in
/-- THE RUN: from any memory with zero counters, every weakly fair execution of @main on the TensorCores terminates,
    nothing faulting, and every final state holds each unscoped buffer at the last boundary's contents `W11`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun _ h => h)

end Cert.KernelIdeal.Hand

end
-- ==== Proof.KI.Frame.lean ====
import proofs.«408011_j62371515072934_2_alg».proof.Proof.KI.Run
import proofs.«408011_j62371515072934_2_alg».proof.Proof.Gen.KernelIdeal.Launch
import proofs.«408011_j62371515072934_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # What each region leaves unchanged

The contents of a core's buffers at the eleven segment boundaries are a fold from the launch memory: a host stretch
maps the contents before it to those after its operations, and a region replaces the arrays of its windows by what
its write-backs leave and keeps every other buffer. Only an output window is ever written back, so across a region
every buffer but its output arrays is unchanged. -/

/-- The launch contents read at a reference of the core are the launch memory at that reference's location. -/
theorem W0_apply (c : Dev nD) (r : Ref sig .tc) : W0 m c (Proc.devRef .tc r) = m ((c : Thread nD τ).loc r) := rfl

/-- Region 0 changes only its output array `main_v30`. A reference that is the array of one of its
    windows is, by `h`, the array of an input window (main_arg0, main_arg3), and an input window is never written back, so its
    array is left as the region was entered; on any other reference the region has no window and keeps the buffer. -/
theorem W4_of (c : Dev nD) (r : Ref sig .tc) (h : r ∉ ([main_v30] : List (Ref sig .tc))) :
    W4 m c (Proc.devRef .tc r) = W3 m c (Proc.devRef .tc r) := by
  by_cases hr : ∃ w, Pipeline.arrRef spec0 w = r
  · obtain ⟨w, rfl⟩ := hr
    have hin : (cfg0.win w).isOut = false := by
      match w with
      | ⟨0, _⟩ => rfl
      | ⟨1, _⟩ => rfl
      | ⟨2, _⟩ => exact absurd (List.mem_singleton.mpr rfl) h
    exact (W4_arr m c w).trans (((dat0 (V3 m) c).arrAt_in w hin _).trans (A_eq0 (V3 m) c w))
  · exact W4_of_ne m c r fun w e => hr ⟨w, e⟩

/-- Region 1 changes only its output array `main_v45`. A reference that is the array of one of its
    windows is, by `h`, the array of an input window (main_v43, main_v44), and an input window is never written back, so its
    array is left as the region was entered; on any other reference the region has no window and keeps the buffer. -/
theorem W6_of (c : Dev nD) (r : Ref sig .tc) (h : r ∉ ([main_v45] : List (Ref sig .tc))) :
    W6 m c (Proc.devRef .tc r) = W5 m c (Proc.devRef .tc r) := by
  by_cases hr : ∃ w, Pipeline.arrRef spec1 w = r
  · obtain ⟨w, rfl⟩ := hr
    have hin : (cfg1.win w).isOut = false := by
      match w with
      | ⟨0, _⟩ => rfl
      | ⟨1, _⟩ => rfl
      | ⟨2, _⟩ => exact absurd (List.mem_singleton.mpr rfl) h
    exact (W6_arr m c w).trans (((dat1 (V5 m) c).arrAt_in w hin _).trans (A_eq1 (V5 m) c w))
  · exact W6_of_ne m c r fun w e => hr ⟨w, e⟩

/-- Region 2 changes only its output array `main_v46`. A reference that is the array of one of its
    windows is, by `h`, the array of an input window (main_v45, main_arg5), and an input window is never written back, so its
    array is left as the region was entered; on any other reference the region has no window and keeps the buffer. -/
theorem W7_of (c : Dev nD) (r : Ref sig .tc) (h : r ∉ ([main_v46] : List (Ref sig .tc))) :
    W7 m c (Proc.devRef .tc r) = W6 m c (Proc.devRef .tc r) := by
  by_cases hr : ∃ w, Pipeline.arrRef spec2 w = r
  · obtain ⟨w, rfl⟩ := hr
    have hin : (cfg2.win w).isOut = false := by
      match w with
      | ⟨0, _⟩ => rfl
      | ⟨1, _⟩ => rfl
      | ⟨2, _⟩ => exact absurd (List.mem_singleton.mpr rfl) h
    exact (W7_arr m c w).trans (((dat2 (V6 m) c).arrAt_in w hin _).trans (A_eq2 (V6 m) c w))
  · exact W7_of_ne m c r fun w e => hr ⟨w, e⟩

/-- Region 3 changes only its output array `main_v61`. A reference that is the array of one of its
    windows is, by `h`, the array of an input window (main_v59, main_v60), and an input window is never written back, so its
    array is left as the region was entered; on any other reference the region has no window and keeps the buffer. -/
theorem W9_of (c : Dev nD) (r : Ref sig .tc) (h : r ∉ ([main_v61] : List (Ref sig .tc))) :
    W9 m c (Proc.devRef .tc r) = W8 m c (Proc.devRef .tc r) := by
  by_cases hr : ∃ w, Pipeline.arrRef spec3 w = r
  · obtain ⟨w, rfl⟩ := hr
    have hin : (cfg3.win w).isOut = false := by
      match w with
      | ⟨0, _⟩ => rfl
      | ⟨1, _⟩ => rfl
      | ⟨2, _⟩ => exact absurd (List.mem_singleton.mpr rfl) h
    exact (W9_arr m c w).trans (((dat3 (V8 m) c).arrAt_in w hin _).trans (A_eq3 (V8 m) c w))
  · exact W9_of_ne m c r fun w e => hr ⟨w, e⟩

/-- Region 4 changes only its output arrays `main_v65_0`, `main_v65_1`. A reference that is the array of one of its
    windows is, by `h`, the array of an input window (main_v61, main_v62, main_arg7, main_v63, main_arg9, main_v64), and an input window is never written back, so its
    array is left as the region was entered; on any other reference the region has no window and keeps the buffer. -/
theorem W11_of (c : Dev nD) (r : Ref sig .tc) (h : r ∉ ([main_v65_0, main_v65_1] : List (Ref sig .tc))) :
    W11 m c (Proc.devRef .tc r) = W10 m c (Proc.devRef .tc r) := by
  by_cases hr : ∃ w, Pipeline.arrRef spec4 w = r
  · obtain ⟨w, rfl⟩ := hr
    have hin : (cfg4.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd (List.mem_cons.mpr (Or.inl rfl)) h
      | ⟨7, _⟩ => exact absurd (List.mem_cons.mpr (Or.inr (List.mem_singleton.mpr rfl))) h
    exact (W11_arr m c w).trans (((dat4 (V10 m) c).arrAt_in w hin _).trans (A_eq4 (V10 m) c w))
  · exact W11_of_ne m c r fun w e => hr ⟨w, e⟩

/-! # The arguments end as launched

Read at an argument's buffer the fold walks back to the launch memory, one boundary at a time: no host stretch
writes an argument and no region has an argument as an output array. -/

/-- `main_arg0` ends as launched: it is written by no host stretch and is the output array of no region. -/
theorem W11_main_arg0 (c : Dev nD) : W11 m c (Proc.devRef .tc main_arg0) = m ((c : Thread nD τ).loc main_arg0) :=
  (W11_of m c main_arg0 (by decide)).trans <| (W10_of m c main_arg0 (by decide)).trans <| (W9_of m c main_arg0 (by decide)).trans <|
  (W8_of m c main_arg0 (by decide)).trans <| (W7_of m c main_arg0 (by decide)).trans <| (W6_of m c main_arg0 (by decide)).trans <|
  (W5_of m c main_arg0 (by decide)).trans <| (W4_of m c main_arg0 (by decide)).trans <| (W3_of m c main_arg0 (by decide)).trans <|
  (W2_of m c main_arg0 (by decide)).trans <| (W1_of m c main_arg0 (by decide)).trans (W0_apply m c main_arg0)

/-- `main_arg1` ends as launched: it is written by no host stretch and is the output array of no region. -/
theorem W11_main_arg1 (c : Dev nD) : W11 m c (Proc.devRef .tc main_arg1) = m ((c : Thread nD τ).loc main_arg1) :=
  (W11_of m c main_arg1 (by decide)).trans <| (W10_of m c main_arg1 (by decide)).trans <| (W9_of m c main_arg1 (by decide)).trans <|
  (W8_of m c main_arg1 (by decide)).trans <| (W7_of m c main_arg1 (by decide)).trans <| (W6_of m c main_arg1 (by decide)).trans <|
  (W5_of m c main_arg1 (by decide)).trans <| (W4_of m c main_arg1 (by decide)).trans <| (W3_of m c main_arg1 (by decide)).trans <|
  (W2_of m c main_arg1 (by decide)).trans <| (W1_of m c main_arg1 (by decide)).trans (W0_apply m c main_arg1)

/-- `main_arg2` ends as launched: it is written by no host stretch and is the output array of no region. -/
theorem W11_main_arg2 (c : Dev nD) : W11 m c (Proc.devRef .tc main_arg2) = m ((c : Thread nD τ).loc main_arg2) :=
  (W11_of m c main_arg2 (by decide)).trans <| (W10_of m c main_arg2 (by decide)).trans <| (W9_of m c main_arg2 (by decide)).trans <|
  (W8_of m c main_arg2 (by decide)).trans <| (W7_of m c main_arg2 (by decide)).trans <| (W6_of m c main_arg2 (by decide)).trans <|
  (W5_of m c main_arg2 (by decide)).trans <| (W4_of m c main_arg2 (by decide)).trans <| (W3_of m c main_arg2 (by decide)).trans <|
  (W2_of m c main_arg2 (by decide)).trans <| (W1_of m c main_arg2 (by decide)).trans (W0_apply m c main_arg2)

/-- `main_arg3` ends as launched: it is written by no host stretch and is the output array of no region. -/
theorem W11_main_arg3 (c : Dev nD) : W11 m c (Proc.devRef .tc main_arg3) = m ((c : Thread nD τ).loc main_arg3) :=
  (W11_of m c main_arg3 (by decide)).trans <| (W10_of m c main_arg3 (by decide)).trans <| (W9_of m c main_arg3 (by decide)).trans <|
  (W8_of m c main_arg3 (by decide)).trans <| (W7_of m c main_arg3 (by decide)).trans <| (W6_of m c main_arg3 (by decide)).trans <|
  (W5_of m c main_arg3 (by decide)).trans <| (W4_of m c main_arg3 (by decide)).trans <| (W3_of m c main_arg3 (by decide)).trans <|
  (W2_of m c main_arg3 (by decide)).trans <| (W1_of m c main_arg3 (by decide)).trans (W0_apply m c main_arg3)

/-- `main_arg4` ends as launched: it is written by no host stretch and is the output array of no region. -/
theorem W11_main_arg4 (c : Dev nD) : W11 m c (Proc.devRef .tc main_arg4) = m ((c : Thread nD τ).loc main_arg4) :=
  (W11_of m c main_arg4 (by decide)).trans <| (W10_of m c main_arg4 (by decide)).trans <| (W9_of m c main_arg4 (by decide)).trans <|
  (W8_of m c main_arg4 (by decide)).trans <| (W7_of m c main_arg4 (by decide)).trans <| (W6_of m c main_arg4 (by decide)).trans <|
  (W5_of m c main_arg4 (by decide)).trans <| (W4_of m c main_arg4 (by decide)).trans <| (W3_of m c main_arg4 (by decide)).trans <|
  (W2_of m c main_arg4 (by decide)).trans <| (W1_of m c main_arg4 (by decide)).trans (W0_apply m c main_arg4)

/-- `main_arg5` ends as launched: it is written by no host stretch and is the output array of no region. -/
theorem W11_main_arg5 (c : Dev nD) : W11 m c (Proc.devRef .tc main_arg5) = m ((c : Thread nD τ).loc main_arg5) :=
  (W11_of m c main_arg5 (by decide)).trans <| (W10_of m c main_arg5 (by decide)).trans <| (W9_of m c main_arg5 (by decide)).trans <|
  (W8_of m c main_arg5 (by decide)).trans <| (W7_of m c main_arg5 (by decide)).trans <| (W6_of m c main_arg5 (by decide)).trans <|
  (W5_of m c main_arg5 (by decide)).trans <| (W4_of m c main_arg5 (by decide)).trans <| (W3_of m c main_arg5 (by decide)).trans <|
  (W2_of m c main_arg5 (by decide)).trans <| (W1_of m c main_arg5 (by decide)).trans (W0_apply m c main_arg5)

/-- `main_arg6` ends as launched: it is written by no host stretch and is the output array of no region. -/
theorem W11_main_arg6 (c : Dev nD) : W11 m c (Proc.devRef .tc main_arg6) = m ((c : Thread nD τ).loc main_arg6) :=
  (W11_of m c main_arg6 (by decide)).trans <| (W10_of m c main_arg6 (by decide)).trans <| (W9_of m c main_arg6 (by decide)).trans <|
  (W8_of m c main_arg6 (by decide)).trans <| (W7_of m c main_arg6 (by decide)).trans <| (W6_of m c main_arg6 (by decide)).trans <|
  (W5_of m c main_arg6 (by decide)).trans <| (W4_of m c main_arg6 (by decide)).trans <| (W3_of m c main_arg6 (by decide)).trans <|
  (W2_of m c main_arg6 (by decide)).trans <| (W1_of m c main_arg6 (by decide)).trans (W0_apply m c main_arg6)

/-- `main_arg7` ends as launched: it is written by no host stretch and is the output array of no region. -/
theorem W11_main_arg7 (c : Dev nD) : W11 m c (Proc.devRef .tc main_arg7) = m ((c : Thread nD τ).loc main_arg7) :=
  (W11_of m c main_arg7 (by decide)).trans <| (W10_of m c main_arg7 (by decide)).trans <| (W9_of m c main_arg7 (by decide)).trans <|
  (W8_of m c main_arg7 (by decide)).trans <| (W7_of m c main_arg7 (by decide)).trans <| (W6_of m c main_arg7 (by decide)).trans <|
  (W5_of m c main_arg7 (by decide)).trans <| (W4_of m c main_arg7 (by decide)).trans <| (W3_of m c main_arg7 (by decide)).trans <|
  (W2_of m c main_arg7 (by decide)).trans <| (W1_of m c main_arg7 (by decide)).trans (W0_apply m c main_arg7)

/-- `main_arg8` ends as launched: it is written by no host stretch and is the output array of no region. -/
theorem W11_main_arg8 (c : Dev nD) : W11 m c (Proc.devRef .tc main_arg8) = m ((c : Thread nD τ).loc main_arg8) :=
  (W11_of m c main_arg8 (by decide)).trans <| (W10_of m c main_arg8 (by decide)).trans <| (W9_of m c main_arg8 (by decide)).trans <|
  (W8_of m c main_arg8 (by decide)).trans <| (W7_of m c main_arg8 (by decide)).trans <| (W6_of m c main_arg8 (by decide)).trans <|
  (W5_of m c main_arg8 (by decide)).trans <| (W4_of m c main_arg8 (by decide)).trans <| (W3_of m c main_arg8 (by decide)).trans <|
  (W2_of m c main_arg8 (by decide)).trans <| (W1_of m c main_arg8 (by decide)).trans (W0_apply m c main_arg8)

/-- `main_arg9` ends as launched: it is written by no host stretch and is the output array of no region. -/
theorem W11_main_arg9 (c : Dev nD) : W11 m c (Proc.devRef .tc main_arg9) = m ((c : Thread nD τ).loc main_arg9) :=
  (W11_of m c main_arg9 (by decide)).trans <| (W10_of m c main_arg9 (by decide)).trans <| (W9_of m c main_arg9 (by decide)).trans <|
  (W8_of m c main_arg9 (by decide)).trans <| (W7_of m c main_arg9 (by decide)).trans <| (W6_of m c main_arg9 (by decide)).trans <|
  (W5_of m c main_arg9 (by decide)).trans <| (W4_of m c main_arg9 (by decide)).trans <| (W3_of m c main_arg9 (by decide)).trans <|
  (W2_of m c main_arg9 (by decide)).trans <| (W1_of m c main_arg9 (by decide)).trans (W0_apply m c main_arg9)

/-- `main_arg10` ends as launched: it is written by no host stretch and is the output array of no region. -/
theorem W11_main_arg10 (c : Dev nD) : W11 m c (Proc.devRef .tc main_arg10) = m ((c : Thread nD τ).loc main_arg10) :=
  (W11_of m c main_arg10 (by decide)).trans <| (W10_of m c main_arg10 (by decide)).trans <| (W9_of m c main_arg10 (by decide)).trans <|
  (W8_of m c main_arg10 (by decide)).trans <| (W7_of m c main_arg10 (by decide)).trans <| (W6_of m c main_arg10 (by decide)).trans <|
  (W5_of m c main_arg10 (by decide)).trans <| (W4_of m c main_arg10 (by decide)).trans <| (W3_of m c main_arg10 (by decide)).trans <|
  (W2_of m c main_arg10 (by decide)).trans <| (W1_of m c main_arg10 (by decide)).trans (W0_apply m c main_arg10)

/-! # The frame -/

/-- From any memory with zero counters every weakly fair execution of the program terminates without a fault, and in
    every final state each of the eleven argument arrays holds its launch contents. The run ends with every unscoped
    buffer at the last boundary's contents; an argument is unscoped, and the last boundary's contents at an argument
    are the launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c),
    (h c _ (mem_uc main_arg9 (by decide))).trans (W11_main_arg9 m c),
    (h c _ (mem_uc main_arg10 (by decide))).trans (W11_main_arg10 m c)⟩) (run_all m ρ)

end Cert.KernelIdeal.Hand

end
-- ==== Proof.KIV.Spec.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
# The dense layers as whole-array functions

Each of the first four kernel regions computes one whole-array function of the two arrays it reads:
a matrix product of the node features with a weight matrix, or a row bias added to every node's
row followed by the positive part. They are stated here over the extended reals, index by index,
with no program in sight.
-/

noncomputable section

open scoped BigOperators

namespace Cert.KernelIdeal.Val

open Idealize.ShloMosaic Idealize.ShloMosaic.ValueIdx

/-- The product of a `100000 × K` array with a `K × 64` array: entry `(r, c)` is
    `∑ k, x (r, k) * w (k, c)`. -/
def mm (K : ℕ) (x : (⟨2, ![100000, K]⟩ : Shape).Idx → EReal) (w : (⟨2, ![K, 64]⟩ : Shape).Idx → EReal) :
    (⟨2, ![100000, 64]⟩ : Shape).Idx → EReal :=
  fun i => ∑ k : Fin K, x (ix2 (i 0) k) * w (ix2 k (i 1))

/-- The product read at an index. -/
theorem mm_apply (K : ℕ) (x : (⟨2, ![100000, K]⟩ : Shape).Idx → EReal) (w : (⟨2, ![K, 64]⟩ : Shape).Idx → EReal)
    (i : (⟨2, ![100000, 64]⟩ : Shape).Idx) :
    mm K x w i = ∑ k : Fin K, x (ix2 (i 0) k) * w (ix2 k (i 1)) := rfl

/-- The product at the index with coordinates `(r, c)`. -/
theorem mm_ix2 (K : ℕ) (x : (⟨2, ![100000, K]⟩ : Shape).Idx → EReal) (w : (⟨2, ![K, 64]⟩ : Shape).Idx → EReal)
    (r : Fin 100000) (c : Fin 64) :
    mm K x w (ix2 r c) = ∑ k : Fin K, x (ix2 r k) * w (ix2 k c) := rfl

/-- A row `b` added to every row of `y`, then the positive part: entry `(r, c)` is
    `max (y (r, c) + b (0, c)) 0`. -/
def biasRelu (y : (⟨2, ![100000, 64]⟩ : Shape).Idx → EReal) (b : (⟨2, ![1, 64]⟩ : Shape).Idx → EReal) :
    (⟨2, ![100000, 64]⟩ : Shape).Idx → EReal :=
  fun i => max (y i + b (ix2 0 (i 1))) 0

/-- The biased positive part read at an index. -/
theorem biasRelu_apply (y : (⟨2, ![100000, 64]⟩ : Shape).Idx → EReal) (b : (⟨2, ![1, 64]⟩ : Shape).Idx → EReal)
    (i : (⟨2, ![100000, 64]⟩ : Shape).Idx) :
    biasRelu y b i = max (y i + b (ix2 0 (i 1))) 0 := rfl

/-- The biased positive part at the index with coordinates `(r, c)`. -/
theorem biasRelu_ix2 (y : (⟨2, ![100000, 64]⟩ : Shape).Idx → EReal) (b : (⟨2, ![1, 64]⟩ : Shape).Idx → EReal)
    (r : Fin 100000) (c : Fin 64) :
    biasRelu y b (ix2 r c) = max (y (ix2 r c) + b (ix2 0 c)) 0 := rfl

end Cert.KernelIdeal.Val

end
-- ==== Proof.KIV.Pay.lean ====
import proofs.«408011_j62371515072934_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The bodies' stored values, element by element

Over the extended reals a change of float format is the identity, a block product into a zero
accumulator is the plain sum of products over the contracted axis, a cast to the same shape is the
identity, and a `[1, 64]` row broadcast over `10000` rows reads the row at the column. So each of
the four bodies stores, at row `p` and column `q` of its block, either `∑ k, x (p, k) * w (k, q)`
or `max (y (p, q) + b (0, q)) 0`.
-/

noncomputable section

open scoped BigOperators

namespace Cert.KernelIdeal.Val

open Cert.KernelIdeal Cert.KernelIdeal.Gen Idealize.ShloMosaic Idealize.ShloMosaic.ValueIdx Idealize.SL.Sem

/-! ## The operand indices of the two block products -/

/-- Along the rows the left operand's index follows the output's row. -/
theorem lhs_d128_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- Along the columns the left operand's index is the contraction's coordinate. -/
theorem lhs_d128_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- Along the rows the right operand's index is the contraction's coordinate. -/
theorem rhs_d128_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- Along the columns the right operand's index follows the output's column. -/
theorem rhs_d128_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Along the rows the left operand's index follows the output's row. -/
theorem lhs_d64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Along the columns the left operand's index is the contraction's coordinate. -/
theorem lhs_d64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Along the rows the right operand's index is the contraction's coordinate. -/
theorem rhs_d64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Along the columns the right operand's index follows the output's column. -/
theorem rhs_d64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## A block product at an index -/

/-- The block product read at `(p, q)`: the sum over the contracted axis of the operands' products,
    re-indexed from the contraction's one-axis index to its coordinate. -/
theorem matmul_d128_apply (l : FVec Ideal S10000x128 .bf16) (r : FVec Ideal S128x64 .bf16) (p : Fin 10000) (q : Fin 64) :
    FloatOps.matmul dot_S10000x128_S128x64_S10000x64_1_0_0_1_n_n none l r (constant (F := Ideal) S10000x64 .f32 0x00000000#32) (ix2 p q)
      = ∑ k : Fin 128, l (ix2 p k) * r (ix2 k q) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_d128_0 _ _
    | ⟨1, _⟩ => exact (lhs_d128_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_d128_0 _ _).trans hk
    | ⟨1, _⟩ => exact rhs_d128_1 _ _)
  rw [el, er]

/-- The block product read at `(p, q)`: the sum over the contracted axis of the operands' products,
    re-indexed from the contraction's one-axis index to its coordinate. -/
theorem matmul_d64_apply (l : FVec Ideal S10000x64 .bf16) (r : FVec Ideal S64x64 .bf16) (p : Fin 10000) (q : Fin 64) :
    FloatOps.matmul dot_S10000x64_S64x64_S10000x64_1_0_0_1_n_n none l r (constant (F := Ideal) S10000x64 .f32 0x00000000#32) (ix2 p q)
      = ∑ k : Fin 64, l (ix2 p k) * r (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_d64_0 _ _
    | ⟨1, _⟩ => exact (lhs_d64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-! ## The four bodies -/

/-- Region 0 stores the product of its feature block with the weight matrix. -/
theorem k0_pay1_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul_d128_apply _ _ p q

/-- Region 2 stores the product of its feature block with the weight matrix. -/
theorem k2_pay1_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  refine (matmul_d64_apply _ _ p q).trans ?_
  refine Finset.sum_congr rfl fun k _ => ?_
  rw [truncf_apply, truncf_apply, shapeCast_self]

/-- The row broadcast over the block reads the row at the column. -/
theorem bcastRow_apply (b : Vec Ideal S1x64 .f32) (h : S1x64.Broadcasts S10000x64) (p : Fin 10000) (q : Fin 64) :
    broadcastTo S10000x64 b h (ix2 p q) = b (ix2 0 q) :=
  broadcastTo_apply b h (ix2 p q) (ix2 0 q) (fun a => by
    match a with
    | ⟨0, _⟩ => rfl
    | ⟨1, _⟩ => rfl)

/-- Region 1 stores the biased positive part of its block. -/
theorem k1_pay1_apply (x0 : Vec Ideal S10000x64 .f32) (x1 : Vec Ideal S1x64 .f32) (p : Fin 10000) (q : Fin 64) :
    k1_pay1 (F := Ideal) x0 x1 (ix2 p q) = max (x0 (ix2 p q) + x1 (ix2 0 q)) 0 := by
  unfold k1_pay1
  rw [maximumf_apply, addf_apply, broadcast_apply, shapeCast_self, shapeCast_self, bcastRow_apply]
  show max _ (Ideal.ofBits .f32 0x00000000#32) = _
  rw [Ideal.ofBits_zero_f32]

/-- Region 3 stores the biased positive part of its block. -/
theorem k3_pay1_apply (x0 : Vec Ideal S10000x64 .f32) (x1 : Vec Ideal S1x64 .f32) (p : Fin 10000) (q : Fin 64) :
    k3_pay1 (F := Ideal) x0 x1 (ix2 p q) = max (x0 (ix2 p q) + x1 (ix2 0 q)) 0 := by
  unfold k3_pay1
  rw [maximumf_apply, addf_apply, broadcast_apply, shapeCast_self, shapeCast_self, bcastRow_apply]
  show max _ (Ideal.ofBits .f32 0x00000000#32) = _
  rw [Ideal.ofBits_zero_f32]

end Cert.KernelIdeal.Val

end
-- ==== Proof.KIV.Final0.lean ====
import proofs.«408011_j62371515072934_2_alg».proof.Proof.KI.R0
import proofs.«408011_j62371515072934_2_alg».proof.Proof.KIV.Spec
import proofs.«408011_j62371515072934_2_alg».proof.Proof.KIV.Pay
import Idealize.ShloMosaic.Lib.Pipeline.Value

/-!
# Region 0: the output array is a matrix product

The region's ten points each write back one block of ten thousand rows of the output. The value a point
stores at row `p`, column `q` of its block is the whole-array function at row `10000 t + p`, column `q`;
the ten blocks tile the hundred thousand rows; so after the region the output array is that function of
the two arrays the region reads, as it found them.
-/

set_option maxRecDepth 16384

noncomputable section

open scoped BigOperators

namespace Cert.KernelIdeal.Val

open Cert.KernelIdeal Cert.KernelIdeal.Gen Idealize.ShloMosaic Idealize.ShloMosaic.ValueIdx Idealize.SL.Sem

open Cert.KernelIdeal.Hand Idealize.ShloMosaic.TcCoe
open Idealize.ShloMosaic.Pipeline (Dat)

variable (V : (c : Dev nD) → (b : Ref sig .tc) → Buf (Elt Ideal) ((c : Thread nD τ).loc b))

/-- The body's loads and its store sit at the origin of their buffers. -/
private theorem zeros2 : (![0, 0] : Fin 2 → Nat) = fun _ => 0 := funext fun a => by fin_cases a <;> rfl

/-- The block index maps over the ten points: the first input and the output move down the rows with the point and
    stay in the one block of columns; the second input stays at its one block. -/
theorem blockMaps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of rows of the node features times the first weight matrix: the stored value at row `p`, column `q` of the
    block reads the first array at row `10000 t + p` and the second at the same column, which is where the output's block
    puts `(p, q)`. -/
theorem writeback0_eq (c : Dev nD) (t : Fin cfg0.N) :
    (dat0 V c).flushed 2 t = ((cfg0.win 2).blk t).view.read (Elt Ideal) (mm 128 (V c main_arg0) (V c main_arg3)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x64) zeros2]
  obtain ⟨e0, e1, e2, e3, e4, e5⟩ := blockMaps0 t
  funext j
  obtain ⟨p, q, rfl⟩ : ∃ (p : Fin 10000) (q : Fin 64), j = ix2 p q := ⟨j 0, j 1, eq_ix2 j⟩
  refine (k0_pay1_apply (iblk0 V c 0 t) (iblk0 V c 1 t) p q).trans ?_
  show _ = (mm 128 (V c main_arg0) (V c main_arg3)) (((cfg0.win 2).blk t).view.emb (ix2 p q))
  rw [mm_apply]
  refine Finset.sum_congr rfl fun k _ => ?_
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : iblk0 V c 1 t (ix2 k q) = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hl, hr]

/-- An index of the output array lies in point `t`'s block iff each coordinate lies in the block's range. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the output array is written back by some point: row `r` by point `r / 10000`. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5⟩ := blockMaps0 t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    rw [e4]
    show (i 0).val / 10000 * 10000 ≤ (i 0).val ∧ (i 0).val < (i 0).val / 10000 * 10000 + 10000
    omega
  | ⟨1, _⟩ =>
    show win0_2.index t (1 : Fin 2) * 64 ≤ (i 1).val ∧ (i 1).val < win0_2.index t (1 : Fin 2) * 64 + 64
    omega

/-- The output array after the region is the node features times the first weight matrix, as one function of the two arrays the region reads as it
    finds them. -/
theorem final0 (c : Dev nD) : (dat0 V c).arrAt 2 cfg0.N = mm 128 (V c main_arg0) (V c main_arg3) :=
  (dat0 V c).arrAt_eq_of_cover 2 (mm 128 (V c main_arg0) (V c main_arg3)) (fun t _ => writeback0_eq V c t) rows_covered0

end Cert.KernelIdeal.Val

end
-- ==== Proof.KIV.Final1.lean ====
import proofs.«408011_j62371515072934_2_alg».proof.Proof.KI.R1
import proofs.«408011_j62371515072934_2_alg».proof.Proof.KIV.Spec
import proofs.«408011_j62371515072934_2_alg».proof.Proof.KIV.Pay
import Idealize.ShloMosaic.Lib.Pipeline.Value

/-!
# Region 1: the output array is a biased positive part

The region's ten points each write back one block of ten thousand rows of the output. The value a point
stores at row `p`, column `q` of its block is the whole-array function at row `10000 t + p`, column `q`;
the ten blocks tile the hundred thousand rows; so after the region the output array is that function of
the two arrays the region reads, as it found them.
-/

set_option maxRecDepth 16384

noncomputable section

open scoped BigOperators

namespace Cert.KernelIdeal.Val

open Cert.KernelIdeal Cert.KernelIdeal.Gen Idealize.ShloMosaic Idealize.ShloMosaic.ValueIdx Idealize.SL.Sem

open Cert.KernelIdeal.Hand Idealize.ShloMosaic.TcCoe
open Idealize.ShloMosaic.Pipeline (Dat)

variable (V : (c : Dev nD) → (b : Ref sig .tc) → Buf (Elt Ideal) ((c : Thread nD τ).loc b))

/-- The body's loads and its store sit at the origin of their buffers. -/
private theorem zeros2 : (![0, 0] : Fin 2 → Nat) = fun _ => 0 := funext fun a => by fin_cases a <;> rfl

/-- The block index maps over the ten points: the first input and the output move down the rows with the point and
    stay in the one block of columns; the second input stays at its one block. -/
theorem blockMaps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is its block of rows of the first layer's aggregated rows plus the bias row, positive part: the stored value at row `p`, column `q` of the
    block reads the first array at row `10000 t + p` and the second at the same column, which is where the output's block
    puts `(p, q)`. -/
theorem writeback1_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zeros2]
  simp only [View.ld_unit_zero (S := S10000x64) zeros2, View.ld_unit_zero (S := S1x64) zeros2]
  obtain ⟨e0, e1, e2, e3, e4, e5⟩ := blockMaps1 t
  funext j
  obtain ⟨p, q, rfl⟩ : ∃ (p : Fin 10000) (q : Fin 64), j = ix2 p q := ⟨j 0, j 1, eq_ix2 j⟩
  refine (k1_pay1_apply (iblk1 V c 0 t) (iblk1 V c 1 t) p q).trans ?_
  show _ = (biasRelu (V c main_v43) (V c main_v44)) (((cfg1.win 2).blk t).view.emb (ix2 p q))
  rw [biasRelu_apply]
  have hl : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have hr : iblk1 V c 1 t (ix2 0 q) = V c main_v44 (ix2 0 ((((cfg1.win 2).blk t).view.emb (ix2 p q)) 1)) := by
    show V c main_v44 (((cfg1.win 1).blk t).view.emb (ix2 0 q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [hl, hr]

/-- An index of the output array lies in point `t`'s block iff each coordinate lies in the block's range. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every index of the output array is written back by some point: row `r` by point `r / 10000`. -/
theorem rows_covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨e0, e1, e2, e3, e4, e5⟩ := blockMaps1 t
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    rw [e4]
    show (i 0).val / 10000 * 10000 ≤ (i 0).val ∧ (i 0).val < (i 0).val / 10000 * 10000 + 10000
    omega
  | ⟨1, _⟩ =>
    show win1_2.index t (1 : Fin 2) * 64 ≤ (i 1).val ∧ (i 1).val < win1_2.index t (1 : Fin 2) * 64 + 64
    omega

/-- The output array after the region is the first layer's aggregated rows plus the bias row, positive part, as one function of the two arrays the region reads as it
    finds them. -/
theorem final1 (c : Dev nD) : (dat1 V c).arrAt 2 cfg1.N = biasRelu (V c main_v43) (V c main_v44) :=
  (dat1 V c).arrAt_eq_of_cover 2 (biasRelu (V c main_v43) (V c main_v44)) (fun t _ => writeback1_eq V c t) rows_covered1

end Cert.KernelIdeal.Val

end
-- ==== Proof.KIV.Final2.lean ====
import proofs.«408011_j62371515072934_2_alg».proof.Proof.KI.R2
import proofs.«408011_j62371515072934_2_alg».proof.Proof.KIV.Spec
import proofs.«408011_j62371515072934_2_alg».proof.Proof.KIV.Pay
import Idealize.ShloMosaic.Lib.Pipeline.Value

/-!
# Region 2: the output array is a matrix product

The region's ten points each write back one block of ten thousand rows of the output. The value a point
stores at row `p`, column `q` of its block is the whole-array function at row `10000 t + p`, column `q`;
the ten blocks tile the hundred thousand rows; so after the region the output array is that function of
the two arrays the region reads, as it found them.
-/

set_option maxRecDepth 16384

noncomputable section

open scoped BigOperators

namespace Cert.KernelIdeal.Val

open Cert.KernelIdeal Cert.KernelIdeal.Gen Idealize.ShloMosaic Idealize.ShloMosaic.ValueIdx Idealize.SL.Sem

open Cert.KernelIdeal.Hand Idealize.ShloMosaic.TcCoe
open Idealize.ShloMosaic.Pipeline (Dat)

variable (V : (c : Dev nD) → (b : Ref sig .tc) → Buf (Elt Ideal) ((c : Thread nD τ).loc b))

/-- The body's loads and its store sit at the origin of their buffers. -/
private theorem zeros2 : (![0, 0] : Fin 2 → Nat) = fun _ => 0 := funext fun a => by fin_cases a <;> rfl

/-- The block index maps over the ten points: the first input and the output move down the rows with the point and
    stay in the one block of columns; the second input stays at its one block. -/
theorem blockMaps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is its block of rows of the first layer's output times the second weight matrix: the stored value at row `p`, column `q` of the
    block reads the first array at row `10000 t + p` and the second at the same column, which is where the output's block
    puts `(p, q)`. -/
theorem writeback2_eq (c : Dev nD) (t : Fin cfg2.N) :
    (dat2 V c).flushed 2 t = ((cfg2.win 2).blk t).view.read (Elt Ideal) (mm 64 (V c main_v45) (V c main_arg5)) := by
  show (cfg2.win 2).cut (grid2.coords t) ((dat2 V c).after 2 t) = _
  rw [after2_2]
  unfold out2_2
  rw [View.canon_unit_zero zeros2]
  simp only [View.ld_unit_zero (S := S10000x64) zeros2, View.ld_unit_zero (S := S64x64) zeros2]
  obtain ⟨e0, e1, e2, e3, e4, e5⟩ := blockMaps2 t
  funext j
  obtain ⟨p, q, rfl⟩ : ∃ (p : Fin 10000) (q : Fin 64), j = ix2 p q := ⟨j 0, j 1, eq_ix2 j⟩
  refine (k2_pay1_apply (iblk2 V c 0 t) (iblk2 V c 1 t) p q).trans ?_
  show _ = (mm 64 (V c main_v45) (V c main_arg5)) (((cfg2.win 2).blk t).view.emb (ix2 p q))
  rw [mm_apply]
  refine Finset.sum_congr rfl fun k _ => ?_
  have hl : iblk2 V c 0 t (ix2 p k) = V c main_v45 (ix2 ((((cfg2.win 2).blk t).view.emb (ix2 p q)) 0) k) := by
    show V c main_v45 (((cfg2.win 0).blk t).view.emb (ix2 p k)) = _
    refine congrArg (V c main_v45) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hr : iblk2 V c 1 t (ix2 k q) = V c main_arg5 (ix2 k ((((cfg2.win 2).blk t).view.emb (ix2 p q)) 1)) := by
    show V c main_arg5 (((cfg2.win 1).blk t).view.emb (ix2 k q)) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hl, hr]

/-- An index of the output array lies in point `t`'s block iff each coordinate lies in the block's range. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every index of the output array is written back by some point: row `r` by point `r / 10000`. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨e0, e1, e2, e3, e4, e5⟩ := blockMaps2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    rw [e4]
    show (i 0).val / 10000 * 10000 ≤ (i 0).val ∧ (i 0).val < (i 0).val / 10000 * 10000 + 10000
    omega
  | ⟨1, _⟩ =>
    show win2_2.index t (1 : Fin 2) * 64 ≤ (i 1).val ∧ (i 1).val < win2_2.index t (1 : Fin 2) * 64 + 64
    omega

/-- The output array after the region is the first layer's output times the second weight matrix, as one function of the two arrays the region reads as it
    finds them. -/
theorem final2 (c : Dev nD) : (dat2 V c).arrAt 2 cfg2.N = mm 64 (V c main_v45) (V c main_arg5) :=
  (dat2 V c).arrAt_eq_of_cover 2 (mm 64 (V c main_v45) (V c main_arg5)) (fun t _ => writeback2_eq V c t) rows_covered2

end Cert.KernelIdeal.Val

end
-- ==== Proof.KIV.Final3.lean ====
import proofs.«408011_j62371515072934_2_alg».proof.Proof.KI.R3
import proofs.«408011_j62371515072934_2_alg».proof.Proof.KIV.Spec
import proofs.«408011_j62371515072934_2_alg».proof.Proof.KIV.Pay
import Idealize.ShloMosaic.Lib.Pipeline.Value

/-!
# Region 3: the output array is a biased positive part

The region's ten points each write back one block of ten thousand rows of the output. The value a point
stores at row `p`, column `q` of its block is the whole-array function at row `10000 t + p`, column `q`;
the ten blocks tile the hundred thousand rows; so after the region the output array is that function of
the two arrays the region reads, as it found them.
-/

set_option maxRecDepth 16384

noncomputable section

open scoped BigOperators

namespace Cert.KernelIdeal.Val

open Cert.KernelIdeal Cert.KernelIdeal.Gen Idealize.ShloMosaic Idealize.ShloMosaic.ValueIdx Idealize.SL.Sem

open Cert.KernelIdeal.Hand Idealize.ShloMosaic.TcCoe
open Idealize.ShloMosaic.Pipeline (Dat)

variable (V : (c : Dev nD) → (b : Ref sig .tc) → Buf (Elt Ideal) ((c : Thread nD τ).loc b))

/-- The body's loads and its store sit at the origin of their buffers. -/
private theorem zeros2 : (![0, 0] : Fin 2 → Nat) = fun _ => 0 := funext fun a => by fin_cases a <;> rfl

/-- The block index maps over the ten points: the first input and the output move down the rows with the point and
    stay in the one block of columns; the second input stays at its one block. -/
theorem blockMaps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is its block of rows of the second layer's aggregated rows plus the bias row, positive part: the stored value at row `p`, column `q` of the
    block reads the first array at row `10000 t + p` and the second at the same column, which is where the output's block
    puts `(p, q)`. -/
theorem writeback3_eq (c : Dev nD) (t : Fin cfg3.N) :
    (dat3 V c).flushed 2 t = ((cfg3.win 2).blk t).view.read (Elt Ideal) (biasRelu (V c main_v59) (V c main_v60)) := by
  show (cfg3.win 2).cut (grid3.coords t) ((dat3 V c).after 2 t) = _
  rw [after3_2]
  unfold out3_2
  rw [View.canon_unit_zero zeros2]
  simp only [View.ld_unit_zero (S := S10000x64) zeros2, View.ld_unit_zero (S := S1x64) zeros2]
  obtain ⟨e0, e1, e2, e3, e4, e5⟩ := blockMaps3 t
  funext j
  obtain ⟨p, q, rfl⟩ : ∃ (p : Fin 10000) (q : Fin 64), j = ix2 p q := ⟨j 0, j 1, eq_ix2 j⟩
  refine (k3_pay1_apply (iblk3 V c 0 t) (iblk3 V c 1 t) p q).trans ?_
  show _ = (biasRelu (V c main_v59) (V c main_v60)) (((cfg3.win 2).blk t).view.emb (ix2 p q))
  rw [biasRelu_apply]
  have hl : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hr : iblk3 V c 1 t (ix2 0 q) = V c main_v60 (ix2 0 ((((cfg3.win 2).blk t).view.emb (ix2 p q)) 1)) := by
    show V c main_v60 (((cfg3.win 1).blk t).view.emb (ix2 0 q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hl, hr]

/-- An index of the output array lies in point `t`'s block iff each coordinate lies in the block's range. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Every index of the output array is written back by some point: row `r` by point `r / 10000`. -/
theorem rows_covered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by rw [show cfg3.N = 10 from N_3]; omega⟩
  obtain ⟨e0, e1, e2, e3, e4, e5⟩ := blockMaps3 t
  refine ⟨t, flush3_2 t, ?_⟩
  rw [mem_block3]
  intro a
  match a with
  | ⟨0, _⟩ =>
    show win3_2.index t (0 : Fin 2) * 10000 ≤ (i 0).val ∧ (i 0).val < win3_2.index t (0 : Fin 2) * 10000 + 10000
    rw [e4]
    show (i 0).val / 10000 * 10000 ≤ (i 0).val ∧ (i 0).val < (i 0).val / 10000 * 10000 + 10000
    omega
  | ⟨1, _⟩ =>
    show win3_2.index t (1 : Fin 2) * 64 ≤ (i 1).val ∧ (i 1).val < win3_2.index t (1 : Fin 2) * 64 + 64
    omega

/-- The output array after the region is the second layer's aggregated rows plus the bias row, positive part, as one function of the two arrays the region reads as it
    finds them. -/
theorem final3 (c : Dev nD) : (dat3 V c).arrAt 2 cfg3.N = biasRelu (V c main_v59) (V c main_v60) :=
  (dat3 V c).arrAt_eq_of_cover 2 (biasRelu (V c main_v59) (V c main_v60)) (fun t _ => writeback3_eq V c t) rows_covered3

end Cert.KernelIdeal.Val

end
-- ==== Proof.KIV.Pieces4.lean ====
import proofs.«408011_j62371515072934_2_alg».proof.Proof.KI.R4
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## What each case's stores leave, as the payloads of the blocks -/

theorem hz2 : (![0, 0] : Fin 2 → Nat) = fun _ => 0 := funext fun a => by fin_cases a <;> rfl

/-- A middle point leaves, in the sums' accumulator, the accumulator's contents plus the block's pooled sums. -/
theorem sout4_B_0_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    sout4_B_0 c i arg1 harg1 arg2 harg2 arg3 harg3 arg4 harg4 arg5 harg5 arg6 harg6 arg7 harg7 arg8 harg8 arg9 harg9 arg10 harg10 hc0 hc1 x0 x1 x2 x3 x4 x5 xs0 xs1 = k4_pay4 x1 x0 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

/-- A middle point leaves, in the counts' accumulator, the accumulator's contents plus the block's counts. -/
theorem sout4_B_1_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    sout4_B_1 c i arg1 harg1 arg2 harg2 arg3 harg3 arg4 harg4 arg5 harg5 arg6 harg6 arg7 harg7 arg8 harg8 arg9 harg9 arg10 harg10 hc0 hc1 x0 x1 x2 x3 x4 x5 xs0 xs1 = k4_pay5 x1 xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

/-- The last point leaves the same in the two accumulators. -/
theorem sout4_C_0_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    sout4_C_0 c i arg1 harg1 arg2 harg2 arg3 harg3 arg4 harg4 arg5 harg5 arg6 harg6 arg7 harg7 arg8 harg8 arg9 harg9 arg10 harg10 hc0 hc1 x0 x1 x2 x3 x4 x5 xs0 xs1 = k4_pay4 x1 x0 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun4_C
  dsimp only
  sl_unfold_words
  rw [View.canon_unit_zero hz2]
  simp only [View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

theorem sout4_C_1_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    sout4_C_1 c i arg1 harg1 arg2 harg2 arg3 harg3 arg4 harg4 arg5 harg5 arg6 harg6 arg7 harg7 arg8 harg8 arg9 harg9 arg10 harg10 hc0 hc1 x0 x1 x2 x3 x4 x5 xs0 xs1 = k4_pay5 x1 xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun4_C
  dsimp only
  sl_unfold_words
  rw [View.canon_unit_zero hz2]
  simp only [View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

/-- The first point clears the sums' accumulator and leaves the block's pooled sums added to the zero block. -/
theorem sout4_A_0_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) :
    sout4_A_0 c i arg1 harg1 arg2 harg2 arg3 harg3 arg4 harg4 arg5 harg5 arg6 harg6 arg7 harg7 arg8 harg8 arg9 harg9 arg10 harg10 hc0 hc1 x0 x1 x2 x3 x4 x5 = k4_pay4 x1 x0 (k4_pay1 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 hc0 hc1 x0 x1 x2 x3 x4 x5)]
  unfold kernelRun4_A
  dsimp only
  sl_unfold_words
  rw [View.canon_cons_unit_zero (S := S64x64) hz2]
  simp only [View.readCov_unit_zero (S := S64x64) _ hz2, View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

/-- The first point clears the counts' accumulator and leaves the block's counts added to the zero column. -/
theorem sout4_A_1_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) :
    sout4_A_1 c i arg1 harg1 arg2 harg2 arg3 harg3 arg4 harg4 arg5 harg5 arg6 harg6 arg7 harg7 arg8 harg8 arg9 harg9 arg10 harg10 hc0 hc1 x0 x1 x2 x3 x4 x5 = k4_pay5 x1 (k4_pay2 (F := F)) := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 hc0 hc1 x0 x1 x2 x3 x4 x5)]
  unfold kernelRun4_A
  dsimp only
  sl_unfold_words
  rw [View.canon_cons_unit_zero (S := S64x1) hz2]
  simp only [View.readCov_unit_zero (S := S64x1) _ hz2, View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

/-- The last point stores, in the first output, the head's first map of the totals it has just left in the accumulators. -/
theorem out4_C_6_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    out4_C_6 c i arg1 harg1 arg2 harg2 arg3 harg3 arg4 harg4 arg5 harg5 arg6 harg6 arg7 harg7 arg8 harg8 arg9 harg9 arg10 harg10 hc0 hc1 x0 x1 x2 x3 x4 x5 xs0 xs1 = k4_pay6 (k4_pay4 x1 x0 xs0) (k4_pay5 x1 xs1) x2 x3 := by
  unfold out4_C_6
  rw [View.read_writes_eq_canon _ _ _ (cover4_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun4_C
  dsimp only
  sl_unfold_words
  rw [View.canon_unit_zero hz2]
  simp only [View.readCov_unit_zero (S := S64x64) _ hz2, View.readCov_unit_zero (S := S64x1) _ hz2, View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

/-- The last point stores, in the second output, the head's second map of the same totals. -/
theorem out4_C_7_eq (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    out4_C_7 c i arg1 harg1 arg2 harg2 arg3 harg3 arg4 harg4 arg5 harg5 arg6 harg6 arg7 harg7 arg8 harg8 arg9 harg9 arg10 harg10 hc0 hc1 x0 x1 x2 x3 x4 x5 xs0 xs1 = k4_pay7 (k4_pay4 x1 x0 xs0) (k4_pay5 x1 xs1) x2 x3 x4 x5 := by
  unfold out4_C_7
  rw [View.read_writes_eq_canon _ _ _ (cover4_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun4_C
  dsimp only
  sl_unfold_words
  rw [View.canon_unit_zero hz2]
  simp only [View.readCov_unit_zero (S := S64x64) _ hz2, View.readCov_unit_zero (S := S64x1) _ hz2, View.readAt_eq_ld, harg1.read_unread, harg2.read_unread, harg3.read_unread, harg4.read_unread, harg5.read_unread, harg6.read_unread, harg9.read_unread, harg10.read_unread, View.ld_unit_zero (S := S10000x64) hz2, View.ld_unit_zero (S := S10000x1) hz2, View.ld_unit_zero (S := S64x64) hz2, View.ld_unit_zero (S := S64x1) hz2, View.ld_unit_zero (S := S1x64) hz2, View.ld_unit_zero (S := S64x6) hz2, View.ld_unit_zero (S := S1x6) hz2]

end Cert.KernelIdeal.Hand

end
-- ==== Proof.KIV.PoolSpec.lean ====
import Idealize.ShloMosaic.PureOps.Ideal.Laws
import Idealize.ShloMosaic.Lib.ValueIdx

noncomputable section

open scoped BigOperators

namespace Cert.KernelIdeal.Val

open Idealize.ShloMosaic Idealize.ShloMosaic.ValueIdx

/-! ## A sum over 100000 rows, taken tile by tile

The rows are cut into ten tiles of 10000 consecutive rows. Adding the tiles' sums one after the other, starting from
zero, gives the sum over all rows: addition of extended reals is commutative and associative, so nothing about
finiteness is asked. -/

/-- Row `r` of tile `t`, as a row of the whole array. -/
def tileRow (t : Fin 10) (r : Fin 10000) : Fin 100000 := ⟨t.val * 10000 + r.val, by omega⟩

theorem tileRow_val (t : Fin 10) (r : Fin 10000) : (tileRow t r).val = t.val * 10000 + r.val := rfl

/-- The sum of `f` over the rows of tile `t`. -/
def tileSum (f : Fin 100000 → EReal) (t : Fin 10) : EReal := ∑ r : Fin 10000, f (tileRow t r)

/-- The sum of `f` over the tiles `0, …, n`. -/
def accSum (f : Fin 100000 → EReal) (n : ℕ) : EReal :=
  ∑ t ∈ Finset.univ.filter (fun t : Fin 10 => t.val ≤ n), tileSum f t

/-- After the first tile: zero plus that tile's sum. -/
theorem accSum_zero (f : Fin 100000 → EReal) : accSum f 0 = 0 + tileSum f 0 := by
  unfold accSum
  have hs : Finset.univ.filter (fun t : Fin 10 => t.val ≤ 0) = {0} := by
    ext t
    simp only [Finset.mem_filter, Finset.mem_univ, true_and, Finset.mem_singleton, Fin.ext_iff]
    show t.val ≤ 0 ↔ t.val = 0
    omega
  rw [hs, Finset.sum_singleton, zero_add]

/-- One more tile: the sum so far plus that tile's sum. -/
theorem accSum_succ (f : Fin 100000 → EReal) (n : ℕ) (hn : n + 1 < 10) :
    accSum f (n + 1) = accSum f n + tileSum f ⟨n + 1, hn⟩ := by
  unfold accSum
  have hs : Finset.univ.filter (fun t : Fin 10 => t.val ≤ n + 1)
      = insert (⟨n + 1, hn⟩ : Fin 10) (Finset.univ.filter (fun t : Fin 10 => t.val ≤ n)) := by
    ext t
    simp only [Finset.mem_filter, Finset.mem_univ, true_and, Finset.mem_insert, Fin.ext_iff]
    omega
  have hnm : (⟨n + 1, hn⟩ : Fin 10) ∉ Finset.univ.filter (fun t : Fin 10 => t.val ≤ n) := by
    simp only [Finset.mem_filter, Finset.mem_univ, true_and]
    omega
  rw [hs, Finset.sum_insert hnm, add_comm]

/-- The ten tiles are all the rows. -/
theorem sum_tiles (f : Fin 100000 → EReal) : ∑ t : Fin 10, tileSum f t = ∑ r : Fin 100000, f r := by
  unfold tileSum
  rw [← Equiv.sum_comp (finProdFinEquiv : Fin 10 × Fin 10000 ≃ Fin 100000) f, Fintype.sum_prod_type]
  refine Finset.sum_congr rfl fun t _ => Finset.sum_congr rfl fun r _ => congrArg f (Fin.ext ?_)
  show t.val * 10000 + r.val = r.val + 10000 * t.val
  omega

/-- After the last tile: the sum over all rows. -/
theorem accSum_last (f : Fin 100000 → EReal) : accSum f 9 = ∑ r : Fin 100000, f r := by
  unfold accSum
  rw [Finset.filter_true_of_mem (fun t _ => by have := t.isLt; omega)]
  exact sum_tiles f

/-! ## The pooled sums and counts

Graph `g` collects the rows whose batch word is `g`: entry `(g, q)` of the pooled sum adds column `q` of those rows, and
the count of `g` adds one `1.0` per such row. A row whose batch word is no graph's number is in no sum. -/

/-- What row `r` gives entry `(g, q)` of the pooled sum. -/
def selH (h : (⟨2, ![100000, 64]⟩ : Shape).Idx → EReal) (batch : (⟨2, ![100000, 1]⟩ : Shape).Idx → BitVec 32)
    (g q : Fin 64) (r : Fin 100000) : EReal :=
  if batch (ix2 r (0 : Fin 1)) = BitVec.ofNat 32 g.val then h (ix2 r q) else 0

/-- What row `r` gives the count of graph `g`. -/
def selC (batch : (⟨2, ![100000, 1]⟩ : Shape).Idx → BitVec 32) (g : Fin 64) (r : Fin 100000) : EReal :=
  if batch (ix2 r (0 : Fin 1)) = BitVec.ofNat 32 g.val then Ideal.ofBits .f32 0x3F800000#32 else 0

/-- The pooled sum: entry `(g, q)` adds `h r q` over the rows `r` of graph `g`. -/
def poolSum (h : (⟨2, ![100000, 64]⟩ : Shape).Idx → EReal) (batch : (⟨2, ![100000, 1]⟩ : Shape).Idx → BitVec 32) :
    (⟨2, ![64, 64]⟩ : Shape).Idx → EReal :=
  fun i => ∑ r : Fin 100000, selH h batch (i 0) (i 1) r

/-- The counts, as a column: entry `(g, 0)` adds `1.0` over the rows of graph `g`. -/
def poolCnt (batch : (⟨2, ![100000, 1]⟩ : Shape).Idx → BitVec 32) : (⟨2, ![64, 1]⟩ : Shape).Idx → EReal :=
  fun i => ∑ r : Fin 100000, selC batch (i 0) r

/-- The pooled sum after the tiles `0, …, n`. -/
def partSum (h : (⟨2, ![100000, 64]⟩ : Shape).Idx → EReal) (batch : (⟨2, ![100000, 1]⟩ : Shape).Idx → BitVec 32) (n : ℕ) :
    (⟨2, ![64, 64]⟩ : Shape).Idx → EReal :=
  fun i => accSum (selH h batch (i 0) (i 1)) n

/-- The counts after the tiles `0, …, n`. -/
def partCnt (batch : (⟨2, ![100000, 1]⟩ : Shape).Idx → BitVec 32) (n : ℕ) : (⟨2, ![64, 1]⟩ : Shape).Idx → EReal :=
  fun i => accSum (selC batch (i 0)) n

theorem partSum_last (h : (⟨2, ![100000, 64]⟩ : Shape).Idx → EReal) (batch : (⟨2, ![100000, 1]⟩ : Shape).Idx → BitVec 32) :
    partSum h batch 9 = poolSum h batch :=
  funext fun i => accSum_last (selH h batch (i 0) (i 1))

theorem partCnt_last (batch : (⟨2, ![100000, 1]⟩ : Shape).Idx → BitVec 32) : partCnt batch 9 = poolCnt batch :=
  funext fun i => accSum_last (selC batch (i 0))

/-! ## The head

The mean divides each pooled sum by its graph's count, the count raised to at least `1.0`; then two affine maps:
`z = mean · Wp + bp` and `logits = z · Wc + bc`, the bias a single row added to every row. -/

/-- Entry `(g, q)` of the mean: the sum over the count, the count at least `1.0`. -/
def meanAt (sums : (⟨2, ![64, 64]⟩ : Shape).Idx → EReal) (cnt : (⟨2, ![64, 1]⟩ : Shape).Idx → EReal) (g q : Fin 64) : EReal :=
  Ideal.div (sums (ix2 g q)) (max (cnt (ix2 g (0 : Fin 1))) (Ideal.ofBits .f32 0x3F800000#32))

/-- Entry `(a, b)` of `x · W + bias`, for a `[64, 64]` matrix `x`, a `[64, n]` matrix `W` and a `[1, n]` row `bias`. -/
def affineAt {n : ℕ} (x : Fin 64 → Fin 64 → EReal) (W : (⟨2, ![64, n]⟩ : Shape).Idx → EReal)
    (bias : (⟨2, ![1, n]⟩ : Shape).Idx → EReal) (a : Fin 64) (b : Fin n) : EReal :=
  (∑ k : Fin 64, x a k * W (ix2 k b)) + bias (ix2 (0 : Fin 1) b)

/-- `z` from the sums and counts in hand. -/
def zOfAcc (sums : (⟨2, ![64, 64]⟩ : Shape).Idx → EReal) (cnt : (⟨2, ![64, 1]⟩ : Shape).Idx → EReal)
    (Wp : (⟨2, ![64, 64]⟩ : Shape).Idx → EReal) (bp : (⟨2, ![1, 64]⟩ : Shape).Idx → EReal) :
    (⟨2, ![64, 64]⟩ : Shape).Idx → EReal :=
  fun i => affineAt (meanAt sums cnt) Wp bp (i 0) (i 1)

/-- The logits from the sums and counts in hand. -/
def logitsOfAcc (sums : (⟨2, ![64, 64]⟩ : Shape).Idx → EReal) (cnt : (⟨2, ![64, 1]⟩ : Shape).Idx → EReal)
    (Wp : (⟨2, ![64, 64]⟩ : Shape).Idx → EReal) (bp : (⟨2, ![1, 64]⟩ : Shape).Idx → EReal)
    (Wc : (⟨2, ![64, 6]⟩ : Shape).Idx → EReal) (bc : (⟨2, ![1, 6]⟩ : Shape).Idx → EReal) :
    (⟨2, ![64, 6]⟩ : Shape).Idx → EReal :=
  fun i => affineAt (fun a k => zOfAcc sums cnt Wp bp (ix2 a k)) Wc bc (i 0) (i 1)

/-- `z` of the whole arrays. -/
def zOf (h : (⟨2, ![100000, 64]⟩ : Shape).Idx → EReal) (batch : (⟨2, ![100000, 1]⟩ : Shape).Idx → BitVec 32)
    (Wp : (⟨2, ![64, 64]⟩ : Shape).Idx → EReal) (bp : (⟨2, ![1, 64]⟩ : Shape).Idx → EReal) :
    (⟨2, ![64, 64]⟩ : Shape).Idx → EReal :=
  zOfAcc (poolSum h batch) (poolCnt batch) Wp bp

/-- The logits of the whole arrays. -/
def logitsOf (h : (⟨2, ![100000, 64]⟩ : Shape).Idx → EReal) (batch : (⟨2, ![100000, 1]⟩ : Shape).Idx → BitVec 32)
    (Wp : (⟨2, ![64, 64]⟩ : Shape).Idx → EReal) (bp : (⟨2, ![1, 64]⟩ : Shape).Idx → EReal)
    (Wc : (⟨2, ![64, 6]⟩ : Shape).Idx → EReal) (bc : (⟨2, ![1, 6]⟩ : Shape).Idx → EReal) :
    (⟨2, ![64, 6]⟩ : Shape).Idx → EReal :=
  logitsOfAcc (poolSum h batch) (poolCnt batch) Wp bp Wc bc

end Cert.KernelIdeal.Val

end
-- ==== Proof.KIV.Pay4.lean ====
import proofs.«408011_j62371515072934_2_alg».proof.Proof.Gen.KernelIdeal.Skeleton
import proofs.«408011_j62371515072934_2_alg».proof.Proof.KIV.PoolSpec
import Idealize.ShloMosaic.Lib.Pipeline.Value
import Idealize.ShloMosaic.Lib.ValueLayout
import Idealize.ShloMosaic.Lib.StackMember

set_option maxRecDepth 16384

noncomputable section

open scoped BigOperators

namespace Cert.KernelIdeal.Val

open Idealize.ShloMosaic Idealize.ShloMosaic.ValueIdx Cert.KernelIdeal Cert.KernelIdeal.Gen

/-! ## Words and layout read at an index -/

/-- The one-hot entry: the comparison's bit, widened and converted, is `1` where the two words agree and `0` elsewhere. -/
theorem onehot_word (x y : BitVec 32) :
    (FloatOps.sitofp (F := Ideal) .f32 ((IntOp.cmpi .eq x y).setWidth 32) : EReal) = if y = x then 1 else 0 := by
  by_cases h : y = x
  · subst h
    rw [if_pos rfl]
    have e : IntOp.cmpi .eq y y = 1#1 := by simp [IntOp.cmpi]
    rw [e]
    show (((( (1#1 : BitVec 1).setWidth 32).toInt : ℝ)) : EReal) = 1
    have e2 : ((1#1 : BitVec 1).setWidth 32).toInt = 1 := by decide
    rw [e2]
    norm_num
  · rw [if_neg h]
    have e : IntOp.cmpi .eq x y = 0#1 := by
      have : (x == y) = false := by simpa using fun h' => h h'.symm
      simp [IntOp.cmpi, this]
    rw [e]
    show (((( (0#1 : BitVec 1).setWidth 32).toInt : ℝ)) : EReal) = 0
    have e2 : ((0#1 : BitVec 1).setWidth 32).toInt = 0 := by decide
    rw [e2]
    norm_num

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product of an `m × k` by a `k × n` matrix added onto the zero block, read at `(a, b)`: the sum over the
    contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine (Ideal.dotGeneral_apply (DotDims.plain m k n) prec default A B (ix2 a b)).symm.trans ?_
  exact StackMember.dotGeneral_plain_apply prec A B a b

/-- The program's four contraction records are the plain matrix product's: axis 1 of the left against axis 0 of the right. -/
theorem dot_tile_sum_eq : dot_S64x10000_S10000x64_S64x64_1_0_0_1_n_n = DotDims.plain 64 10000 64 := rfl
theorem dot_tile_cnt_eq : dot_S64x10000_S10000x1_S64x1_1_0_0_1_n_n = DotDims.plain 64 10000 1 := rfl
theorem dot_head_z_eq : dot_S64x64_S64x64_S64x64_1_0_0_1_n_n = DotDims.plain 64 64 64 := rfl
theorem dot_head_l_eq : dot_S64x64_S64x6_S64x6_1_0_0_1_n_n = DotDims.plain 64 64 6 := rfl

/-! ## The payloads at an index -/

/-- The reset blocks are zero. -/
theorem pay1_apply (i : S64x64.Idx) : k4_pay1 (F := Ideal) i = 0 := by
  unfold k4_pay1
  rw [shapeCast_self]
  exact Ideal.ofBits_zero_f32

theorem pay2_apply (i : S64x1.Idx) : k4_pay2 (F := Ideal) i = 0 := by
  unfold k4_pay2
  rw [shapeCast_self]
  exact Ideal.ofBits_zero_f32

/-- The one-hot block: entry `(r, g)` is `1` when row `r`'s batch word is `g`, else `0`. -/
theorem pay3_apply (v4 : Vec Ideal S10000x1 .i32) (r : Fin 10000) (g : Fin 64) :
    k4_pay3 (F := Ideal) v4 (ix2 r g) = if v4 (ix2 r (0 : Fin 1)) = BitVec.ofNat 32 g.val then 1 else 0 := by
  unfold k4_pay3
  show (FloatOps.sitofp (F := Ideal) .f32 ((IntOp.cmpi .eq (iota .tc S10000x64 32 [1] iota_S10000x64_d1_w32 (ix2 r g))
    (broadcastTo S10000x64 (shapeCast S10000x1 v4 shapeCasts_S10000x1_S10000x1) broadcasts_S10000x1_S10000x64 (ix2 r g))).setWidth 32) : EReal) = _
  rw [onehot_word, shapeCast_self, iota_single_apply]
  rw [broadcastTo_a1_ab_apply (a := 10000) (b := 64) v4 broadcasts_S10000x1_S10000x64 r g]

/-- One tile's update of the pooled sums: entry `(g, q)` gains column `q` of the tile's rows whose batch word is `g`. -/
theorem pay4_apply (v4 : Vec Ideal S10000x1 .i32) (v10 : Vec Ideal S10000x64 .f32) (v12 : Vec Ideal S64x64 .f32)
    (g q : Fin 64) :
    k4_pay4 (F := Ideal) v4 v10 v12 (ix2 g q)
      = v12 (ix2 g q) + ∑ r : Fin 10000, (if v4 (ix2 r (0 : Fin 1)) = BitVec.ofNat 32 g.val then v10 (ix2 r q) else 0) := by
  unfold k4_pay4
  show (shapeCast S64x64 (addf v12 (matmul dot_S64x10000_S10000x64_S64x64_1_0_0_1_n_n none
    (transpose S64x10000 [1, 0] (k4_pay3 (F := Ideal) v4) transposes_S10000x64_p1_0_S64x10000)
    (shapeCast S10000x64 v10 shapeCasts_S10000x64_S10000x64) (constant (F := Ideal) S64x64 .f32 0x00000000#32)))
    shapeCasts_S64x64_S64x64) (ix2 g q) = _
  rw [shapeCast_self, shapeCast_self, addf_apply]
  refine congrArg (v12 (ix2 g q) + ·) ?_
  rw [dot_tile_sum_eq]
  refine (matmul_plain_zero_apply (m := 64) (k := 10000) (n := 64) none _ v10 g q).trans ?_
  refine Finset.sum_congr rfl fun r _ => ?_
  rw [transpose_ix2_apply (a := 10000) (b := 64) (k4_pay3 (F := Ideal) v4) transposes_S10000x64_p1_0_S64x10000 g r,
    pay3_apply]
  split
  · exact one_mul _
  · exact zero_mul _

/-- One tile's update of the counts: graph `g` gains `1.0` per row of the tile whose batch word is `g`. -/
theorem pay5_apply (v4 : Vec Ideal S10000x1 .i32) (v20 : Vec Ideal S64x1 .f32) (g : Fin 64) :
    k4_pay5 (F := Ideal) v4 v20 (ix2 g (0 : Fin 1))
      = v20 (ix2 g (0 : Fin 1))
        + ∑ r : Fin 10000, (if v4 (ix2 r (0 : Fin 1)) = BitVec.ofNat 32 g.val then Ideal.ofBits .f32 0x3F800000#32 else 0) := by
  unfold k4_pay5
  show (shapeCast S64x1 (addf v20 (matmul dot_S64x10000_S10000x1_S64x1_1_0_0_1_n_n none
    (transpose S64x10000 [1, 0] (k4_pay3 (F := Ideal) v4) transposes_S10000x64_p1_0_S64x10000)
    (broadcast S10000x1 (Scalar.ofBits (F := Ideal) .f32 0x3F800000#32)) (constant (F := Ideal) S64x1 .f32 0x00000000#32)))
    shapeCasts_S64x1_S64x1) (ix2 g (0 : Fin 1)) = _
  rw [shapeCast_self, addf_apply]
  refine congrArg (v20 (ix2 g (0 : Fin 1)) + ·) ?_
  rw [dot_tile_cnt_eq]
  refine (matmul_plain_zero_apply (m := 64) (k := 10000) (n := 1) none _
    (broadcast S10000x1 (Scalar.ofBits (F := Ideal) .f32 0x3F800000#32)) g (0 : Fin 1)).trans ?_
  refine Finset.sum_congr rfl fun r _ => ?_
  rw [transpose_ix2_apply (a := 10000) (b := 64) (k4_pay3 (F := Ideal) v4) transposes_S10000x64_p1_0_S64x10000 g r,
    pay3_apply]
  show (if v4 (ix2 r (0 : Fin 1)) = BitVec.ofNat 32 g.val then (1 : EReal) else 0) * Ideal.ofBits .f32 0x3F800000#32 = _
  split
  · exact one_mul _
  · exact zero_mul _

/-- The same two updates, for a tile of the whole arrays: the block's rows are rows `tileRow t r` of `h` and `batch`. -/
theorem pay4_tile (h : S100000x64.Idx → EReal) (batch : S100000x1.Idx → BitVec 32) (t : Fin 10)
    (v4 : Vec Ideal S10000x1 .i32) (v10 : Vec Ideal S10000x64 .f32) (v12 : Vec Ideal S64x64 .f32)
    (hb : ∀ r : Fin 10000, v4 (ix2 r (0 : Fin 1)) = batch (ix2 (tileRow t r) (0 : Fin 1)))
    (hh : ∀ (r : Fin 10000) (q : Fin 64), v10 (ix2 r q) = h (ix2 (tileRow t r) q)) (g q : Fin 64) :
    k4_pay4 (F := Ideal) v4 v10 v12 (ix2 g q) = v12 (ix2 g q) + tileSum (selH h batch g q) t := by
  rw [pay4_apply]
  refine congrArg (v12 (ix2 g q) + ·) ?_
  unfold tileSum selH
  refine Finset.sum_congr rfl fun r _ => ?_
  rw [hb r, hh r q]

theorem pay5_tile (batch : S100000x1.Idx → BitVec 32) (t : Fin 10)
    (v4 : Vec Ideal S10000x1 .i32) (v20 : Vec Ideal S64x1 .f32)
    (hb : ∀ r : Fin 10000, v4 (ix2 r (0 : Fin 1)) = batch (ix2 (tileRow t r) (0 : Fin 1))) (g : Fin 64) :
    k4_pay5 (F := Ideal) v4 v20 (ix2 g (0 : Fin 1)) = v20 (ix2 g (0 : Fin 1)) + tileSum (selC batch g) t := by
  rw [pay5_apply]
  refine congrArg (v20 (ix2 g (0 : Fin 1)) + ·) ?_
  unfold tileSum selC
  refine Finset.sum_congr rfl fun r _ => ?_
  rw [hb r]

/-- The head's first map: `z = mean · Wp + bp` of the sums and counts loaded. -/
theorem pay6_apply (v30 : Vec Ideal S64x64 .f32) (v31 : Vec Ideal S64x1 .f32) (v37 : Vec Ideal S64x64 .f32)
    (v40 : Vec Ideal S1x64 .f32) (a b : Fin 64) :
    k4_pay6 (F := Ideal) v30 v31 v37 v40 (ix2 a b) = affineAt (meanAt v30 v31) v37 v40 a b := by
  unfold k4_pay6
  show (addf (matmul dot_S64x64_S64x64_S64x64_1_0_0_1_n_n none
    (truncf .bf16 (divf v30 (broadcastTo S64x64 (maximumf v31 (broadcast S64x1 (Scalar.ofBits (F := Ideal) .f32 0x3F800000#32)))
      broadcasts_S64x1_S64x64)) bitsLt_bf16_f32)
    (truncf .bf16 v37 bitsLt_bf16_f32) (constant (F := Ideal) S64x64 .f32 0x00000000#32))
    (broadcastTo S64x64 (shapeCast S1x64 v40 shapeCasts_S1x64_S1x64) broadcasts_S1x64_S64x64)) (ix2 a b) = _
  rw [addf_apply, shapeCast_self, broadcastTo_1b_ab_apply (a := 64) (b := 64) v40 broadcasts_S1x64_S64x64 a b, dot_head_z_eq]
  unfold affineAt
  refine congrArg (· + v40 (ix2 (0 : Fin 1) b)) ?_
  refine (matmul_plain_zero_apply (m := 64) (k := 64) (n := 64) none _ _ a b).trans ?_
  refine Finset.sum_congr rfl fun k _ => ?_
  show Ideal.div (v30 (ix2 a k)) (broadcastTo S64x64 (maximumf v31 (broadcast S64x1 (Scalar.ofBits (F := Ideal) .f32 0x3F800000#32)))
    broadcasts_S64x1_S64x64 (ix2 a k)) * v37 (ix2 k b) = _
  rw [broadcastTo_a1_ab_apply (a := 64) (b := 64) _ broadcasts_S64x1_S64x64 a k]
  rfl

/-- As a block: the first output is `z` of the sums and counts loaded. -/
theorem pay6_eq (v30 : Vec Ideal S64x64 .f32) (v31 : Vec Ideal S64x1 .f32) (v37 : Vec Ideal S64x64 .f32)
    (v40 : Vec Ideal S1x64 .f32) : k4_pay6 (F := Ideal) v30 v31 v37 v40 = zOfAcc v30 v31 v37 v40 := by
  funext i
  obtain ⟨a, b, rfl⟩ : ∃ (a b : Fin 64), i = ix2 a b := ⟨i 0, i 1, eq_ix2 i⟩
  exact pay6_apply v30 v31 v37 v40 a b

/-- The head's second map: `logits = z · Wc + bc`. -/
theorem pay7_apply (v30 : Vec Ideal S64x64 .f32) (v31 : Vec Ideal S64x1 .f32) (v37 : Vec Ideal S64x64 .f32)
    (v40 : Vec Ideal S1x64 .f32) (v45 : Vec Ideal S64x6 .f32) (v48 : Vec Ideal S1x6 .f32) (a : Fin 64) (b : Fin 6) :
    k4_pay7 (F := Ideal) v30 v31 v37 v40 v45 v48 (ix2 a b)
      = affineAt (fun a k => zOfAcc v30 v31 v37 v40 (ix2 a k)) v45 v48 a b := by
  unfold k4_pay7
  show (addf (matmul dot_S64x64_S64x6_S64x6_1_0_0_1_n_n none
    (truncf .bf16 (k4_pay6 (F := Ideal) v30 v31 v37 v40) bitsLt_bf16_f32)
    (truncf .bf16 v45 bitsLt_bf16_f32) (constant (F := Ideal) S64x6 .f32 0x00000000#32))
    (broadcastTo S64x6 (shapeCast S1x6 v48 shapeCasts_S1x6_S1x6) broadcasts_S1x6_S64x6)) (ix2 a b) = _
  rw [addf_apply, shapeCast_self, broadcastTo_1b_ab_apply (a := 64) (b := 6) v48 broadcasts_S1x6_S64x6 a b, dot_head_l_eq,
    pay6_eq]
  unfold affineAt
  refine congrArg (· + v48 (ix2 (0 : Fin 1) b)) ?_
  exact matmul_plain_zero_apply (m := 64) (k := 64) (n := 6) none _ _ a b

/-- As a block: the second output is the logits of the sums and counts loaded. -/
theorem pay7_eq (v30 : Vec Ideal S64x64 .f32) (v31 : Vec Ideal S64x1 .f32) (v37 : Vec Ideal S64x64 .f32)
    (v40 : Vec Ideal S1x64 .f32) (v45 : Vec Ideal S64x6 .f32) (v48 : Vec Ideal S1x6 .f32) :
    k4_pay7 (F := Ideal) v30 v31 v37 v40 v45 v48 = logitsOfAcc v30 v31 v37 v40 v45 v48 := by
  funext i
  obtain ⟨a, b, rfl⟩ : ∃ (a : Fin 64) (b : Fin 6), i = ix2 a b := ⟨i 0, i 1, eq_ix2 i⟩
  exact pay7_apply v30 v31 v37 v40 v45 v48 a b

end Cert.KernelIdeal.Val

end
-- ==== Proof.KIV.Final4Flush.lean ====
import proofs.«408011_j62371515072934_2_alg».proof.Proof.KI.R4
import Idealize.ShloMosaic.Lib.Pipeline.Value

/-!
# Region 4: what the two output arrays hold after the region

The pooled projection (64 by 64) and the class scores (64 by 6) are each one block, the whole array, at block index
zero at every point, and that block is written back at the last of the ten points only. So after the region each
array holds exactly what the last point's body left in the window's staging buffer: the first two components of the
accumulation `outsAt4` at point 9. Nothing here depends on what the body computes.
-/

set_option maxRecDepth 16384

noncomputable section

namespace Cert.KernelIdeal.Val

open Cert.KernelIdeal Cert.KernelIdeal.Gen Idealize.ShloMosaic Idealize.SL.Sem
open Cert.KernelIdeal.Hand Idealize.ShloMosaic.TcCoe
open Idealize.ShloMosaic.Pipeline (Dat)

variable {F : FTy → Type} [FloatOps F]
variable (V : (c : Dev nD) → (b : Ref sig .tc) → Buf (Elt F) ((c : Thread nD τ).loc b))

/-- Point 9 is one of the ten. -/
theorem nine_lt4 : 9 < cfg4.N := by rw [show cfg4.N = 10 from N_4]; decide

/-- Both output windows sit at block index zero on both axes, at every point. -/
theorem outIndex4 : ∀ t : Fin cfg4.N,
    win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- So the pooled projection's block starts at the array's origin, -/
theorem origin4_6 (t : Fin cfg4.N) : (fun a => win4_6.index t a * main_v65_0.ty.shape.size a) = fun _ => 0 := by
  obtain ⟨e0, e1, -, -⟩ := outIndex4 t
  funext a
  match a with
  | ⟨0, _⟩ => show win4_6.index t (0 : Fin 2) * _ = 0; rw [e0, Nat.zero_mul]
  | ⟨1, _⟩ => show win4_6.index t (1 : Fin 2) * _ = 0; rw [e1, Nat.zero_mul]

/-- and the class scores' block too. -/
theorem origin4_7 (t : Fin cfg4.N) : (fun a => win4_7.index t a * main_v65_1.ty.shape.size a) = fun _ => 0 := by
  obtain ⟨-, -, e0, e1⟩ := outIndex4 t
  funext a
  match a with
  | ⟨0, _⟩ => show win4_7.index t (0 : Fin 2) * _ = 0; rw [e0, Nat.zero_mul]
  | ⟨1, _⟩ => show win4_7.index t (1 : Fin 2) * _ = 0; rw [e1, Nat.zero_mul]

/-- A point that writes an output back is the last one. -/
theorem last_of_flush4_6 (t : Fin cfg4.N) (hf : (cfg4.win 6).flush t = true) : t = ⟨9, nine_lt4⟩ := by
  have h := (flush4_6 t).mp hf
  have hN : t.val < 10 := lt_of_lt_of_eq t.isLt (show cfg4.N = 10 from N_4)
  exact Fin.ext (by show t.val = 9; omega)

theorem last_of_flush4_7 (t : Fin cfg4.N) (hf : (cfg4.win 7).flush t = true) : t = ⟨9, nine_lt4⟩ := by
  have h := (flush4_7 t).mp hf
  have hN : t.val < 10 := lt_of_lt_of_eq t.isLt (show cfg4.N = 10 from N_4)
  exact Fin.ext (by show t.val = 9; omega)

/-- Reading an array of the pooled projection's shape through the window's block at any point gives the array back: the
    block is all of it. -/
theorem read_block4_6 (c : Dev nD) (t : Fin cfg4.N) (G : Buf (Elt F) ((cfg4.win 6).arr.view.loc (c : Thread nD τ))) :
    ((cfg4.win 6).blk t).view.read (Elt F) G = G :=
  Memref.read_access_unit_zero (Elt F) main_v65_0 (origin4_6 t) (fun a => by rw [congrFun (origin4_6 t) a]; simp) G

/-- Likewise for the class scores. -/
theorem read_block4_7 (c : Dev nD) (t : Fin cfg4.N) (G : Buf (Elt F) ((cfg4.win 7).arr.view.loc (c : Thread nD τ))) :
    ((cfg4.win 7).blk t).view.read (Elt F) G = G :=
  Memref.read_access_unit_zero (Elt F) main_v65_1 (origin4_7 t) (fun a => by rw [congrFun (origin4_7 t) a]; simp) G

/-- Every index of the pooled projection lies in the window's block, at any point. -/
theorem mem_block4_6 (t : Fin cfg4.N) (i : S64x64.Idx) : i ∈ ((cfg4.win 6).blk t).view.set := by
  show i ∈ ((View.whole main_v65_0).slice (win4_6.rect t)).set
  rw [View.set_slice_whole]
  exact View.mem_set_unit_zero (S := S64x64) (origin4_6 t) _ i

/-- Every index of the class scores lies in the window's block, at any point. -/
theorem mem_block4_7 (t : Fin cfg4.N) (i : S64x6.Idx) : i ∈ ((cfg4.win 7).blk t).view.set := by
  show i ∈ ((View.whole main_v65_1).slice (win4_7.rect t)).set
  rw [View.set_slice_whole]
  exact View.mem_set_unit_zero (S := S64x6) (origin4_7 t) _ i

/-- The one write-back of the pooled projection, at point 9, writes what that point's body left, which read through the
    block is itself. -/
theorem writeback4_6 (c : Dev nD) (t : Fin cfg4.N) (hf : (cfg4.win 6).flush t = true) :
    (dat4 (F := F) V c).flushed 6 t = ((cfg4.win 6).blk t).view.read (Elt F) ((outsAt4 V c 9 nine_lt4).1) := by
  obtain rfl := last_of_flush4_6 t hf
  rw [read_block4_6 c]
  show (cfg4.win 6).cut (grid4.coords ⟨9, nine_lt4⟩) ((dat4 V c).after 6 ⟨9, nine_lt4⟩) = _
  rw [after4_6]
  rfl

/-- The one write-back of the class scores, at point 9, likewise. -/
theorem writeback4_7 (c : Dev nD) (t : Fin cfg4.N) (hf : (cfg4.win 7).flush t = true) :
    (dat4 (F := F) V c).flushed 7 t = ((cfg4.win 7).blk t).view.read (Elt F) ((outsAt4 V c 9 nine_lt4).2.1) := by
  obtain rfl := last_of_flush4_7 t hf
  rw [read_block4_7 c]
  show (cfg4.win 7).cut (grid4.coords ⟨9, nine_lt4⟩) ((dat4 V c).after 7 ⟨9, nine_lt4⟩) = _
  rw [after4_7]
  rfl

/-- After the region the pooled projection's array holds what the last point's body left for it. -/
theorem arrAt4_6 (c : Dev nD) : (dat4 (F := F) V c).arrAt 6 cfg4.N = (outsAt4 V c 9 nine_lt4).1 :=
  (dat4 V c).arrAt_eq_of_cover 6 ((outsAt4 V c 9 nine_lt4).1) (writeback4_6 V c) fun i =>
    ⟨⟨9, nine_lt4⟩, (flush4_6 ⟨9, nine_lt4⟩).mpr rfl, mem_block4_6 _ i⟩

/-- After the region the class scores' array holds what the last point's body left for it. -/
theorem arrAt4_7 (c : Dev nD) : (dat4 (F := F) V c).arrAt 7 cfg4.N = (outsAt4 V c 9 nine_lt4).2.1 :=
  (dat4 V c).arrAt_eq_of_cover 7 ((outsAt4 V c 9 nine_lt4).2.1) (writeback4_7 V c) fun i =>
    ⟨⟨9, nine_lt4⟩, (flush4_7 ⟨9, nine_lt4⟩).mpr rfl, mem_block4_7 _ i⟩

end Cert.KernelIdeal.Val

end
-- ==== Proof.KIV.Final4.lean ====
/- Region 4's two outputs as functions of the arrays the region finds. The two accumulators, point by point, hold the pooled
   sums and the counts of the row tiles read so far (an induction over the grid points: the first point adds its tile to the
   zero blocks, each later point adds its tile to what the point before left); the last point stores the head of the totals;
   and the outputs' arrays end holding what that point stored. -/
import proofs.«408011_j62371515072934_2_alg».proof.Proof.KIV.Pieces4
import proofs.«408011_j62371515072934_2_alg».proof.Proof.KIV.Pay4
import proofs.«408011_j62371515072934_2_alg».proof.Proof.KIV.Final4Flush
import proofs.«408011_j62371515072934_2_alg».proof.Proof.Gen.KernelIdeal.Points
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The blocks and the arrays, by their literal types -/

/-- The block of `h` at point `t`. -/
abbrev hblk (c : Dev nD) (t : Fin cfg4.N) : Vec Ideal S10000x64 .f32 := iblk4 V c 0 t
/-- The block of `batch` at point `t`. -/
abbrev bblk (c : Dev nD) (t : Fin cfg4.N) : Vec Ideal S10000x1 .i32 := iblk4 V c 1 t
/-- The four small operands as the body finds them at point `t`. -/
abbrev wpblk (c : Dev nD) (t : Fin cfg4.N) : Vec Ideal S64x64 .f32 := iblk4 V c 2 t
abbrev bpblk (c : Dev nD) (t : Fin cfg4.N) : Vec Ideal S1x64 .f32 := iblk4 V c 3 t
abbrev wcblk (c : Dev nD) (t : Fin cfg4.N) : Vec Ideal S64x6 .f32 := iblk4 V c 4 t
abbrev bcblk (c : Dev nD) (t : Fin cfg4.N) : Vec Ideal S1x6 .f32 := iblk4 V c 5 t
/-- The six arrays as the region finds them. -/
abbrev harr (c : Dev nD) : Vec Ideal S100000x64 .f32 := V c main_v61
abbrev barr (c : Dev nD) : Vec Ideal S100000x1 .i32 := V c main_v62
abbrev wparr (c : Dev nD) : Vec Ideal S64x64 .f32 := V c main_arg7
abbrev bparr (c : Dev nD) : Vec Ideal S1x64 .f32 := V c main_v63
abbrev wcarr (c : Dev nD) : Vec Ideal S64x6 .f32 := V c main_arg9
abbrev bcarr (c : Dev nD) : Vec Ideal S1x6 .f32 := V c main_v64

/-- The windows' index maps over the grid: the two large inputs' blocks move down the rows with the point, the four small
    operands and the two outputs stay at block `(0, 0)`. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- The tile a point reads. -/
def tileOf (t : Fin cfg4.N) : Fin 10 := ⟨t.val, by have h : cfg4.N = 10 := N_4; have := t.isLt; omega⟩

theorem tileOf_val (t : Fin cfg4.N) : (tileOf t).val = t.val := rfl

/-- Row `r` of `h`'s block at point `t` is row `tileRow t r` of `h`. -/
theorem hblk_apply (c : Dev nD) (t : Fin cfg4.N) (r : Fin 10000) (q : Fin 64) :
    hblk V c t (ix2 r q) = harr V c (ix2 (tileRow (tileOf t) r) q) := by
  obtain ⟨e0, e1, -⟩ := idx_facts4 t
  show V c main_v61 (((cfg4.win 0).blk t).view.emb (ix2 r q)) = V c main_v61 (ix2 (tileRow (tileOf t) r) q)
  refine congrArg (V c main_v61) (funext fun a => Fin.ext ?_)
  match a with
  | ⟨0, _⟩ => show win4_0.index t (0 : Fin 2) * 10000 + 1 * r.val = t.val * 10000 + r.val; rw [e0]; omega
  | ⟨1, _⟩ => show win4_0.index t (1 : Fin 2) * 64 + 1 * q.val = q.val; rw [e1]; omega

/-- Row `r` of `batch`'s block at point `t` is row `tileRow t r` of `batch`. -/
theorem bblk_apply (c : Dev nD) (t : Fin cfg4.N) (r : Fin 10000) :
    bblk V c t (ix2 r (0 : Fin 1)) = barr V c (ix2 (tileRow (tileOf t) r) (0 : Fin 1)) := by
  obtain ⟨-, -, e0, e1, -⟩ := idx_facts4 t
  show V c main_v62 (((cfg4.win 1).blk t).view.emb (ix2 r (0 : Fin 1))) = V c main_v62 (ix2 (tileRow (tileOf t) r) (0 : Fin 1))
  refine congrArg (V c main_v62) (funext fun a => Fin.ext ?_)
  match a with
  | ⟨0, _⟩ => show win4_1.index t (0 : Fin 2) * 10000 + 1 * r.val = t.val * 10000 + r.val; rw [e0]; omega
  | ⟨1, _⟩ => show win4_1.index t (1 : Fin 2) * 1 + 1 * 0 = 0; rw [e1]

/-- The four small operands' blocks are their whole arrays at every point. -/
theorem wpblk_eq (c : Dev nD) (t : Fin cfg4.N) : wpblk V c t = wparr V c := by
  obtain ⟨-, -, -, -, e0, e1, -⟩ := idx_facts4 t
  funext y
  show V c main_arg7 (((cfg4.win 2).blk t).view.emb y) = V c main_arg7 y
  refine congrArg (V c main_arg7) (funext fun a => Fin.ext ?_)
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

theorem bpblk_eq (c : Dev nD) (t : Fin cfg4.N) : bpblk V c t = bparr V c := by
  obtain ⟨-, -, -, -, -, -, e0, e1, -⟩ := idx_facts4 t
  funext y
  show V c main_v63 (((cfg4.win 3).blk t).view.emb y) = V c main_v63 y
  refine congrArg (V c main_v63) (funext fun a => Fin.ext ?_)
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

theorem wcblk_eq (c : Dev nD) (t : Fin cfg4.N) : wcblk V c t = wcarr V c := by
  obtain ⟨-, -, -, -, -, -, -, -, e0, e1, -⟩ := idx_facts4 t
  funext y
  show V c main_arg9 (((cfg4.win 4).blk t).view.emb y) = V c main_arg9 y
  refine congrArg (V c main_arg9) (funext fun a => Fin.ext ?_)
  match a with
  | ⟨0, _⟩ => show win4_4.index t (0 : Fin 2) * 64 + 1 * (y 0).val = (y 0).val; rw [e0]; omega
  | ⟨1, _⟩ => show win4_4.index t (1 : Fin 2) * 6 + 1 * (y 1).val = (y 1).val; rw [e1]; omega

theorem bcblk_eq (c : Dev nD) (t : Fin cfg4.N) : bcblk V c t = bcarr V c := by
  obtain ⟨-, -, -, -, -, -, -, -, -, -, e0, e1, -⟩ := idx_facts4 t
  funext y
  show V c main_v64 (((cfg4.win 5).blk t).view.emb y) = V c main_v64 y
  refine congrArg (V c main_v64) (funext fun a => Fin.ext ?_)
  match a with
  | ⟨0, _⟩ => show win4_5.index t (0 : Fin 2) * 1 + 1 * (y 0).val = (y 0).val; rw [e0]; omega
  | ⟨1, _⟩ => show win4_5.index t (1 : Fin 2) * 6 + 1 * (y 1).val = (y 1).val; rw [e1]; omega

/-! ## The accumulators after each point

After point `n` the two accumulators hold the pooled sums and the counts of the tiles `0, …, n`: the first point adds its
tile to the zero blocks, every later point adds its tile to what the point before left. -/

/-- The first point's sums. -/
theorem first_sum (c : Dev nD) (t : Fin cfg4.N) (ht : t.val = 0) :
    k4_pay4 (F := Ideal) (bblk V c t) (hblk V c t) (k4_pay1 (F := Ideal)) = partSum (harr V c) (barr V c) 0 := by
  funext i
  obtain ⟨g, q, rfl⟩ : ∃ (g q : Fin 64), i = ix2 g q := ⟨i 0, i 1, eq_ix2 i⟩
  have hk : tileOf t = 0 := Fin.ext ht
  rw [pay4_tile (harr V c) (barr V c) (tileOf t) (bblk V c t) (hblk V c t) (k4_pay1 (F := Ideal)) (bblk_apply V c t)
    (hblk_apply V c t) g q, pay1_apply, hk]
  exact (accSum_zero (selH (harr V c) (barr V c) g q)).symm

/-- The first point's counts. -/
theorem first_cnt (c : Dev nD) (t : Fin cfg4.N) (ht : t.val = 0) :
    k4_pay5 (F := Ideal) (bblk V c t) (k4_pay2 (F := Ideal)) = partCnt (barr V c) 0 := by
  funext i
  obtain ⟨g, z, rfl⟩ : ∃ (g : Fin 64) (z : Fin 1), i = ix2 g z := ⟨i 0, i 1, eq_ix2 i⟩
  obtain rfl : z = 0 := Subsingleton.elim _ _
  have hk : tileOf t = 0 := Fin.ext ht
  rw [pay5_tile (barr V c) (tileOf t) (bblk V c t) (k4_pay2 (F := Ideal)) (bblk_apply V c t) g, pay2_apply, hk]
  exact (accSum_zero (selC (barr V c) g)).symm

/-- A later point's sums, from the sums the point before left. -/
theorem step_sum (c : Dev nD) (t : Fin cfg4.N) (n : ℕ) (ht : t.val = n + 1) (xs0 : Vec Ideal S64x64 .f32)
    (hx : xs0 = partSum (harr V c) (barr V c) n) :
    k4_pay4 (F := Ideal) (bblk V c t) (hblk V c t) xs0 = partSum (harr V c) (barr V c) (n + 1) := by
  subst hx
  have hn : n + 1 < 10 := by have h : cfg4.N = 10 := N_4; have := t.isLt; omega
  have hk : tileOf t = ⟨n + 1, hn⟩ := Fin.ext ht
  funext i
  obtain ⟨g, q, rfl⟩ : ∃ (g q : Fin 64), i = ix2 g q := ⟨i 0, i 1, eq_ix2 i⟩
  rw [pay4_tile (harr V c) (barr V c) (tileOf t) (bblk V c t) (hblk V c t) _ (bblk_apply V c t) (hblk_apply V c t) g q, hk]
  exact (accSum_succ (selH (harr V c) (barr V c) g q) n hn).symm

/-- A later point's counts, from the counts the point before left. -/
theorem step_cnt (c : Dev nD) (t : Fin cfg4.N) (n : ℕ) (ht : t.val = n + 1) (xs1 : Vec Ideal S64x1 .f32)
    (hx : xs1 = partCnt (barr V c) n) :
    k4_pay5 (F := Ideal) (bblk V c t) xs1 = partCnt (barr V c) (n + 1) := by
  subst hx
  have hn : n + 1 < 10 := by have h : cfg4.N = 10 := N_4; have := t.isLt; omega
  have hk : tileOf t = ⟨n + 1, hn⟩ := Fin.ext ht
  funext i
  obtain ⟨g, z, rfl⟩ : ∃ (g : Fin 64) (z : Fin 1), i = ix2 g z := ⟨i 0, i 1, eq_ix2 i⟩
  obtain rfl : z = 0 := Subsingleton.elim _ _
  rw [pay5_tile (barr V c) (tileOf t) (bblk V c t) _ (bblk_apply V c t) g, hk]
  exact (accSum_succ (selC (barr V c) g) n hn).symm

/-- THE INVARIANT: after point `n` the accumulators hold the pooled sums and counts of the tiles up to `n`. By induction on
    the point; the first point is the case that clears, every later one a case that adds. -/
theorem acc_eq (c : Dev nD) : ∀ (n : ℕ) (hn : n < cfg4.N),
    (outsAt4 V c n hn).2.2.1 = partSum (harr V c) (barr V c) n ∧ (outsAt4 V c n hn).2.2.2 = partCnt (barr V c) n
  | 0, hn => by
    rw [outsAt4_A V c ⟨0, hn⟩ rfl (by show ¬(0 % 10 = 9); decide)]
    dsimp only
    rw [sout4_A_0_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) _ _ (hblk V c ⟨0, hn⟩) (bblk V c ⟨0, hn⟩) (wpblk V c ⟨0, hn⟩) (bpblk V c ⟨0, hn⟩) (wcblk V c ⟨0, hn⟩) (bcblk V c ⟨0, hn⟩),
      sout4_A_1_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) _ _ (hblk V c ⟨0, hn⟩) (bblk V c ⟨0, hn⟩) (wpblk V c ⟨0, hn⟩) (bpblk V c ⟨0, hn⟩) (wcblk V c ⟨0, hn⟩) (bcblk V c ⟨0, hn⟩)]
    exact ⟨first_sum V c ⟨0, hn⟩ rfl, first_cnt V c ⟨0, hn⟩ rfl⟩
  | n + 1, hn => by
    have hN : cfg4.N = 10 := N_4
    obtain ⟨ih0, ih1⟩ := acc_eq c n (Nat.lt_of_succ_lt hn)
    have h0 : ¬(⟨n + 1, hn⟩ : Fin cfg4.N).val % 10 = 0 := by dsimp only; omega
    by_cases h1 : (⟨n + 1, hn⟩ : Fin cfg4.N).val % 10 = 9
    · rw [outsAt4_C V c ⟨n + 1, hn⟩ h0 h1]
      dsimp only
      rw [sout4_C_0_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (hblk V c ⟨n + 1, hn⟩) (bblk V c ⟨n + 1, hn⟩) (wpblk V c ⟨n + 1, hn⟩) (bpblk V c ⟨n + 1, hn⟩) (wcblk V c ⟨n + 1, hn⟩) (bcblk V c ⟨n + 1, hn⟩) _ _,
        sout4_C_1_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (hblk V c ⟨n + 1, hn⟩) (bblk V c ⟨n + 1, hn⟩) (wpblk V c ⟨n + 1, hn⟩) (bpblk V c ⟨n + 1, hn⟩) (wcblk V c ⟨n + 1, hn⟩) (bcblk V c ⟨n + 1, hn⟩) _ _]
      exact ⟨step_sum V c ⟨n + 1, hn⟩ n rfl _ ih0, step_cnt V c ⟨n + 1, hn⟩ n rfl _ ih1⟩
    · rw [outsAt4_B V c ⟨n + 1, hn⟩ h0 h1]
      dsimp only
      rw [sout4_B_0_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (hblk V c ⟨n + 1, hn⟩) (bblk V c ⟨n + 1, hn⟩) (wpblk V c ⟨n + 1, hn⟩) (bpblk V c ⟨n + 1, hn⟩) (wcblk V c ⟨n + 1, hn⟩) (bcblk V c ⟨n + 1, hn⟩) _ _,
        sout4_B_1_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (hblk V c ⟨n + 1, hn⟩) (bblk V c ⟨n + 1, hn⟩) (wpblk V c ⟨n + 1, hn⟩) (bpblk V c ⟨n + 1, hn⟩) (wcblk V c ⟨n + 1, hn⟩) (bcblk V c ⟨n + 1, hn⟩) _ _]
      exact ⟨step_sum V c ⟨n + 1, hn⟩ n rfl _ ih0, step_cnt V c ⟨n + 1, hn⟩ n rfl _ ih1⟩

/-! ## The outputs

Only the last point stores the outputs, and it stores the head of the totals it has just left in the accumulators. -/

/-- The first output's payload, given the point's totals. -/
theorem head6_eq (c : Dev nD) (t : Fin cfg4.N) (xs0 : Vec Ideal S64x64 .f32) (xs1 : Vec Ideal S64x1 .f32)
    (S : Vec Ideal S64x64 .f32) (C : Vec Ideal S64x1 .f32)
    (h0 : k4_pay4 (F := Ideal) (bblk V c t) (hblk V c t) xs0 = S) (h1 : k4_pay5 (F := Ideal) (bblk V c t) xs1 = C) :
    k4_pay6 (F := Ideal) (k4_pay4 (F := Ideal) (bblk V c t) (hblk V c t) xs0) (k4_pay5 (F := Ideal) (bblk V c t) xs1)
      (wpblk V c t) (bpblk V c t) = zOfAcc S C (wparr V c) (bparr V c) := by
  rw [h0, h1, pay6_eq, wpblk_eq, bpblk_eq]

/-- The second output's payload, given the point's totals. -/
theorem head7_eq (c : Dev nD) (t : Fin cfg4.N) (xs0 : Vec Ideal S64x64 .f32) (xs1 : Vec Ideal S64x1 .f32)
    (S : Vec Ideal S64x64 .f32) (C : Vec Ideal S64x1 .f32)
    (h0 : k4_pay4 (F := Ideal) (bblk V c t) (hblk V c t) xs0 = S) (h1 : k4_pay5 (F := Ideal) (bblk V c t) xs1 = C) :
    k4_pay7 (F := Ideal) (k4_pay4 (F := Ideal) (bblk V c t) (hblk V c t) xs0) (k4_pay5 (F := Ideal) (bblk V c t) xs1)
      (wpblk V c t) (bpblk V c t) (wcblk V c t) (bcblk V c t)
      = logitsOfAcc S C (wparr V c) (bparr V c) (wcarr V c) (bcarr V c) := by
  rw [h0, h1, pay7_eq, wpblk_eq, bpblk_eq, wcblk_eq, bcblk_eq]

/-- A point that stores the outputs stores the head of the totals up to itself. -/
theorem outs_C (c : Dev nD) (n : ℕ) (hn : n + 1 < cfg4.N) (h1 : (n + 1) % 10 = 9) :
    (outsAt4 V c (n + 1) hn).1
        = zOfAcc (partSum (harr V c) (barr V c) (n + 1)) (partCnt (barr V c) (n + 1)) (wparr V c) (bparr V c)
      ∧ (outsAt4 V c (n + 1) hn).2.1
        = logitsOfAcc (partSum (harr V c) (barr V c) (n + 1)) (partCnt (barr V c) (n + 1)) (wparr V c) (bparr V c)
            (wcarr V c) (bcarr V c) := by
  have hN : cfg4.N = 10 := N_4
  obtain ⟨ih0, ih1⟩ := acc_eq V c n (Nat.lt_of_succ_lt hn)
  have h0 : ¬(⟨n + 1, hn⟩ : Fin cfg4.N).val % 10 = 0 := by dsimp only; omega
  rw [outsAt4_C V c ⟨n + 1, hn⟩ h0 h1]
  dsimp only
  rw [out4_C_6_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (hblk V c ⟨n + 1, hn⟩) (bblk V c ⟨n + 1, hn⟩) (wpblk V c ⟨n + 1, hn⟩) (bpblk V c ⟨n + 1, hn⟩) (wcblk V c ⟨n + 1, hn⟩) (bcblk V c ⟨n + 1, hn⟩) _ _,
    out4_C_7_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (hblk V c ⟨n + 1, hn⟩) (bblk V c ⟨n + 1, hn⟩) (wpblk V c ⟨n + 1, hn⟩) (bpblk V c ⟨n + 1, hn⟩) (wcblk V c ⟨n + 1, hn⟩) (bcblk V c ⟨n + 1, hn⟩) _ _]
  exact ⟨head6_eq V c ⟨n + 1, hn⟩ _ _ _ _ (step_sum V c ⟨n + 1, hn⟩ n rfl _ ih0) (step_cnt V c ⟨n + 1, hn⟩ n rfl _ ih1),
    head7_eq V c ⟨n + 1, hn⟩ _ _ _ _ (step_sum V c ⟨n + 1, hn⟩ n rfl _ ih0) (step_cnt V c ⟨n + 1, hn⟩ n rfl _ ih1)⟩

/-- What the last point leaves in the two outputs' buffers: `z` and the logits of the whole arrays. -/
theorem outs_last (c : Dev nD) (hn : 9 < cfg4.N) :
    (outsAt4 V c 9 hn).1 = zOf (harr V c) (barr V c) (wparr V c) (bparr V c)
      ∧ (outsAt4 V c 9 hn).2.1 = logitsOf (harr V c) (barr V c) (wparr V c) (bparr V c) (wcarr V c) (bcarr V c) := by
  have h := outs_C V c 8 hn (by decide)
  have es : partSum (harr V c) (barr V c) (8 + 1) = poolSum (harr V c) (barr V c) := partSum_last _ _
  have ec : partCnt (barr V c) (8 + 1) = poolCnt (barr V c) := partCnt_last _
  rw [es, ec] at h
  exact h

/-- THE FIRST OUTPUT after the region: `z` of the arrays as the region finds them. -/
theorem final4_6 (c : Dev nD) :
    (dat4 (F := Ideal) V c).arrAt 6 cfg4.N = zOf (V c main_v61) (V c main_v62) (V c main_arg7) (V c main_v63) :=
  (arrAt4_6 V c).trans (outs_last V c nine_lt4).1

/-- THE SECOND OUTPUT after the region: the logits of the arrays as the region finds them. -/
theorem final4_7 (c : Dev nD) :
    (dat4 (F := Ideal) V c).arrAt 7 cfg4.N
      = logitsOf (V c main_v61) (V c main_v62) (V c main_arg7) (V c main_v63) (V c main_arg9) (V c main_v64) :=
  (arrAt4_7 V c).trans (outs_last V c nine_lt4).2

end Cert.KernelIdeal.Val

end
-- ==== Proof.RefImports.lean ====
/- The reference program's run and its operations read one at a time, gathered for the modules that state what the reference computes. -/
import proofs.«408011_j62371515072934_2_alg».proof.Proof.RefRun
import proofs.«408011_j62371515072934_2_alg».proof.Proof.RefRead
-- ==== Proof.KIV.Host.lean ====
import proofs.«408011_j62371515072934_2_alg».proof.Proof.Gen.KernelIdeal.Regions
import proofs.«408011_j62371515072934_2_alg».proof.Proof.RefImports
import Idealize.ShloMosaic.Lib.StableHlo.Run
import Idealize.ShloMosaic.Lib.Pipeline.Value
import Idealize.ShloMosaic.Lib.ValueIdx

/-! # The host stretches compute the reference's stages

Between its kernel regions the program applies, on whole arrays, the same operations as the reference: the edge
lists with the self loops appended and the symmetric normalisation coefficients (before region 0), the two
neighbourhood aggregations `scatter-add (gather h idx * coeff)` (before regions 1 and 3), and reshapes of the bias
vectors and of the batch vector. So each array a stretch writes is the reference's stage function of what the stretch
reads. The statements are at an ARBITRARY valuation `W` of the buffers, the arrays the stretch reads given as
hypotheses, so that they apply at any boundary of the run. A reshape is read at an index: the element with the same
row-major position. -/

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]

/-! ## Before region 0: the edge lists and the coefficients, functions of the edge array alone -/

/-- The source indices with the self loops appended. -/
theorem pre_v5 (W : Valuation τ sig (Elt F)) (x1 : (⟨S2x1600000, .i32⟩ : BufTy).Contents (Elt F))
    (h : W (Proc.devRef .tc main_arg1) = x1) :
    (StableHlo.after hostOps0_2 (StableHlo.after hostOps0_1 (StableHlo.after hostOps0 W)) (Proc.devRef .tc main_v5) : (⟨S1700000, .i32⟩ : BufTy).Contents (Elt F))
      = val_main_v6 x1 := by
  subst h
  after_results_simp
  rfl

/-- The destination indices with the self loops appended. -/
theorem pre_v6 (W : Valuation τ sig (Elt F)) (x1 : (⟨S2x1600000, .i32⟩ : BufTy).Contents (Elt F))
    (h : W (Proc.devRef .tc main_arg1) = x1) :
    (StableHlo.after hostOps0_2 (StableHlo.after hostOps0_1 (StableHlo.after hostOps0 W)) (Proc.devRef .tc main_v6) : (⟨S1700000, .i32⟩ : BufTy).Contents (Elt F))
      = val_main_v7 x1 := by
  subst h
  after_results_simp
  rfl

/-- The per-edge coefficient: the product of the two end points' inverse square-root degrees. -/
theorem pre_v29 (W : Valuation τ sig (Elt F)) (x1 : (⟨S2x1600000, .i32⟩ : BufTy).Contents (Elt F))
    (h : W (Proc.devRef .tc main_arg1) = x1) :
    (StableHlo.after hostOps0_2 (StableHlo.after hostOps0_1 (StableHlo.after hostOps0 W)) (Proc.devRef .tc main_v29) : (⟨S1700000, .f32⟩ : BufTy).Contents (Elt F))
      = val_main_v30 x1 := by
  subst h
  after_results_simp
  rfl

/-! ## Before region 1: the first aggregation, and the first bias as a row -/

/-- The first aggregation: the rows of `x · W₁` gathered at the (wrapped) source indices, scaled by the
    coefficients and summed into the destination rows of a zero array. -/
theorem host1_v43 (W : Valuation τ sig (Elt F))
    (x0 : (⟨S100000x128, .f32⟩ : BufTy).Contents (Elt F)) (x1 : (⟨S2x1600000, .i32⟩ : BufTy).Contents (Elt F)) (x3 : (⟨S128x64, .f32⟩ : BufTy).Contents (Elt F))
    (h30 : W (Proc.devRef .tc main_v30) = val_main_v4 x0 x3)
    (h5 : W (Proc.devRef .tc main_v5) = val_main_v6 x1)
    (h6 : W (Proc.devRef .tc main_v6) = val_main_v7 x1)
    (h29 : W (Proc.devRef .tc main_v29) = val_main_v30 x1) :
    (StableHlo.after hostOps1 W (Proc.devRef .tc main_v43) : (⟨S100000x64, .f32⟩ : BufTy).Contents (Elt F))
      = val_main_v43 x0 x1 x3 := by
  after_results_simp
  rw [h30, h5, h6, h29]
  rfl

/-- The first bias vector as a `[1, 64]` row, read at column `j`. -/
theorem host1_v44_apply (W : Valuation τ sig (Elt F)) (j : Fin 64) :
    (StableHlo.after hostOps1 W (Proc.devRef .tc main_v44) : (⟨S1x64, .f32⟩ : BufTy).Contents (Elt F)) (ValueIdx.ix2 0 j)
      = (W (Proc.devRef .tc main_arg4) : (⟨S64, .f32⟩ : BufTy).Contents (Elt F)) (ValueIdx.ix1 j) := by
  after_results_simp
  exact shapeCast_apply _ shapeCasts_S64_S1x64 (ValueIdx.ix2 0 j) (ValueIdx.ix1 j)
    (by rewrite [Shape.rowMajor_val_two, Shape.rowMajor_val_one]; show j.val = 0 * 64 + j.val; omega)

/-! ## Before region 3: the second aggregation, and the second bias as a row -/

/-- The second aggregation, of the rows of `h₁ · W₂`. The reference computes the index lists and the coefficients a
    second time under new names; they are the same functions of the edge array. -/
theorem host3_v59 (W : Valuation τ sig (Elt F))
    (x0 : (⟨S100000x128, .f32⟩ : BufTy).Contents (Elt F)) (x1 : (⟨S2x1600000, .i32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F))
    (h46 : W (Proc.devRef .tc main_v46) = val_main_v48 x0 x1 x3 x4 x5)
    (h5 : W (Proc.devRef .tc main_v5) = val_main_v6 x1)
    (h6 : W (Proc.devRef .tc main_v6) = val_main_v7 x1)
    (h29 : W (Proc.devRef .tc main_v29) = val_main_v30 x1) :
    (StableHlo.after hostOps3 W (Proc.devRef .tc main_v59) : (⟨S100000x64, .f32⟩ : BufTy).Contents (Elt F))
      = val_main_v87 x0 x1 x3 x4 x5 := by
  after_results_simp
  rw [h46, h5, h6, h29]
  rfl

/-- The second bias vector as a `[1, 64]` row, read at column `j`. -/
theorem host3_v60_apply (W : Valuation τ sig (Elt F)) (j : Fin 64) :
    (StableHlo.after hostOps3 W (Proc.devRef .tc main_v60) : (⟨S1x64, .f32⟩ : BufTy).Contents (Elt F)) (ValueIdx.ix2 0 j)
      = (W (Proc.devRef .tc main_arg6) : (⟨S64, .f32⟩ : BufTy).Contents (Elt F)) (ValueIdx.ix1 j) := by
  after_results_simp
  exact shapeCast_apply _ shapeCasts_S64_S1x64 (ValueIdx.ix2 0 j) (ValueIdx.ix1 j)
    (by rewrite [Shape.rowMajor_val_two, Shape.rowMajor_val_one]; show j.val = 0 * 64 + j.val; omega)

/-! ## Before region 4: the batch vector as a column, the last two biases as rows -/

/-- The batch vector as a `[100000, 1]` column, read at row `i`. -/
theorem host4_v62_apply (W : Valuation τ sig (Elt F)) (i : Fin 100000) :
    (StableHlo.after hostOps4 W (Proc.devRef .tc main_v62) : (⟨S100000x1, .i32⟩ : BufTy).Contents (Elt F)) (ValueIdx.ix2 i 0)
      = (W (Proc.devRef .tc main_arg2) : (⟨S100000, .i32⟩ : BufTy).Contents (Elt F)) (ValueIdx.ix1 i) := by
  after_results_simp
  exact shapeCast_apply _ shapeCasts_S100000_S100000x1 (ValueIdx.ix2 i 0) (ValueIdx.ix1 i)
    (by rewrite [Shape.rowMajor_val_two, Shape.rowMajor_val_one]; show i.val = i.val * 1 + 0; omega)

/-- The projection's bias vector as a `[1, 64]` row, read at column `j`. -/
theorem host4_v63_apply (W : Valuation τ sig (Elt F)) (j : Fin 64) :
    (StableHlo.after hostOps4 W (Proc.devRef .tc main_v63) : (⟨S1x64, .f32⟩ : BufTy).Contents (Elt F)) (ValueIdx.ix2 0 j)
      = (W (Proc.devRef .tc main_arg8) : (⟨S64, .f32⟩ : BufTy).Contents (Elt F)) (ValueIdx.ix1 j) := by
  after_results_simp
  exact shapeCast_apply _ shapeCasts_S64_S1x64 (ValueIdx.ix2 0 j) (ValueIdx.ix1 j)
    (by rewrite [Shape.rowMajor_val_two, Shape.rowMajor_val_one]; show j.val = 0 * 64 + j.val; omega)

/-- The classifier's bias vector as a `[1, 6]` row, read at column `j`. -/
theorem host4_v64_apply (W : Valuation τ sig (Elt F)) (j : Fin 6) :
    (StableHlo.after hostOps4 W (Proc.devRef .tc main_v64) : (⟨S1x6, .f32⟩ : BufTy).Contents (Elt F)) (ValueIdx.ix2 0 j)
      = (W (Proc.devRef .tc main_arg10) : (⟨S6, .f32⟩ : BufTy).Contents (Elt F)) (ValueIdx.ix1 j) := by
  after_results_simp
  exact shapeCast_apply _ shapeCasts_S6_S1x6 (ValueIdx.ix2 0 j) (ValueIdx.ix1 j)
    (by rewrite [Shape.rowMajor_val_two, Shape.rowMajor_val_one]; show j.val = 0 * 6 + j.val; omega)

end Cert.KernelIdeal.Val

end
-- ==== Proof.KIV.RefOps.lean ====
import proofs.«408011_j62371515072934_2_alg».proof.Proof.RefImports
import proofs.«408011_j62371515072934_2_alg».proof.Proof.KIV.Spec
import Idealize.ShloMosaic.Lib.Pipeline.Value
import Idealize.ShloMosaic.Lib.ValueIdx
import Idealize.ShloMosaic.PureOps.Ideal.Laws

/-!
# The reference's dense layers are the same functions

Over the extended reals the reference's two `dot_general`s are the matrix products of Spec, and each
of its bias-and-relu stages is Spec's biased positive part at the bias vector laid out as a row. These
are the four whole-array functions the kernel's first four regions compute.
-/

noncomputable section

open scoped BigOperators

namespace Cert.KernelIdeal.Val

open Cert.ReferenceIdeal Cert.ReferenceIdeal.Gen Idealize.ShloMosaic Idealize.ShloMosaic.ValueIdx Idealize.SL.Sem

/-! ## The two products

The contraction's one-axis index is re-indexed to its coordinate `k`; the left operand is then read at
`(row, k)` and the right at `(k, column)`. -/

/-- The reference's second product, over any left operand. -/
theorem ref_mm64 (y : FVec Ideal S100000x64 .f32) (x5 : FVec Ideal S64x64 .f32) :
    Host.dotGeneral (F := Ideal) Cert.ReferenceIdeal.dot_S100000x64_S64x64_S100000x64_1_0_0_1_n_n none y x5 = mm 64 y x5 := by
  funext i
  simp only [Host.dotGeneral]
  rw [Ideal.dotGeneral_apply, ← Equiv.sum_comp (contrEquiv1 dot_S100000x64_S64x64_S100000x64_1_0_0_1_n_n 64 rfl rfl).symm, mm_apply]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0) k := funext fun a => Fin.ext (by
    match a with
    | ⟨0, _⟩ => exact ReadP.lhs_main_v48_0 _ _
    | ⟨1, _⟩ => exact (ReadP.lhs_main_v48_1 _ _).trans hk)
  have er : dot_S100000x64_S64x64_S100000x64_1_0_0_1_n_n.rhsIdx i ((contrEquiv1 dot_S100000x64_S64x64_S100000x64_1_0_0_1_n_n 64 rfl rfl).symm k) = ix2 k (i 1) := funext fun a => Fin.ext (by
    match a with
    | ⟨0, _⟩ => exact (ReadP.rhs_main_v48_0 _ _).trans hk
    | ⟨1, _⟩ => exact ReadP.rhs_main_v48_1 _ _)
  rw [el, er]
  rfl

/-- The reference's first product, over any operands. -/
theorem ref_dot128 (x : FVec Ideal S100000x128 .f32) (w : FVec Ideal S128x64 .f32) :
    Host.dotGeneral (F := Ideal) Cert.ReferenceIdeal.dot_S100000x128_S128x64_S100000x64_1_0_0_1_n_n none x w = mm 128 x w := by
  funext i
  simp only [Host.dotGeneral]
  rw [Ideal.dotGeneral_apply, ← Equiv.sum_comp (contrEquiv1 dot_S100000x128_S128x64_S100000x64_1_0_0_1_n_n 128 rfl rfl).symm, mm_apply]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = ix2 (i 0) k := funext fun a => Fin.ext (by
    match a with
    | ⟨0, _⟩ => exact ReadP.lhs_main_v4_0 _ _
    | ⟨1, _⟩ => exact (ReadP.lhs_main_v4_1 _ _).trans hk)
  have er : dot_S100000x128_S128x64_S100000x64_1_0_0_1_n_n.rhsIdx i ((contrEquiv1 dot_S100000x128_S128x64_S100000x64_1_0_0_1_n_n 128 rfl rfl).symm k) = ix2 k (i 1) := funext fun a => Fin.ext (by
    match a with
    | ⟨0, _⟩ => exact (ReadP.rhs_main_v4_0 _ _).trans hk
    | ⟨1, _⟩ => exact ReadP.rhs_main_v4_1 _ _)
  rw [el, er]
  rfl

/-- The first product as the reference's run reads it. -/
theorem ref_mm128 (x0 : FVec Ideal S100000x128 .f32) (x3 : FVec Ideal S128x64 .f32) :
    ReadP.val_main_v4 (F := Ideal) x0 x3 = mm 128 x0 x3 := ref_dot128 x0 x3

/-! ## The two bias-and-relu stages -/

/-- The reference's first bias and relu. The bias vector is broadcast to a row and the row to every node, added to
    `y`, and the maximum taken with a broadcast zero. Against any `[1, 64]` row `b` that holds the vector's entries
    (`hb`), that is the biased positive part of `y` at `b`. -/
theorem ref_biasRelu1 (y : FVec Ideal S100000x64 .f32) (x4 : FVec Ideal S64 .f32) (b : FVec Ideal S1x64 .f32)
    (hb : ∀ j : Fin 64, b (ix2 0 j) = x4 (ix1 j)) :
    (maximumf (addf y (ReadP.val_main_v45 (F := Ideal) x4)) (ReadP.val_main_call1_v0 (F := Ideal)) : FVec Ideal S100000x64 .f32) = biasRelu y b := by
  funext i
  rw [biasRelu_apply, maximumf_apply, addf_apply, ReadP.val_main_v45_apply, ReadP.val_main_v44_apply,
    ReadP.val_main_call1_v0_apply, ReadP.val_main_call1_cst_apply, hb (i 1)]
  show max (y i + x4 _) (Ideal.ofBits .f32 0x00000000#32) = _
  rw [Ideal.ofBits_zero_f32]
  refine congrArg (fun z => max (y i + x4 z) 0) (funext fun a => ?_)
  match a with
  | ⟨0, _⟩ => rfl

/-- The reference's second bias and relu. The bias vector is broadcast to a row and the row to every node, added to
    `y`, and the maximum taken with a broadcast zero. Against any `[1, 64]` row `b` that holds the vector's entries
    (`hb`), that is the biased positive part of `y` at `b`. -/
theorem ref_biasRelu2 (y : FVec Ideal S100000x64 .f32) (x6 : FVec Ideal S64 .f32) (b : FVec Ideal S1x64 .f32)
    (hb : ∀ j : Fin 64, b (ix2 0 j) = x6 (ix1 j)) :
    (maximumf (addf y (ReadP.val_main_v89 (F := Ideal) x6)) (ReadP.val_main_call3_v0 (F := Ideal)) : FVec Ideal S100000x64 .f32) = biasRelu y b := by
  funext i
  rw [biasRelu_apply, maximumf_apply, addf_apply, ReadP.val_main_v89_apply, ReadP.val_main_v88_apply,
    ReadP.val_main_call3_v0_apply, ReadP.val_main_call3_cst_apply, hb (i 1)]
  show max (y i + x6 _) (Ideal.ofBits .f32 0x00000000#32) = _
  rw [Ideal.ofBits_zero_f32]
  refine congrArg (fun z => max (y i + x6 z) 0) (funext fun a => ?_)
  match a with
  | ⟨0, _⟩ => rfl

/-! ## The same four facts on the operations as the reference's run reads them -/

/-- The first layer's bias and relu, over the aggregated rows the run computes. -/
theorem ref_v47 (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (b : FVec Ideal S1x64 .f32) (hb : ∀ j : Fin 64, b (ix2 0 j) = x4 (ix1 j)) :
    ReadP.val_main_v47 (F := Ideal) x0 x1 x3 x4 = biasRelu (ReadP.val_main_v43 (F := Ideal) x0 x1 x3) b :=
  ref_biasRelu1 (ReadP.val_main_v43 (F := Ideal) x0 x1 x3) x4 b hb

/-- The second product, over the first layer's output. -/
theorem ref_v48 (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) :
    ReadP.val_main_v48 (F := Ideal) x0 x1 x3 x4 x5 = mm 64 (ReadP.val_main_v47 (F := Ideal) x0 x1 x3 x4) x5 :=
  ref_mm64 (ReadP.val_main_v47 (F := Ideal) x0 x1 x3 x4) x5

/-- The second layer's bias and relu, over the aggregated rows the run computes. -/
theorem ref_v91 (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (b : FVec Ideal S1x64 .f32) (hb : ∀ j : Fin 64, b (ix2 0 j) = x6 (ix1 j)) :
    ReadP.val_main_v91 (F := Ideal) x0 x1 x3 x4 x5 x6 = biasRelu (ReadP.val_main_v87 (F := Ideal) x0 x1 x3 x4 x5) b :=
  ref_biasRelu2 (ReadP.val_main_v87 (F := Ideal) x0 x1 x3 x4 x5) x6 b hb

end Cert.KernelIdeal.Val

end
-- ==== Proof.KIV.RefPool.lean ====
import proofs.«408011_j62371515072934_2_alg».proof.Proof.RefImports
import proofs.«408011_j62371515072934_2_alg».proof.Proof.KIV.PoolSpec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.PureOps.Ideal.Laws

/-!
# The reference's pooling and head are the pooled functions

The reference pools by two accumulating scatters over the rows: row `r` of the node features is added
to the segment its batch word names, read as a signed integer, and dropped when that is no segment; a
`1.0` per row is added to the segment's count the same way. For a segment number below 64 "the word
read signed is `g`" says the same as "the word is `g`'s word", so each scatter is a sum over all rows
of the row's contribution where its word is `g`'s and zero elsewhere. The mean, the two products and
the two bias rows are then read entry by entry.
-/

set_option maxRecDepth 16384

noncomputable section

open scoped BigOperators

namespace Cert.KernelIdeal.Val

open Cert.ReferenceIdeal Cert.ReferenceIdeal.Gen Idealize.ShloMosaic Idealize.ShloMosaic.ValueIdx Idealize.SL.Sem

/-! ## A batch word read signed -/

/-- The word of a number below 64, read signed, is that number. -/
theorem toInt_ofNat_lt64 (g : ℕ) (hg : g < 64) : (BitVec.ofNat 32 g).toInt = (g : Int) := by
  have h1 : (BitVec.ofNat 32 g).toNat = g := by rw [BitVec.toNat_ofNat]; omega
  rw [BitVec.toInt_eq_toNat_cond, h1, if_pos (by omega)]

/-- A word read signed is a number below 64 exactly when it is that number's word. -/
theorem toInt_eq_iff_eq_ofNat (b : BitVec 32) (g : ℕ) (hg : g < 64) : b.toInt = (g : Int) ↔ b = BitVec.ofNat 32 g := by
  constructor
  · intro h
    apply BitVec.eq_of_toInt_eq
    rw [h, toInt_ofNat_lt64 g hg]
  · intro h
    subst h
    exact toInt_ofNat_lt64 g hg

/-! ## The scatter of the rows into the segments' sums -/

/-- The sums' scatter: the index's one component names the segment axis, the update's columns are the window. -/
abbrev dSum := scatter_S64x64_S100000x1_S100000x64_1_0_0_1

/-- On the segment axis update `(r, q')` lands at row `r`'s word read signed. -/
theorem dSum_axis0 (j : S100000x64.Idx) (idx : IVec S100000x1 32) :
    dSum.start j idx 0 + (dSum.window j 0 : Int) = (idx (ix2 (j 0) (0 : Fin 1))).toInt := by
  unfold ScatterDims.start ScatterDims.window
  rw [dif_pos (show (0 : Fin S64x64.rank) ∈ dSum.scatterDimsToOperandDims by decide),
    dif_neg (show ¬(0 : Fin S64x64.rank) ∈ dSum.sKept by decide)]
  have e : dSum.siIdx j ⟨List.idxOf (0 : Fin S64x64.rank) dSum.scatterDimsToOperandDims,
      List.idxOf_lt_length_iff.2 (show (0 : Fin S64x64.rank) ∈ dSum.scatterDimsToOperandDims by decide)⟩
      = ix2 (j 0) (0 : Fin 1) := by
    funext b; refine Fin.ext ?_
    match b with
    | ⟨0, _⟩ => rfl
    | ⟨1, _⟩ => rfl
  rw [e]
  simp

/-- On the column axis it lands at its own column. -/
theorem dSum_axis1 (j : S100000x64.Idx) (idx : IVec S100000x1 32) :
    dSum.start j idx 1 + (dSum.window j 1 : Int) = ((j 1).val : Int) := by
  unfold ScatterDims.start ScatterDims.window
  rw [dif_neg (show ¬(1 : Fin S64x64.rank) ∈ dSum.scatterDimsToOperandDims by decide),
    dif_pos (show (1 : Fin S64x64.rank) ∈ dSum.sKept by decide)]
  rw [zero_add]
  rfl

/-- Update `(r, q')` lands on entry `(g, q)` exactly when row `r`'s word is `g`'s and the columns agree. -/
theorem dSum_lands_iff (idx : IVec S100000x1 32) (r : Fin 100000) (q' g q : Fin 64) :
    dSum.resultIdx? (ix2 r q') idx = some (ix2 g q) ↔ idx (ix2 r (0 : Fin 1)) = BitVec.ofNat 32 g.val ∧ q' = q := by
  have h0 := dSum_axis0 (ix2 r q') idx
  have h1 := dSum_axis1 (ix2 r q') idx
  have e0 : idx (ix2 ((ix2 r q' : S100000x64.Idx) 0) (0 : Fin 1)) = idx (ix2 r (0 : Fin 1)) := rfl
  have e1 : (((ix2 r q' : S100000x64.Idx) 1).val : Int) = (q'.val : Int) := rfl
  rw [e0] at h0
  rw [e1] at h1
  rw [← toInt_eq_iff_eq_ofNat _ g.val g.isLt]
  unfold ScatterDims.resultIdx?
  constructor
  · intro h
    split at h
    · rename_i hin
      have hv := Option.some.inj h
      have v0 := congrArg (fun i : S64x64.Idx => (i 0).val) hv
      have v1 := congrArg (fun i : S64x64.Idx => (i 1).val) hv
      dsimp only at v0 v1
      have a0 := hin 0
      have a1 := hin 1
      have g0 : ((ix2 g q : S64x64.Idx) 0).val = g.val := rfl
      have g1 : ((ix2 g q : S64x64.Idx) 1).val = q.val := rfl
      rw [g0] at v0
      rw [g1] at v1
      rw [h0] at a0 v0
      rw [h1] at a1 v1
      refine ⟨by omega, Fin.ext (by omega)⟩
    · exact absurd h (by simp)
  · rintro ⟨hg, rfl⟩
    have hin : ∀ a, 0 ≤ dSum.start (ix2 r q') idx a + (dSum.window (ix2 r q') a : Int)
        ∧ dSum.start (ix2 r q') idx a + (dSum.window (ix2 r q') a : Int) < (S64x64.size a : Int) := by
      intro a
      match a with
      | ⟨0, _⟩ =>
        show 0 ≤ dSum.start (ix2 r q') idx 0 + (dSum.window (ix2 r q') 0 : Int)
          ∧ dSum.start (ix2 r q') idx 0 + (dSum.window (ix2 r q') 0 : Int) < (64 : Int)
        rw [h0, hg]; have := g.isLt; omega
      | ⟨1, _⟩ =>
        show 0 ≤ dSum.start (ix2 r q') idx 1 + (dSum.window (ix2 r q') 1 : Int)
          ∧ dSum.start (ix2 r q') idx 1 + (dSum.window (ix2 r q') 1 : Int) < (64 : Int)
        rw [h1]; have := q'.isLt; omega
    rw [dif_pos hin]
    refine congrArg some (funext fun a => Fin.ext ?_)
    match a with
    | ⟨0, _⟩ =>
      show (dSum.start (ix2 r q') idx 0 + (dSum.window (ix2 r q') 0 : Int)).toNat = g.val
      rw [h0, hg]; omega
    | ⟨1, _⟩ =>
      show (dSum.start (ix2 r q') idx 1 + (dSum.window (ix2 r q') 1 : Int)).toNat = q'.val
      rw [h1]; omega

/-- The accumulating scatter of the rows, at entry `(g, q)`: what was there plus, over all rows, column `q` of the
    rows whose word is `g`'s. The sum over the updates that land on `(g, q)` is a sum over rows and columns of an
    indicator; in each row only column `q` can land there. -/
theorem scatter_sums_apply (x : FVec Ideal S64x64 .f32) (idx : IVec S100000x1 32) (h : FVec Ideal S100000x64 .f32)
    (g q : Fin 64) :
    Host.scatterAdd dSum x idx h (ix2 g q) = x (ix2 g q) + ∑ r : Fin 100000, selH h idx g q r := by
  unfold Host.scatterAdd
  rw [Ideal.hostScatterAdd_def]
  unfold Ideal.hostScatterAdd
  refine congrArg (x (ix2 g q) + ·) ?_
  rw [Finset.sum_filter, sum_idx2]
  refine Finset.sum_congr rfl fun r _ => ?_
  unfold selH
  by_cases hA : idx (ix2 r (0 : Fin 1)) = BitVec.ofNat 32 g.val
  · rw [if_pos hA, Finset.sum_eq_single q]
    · exact if_pos ((dSum_lands_iff idx r q g q).mpr ⟨hA, rfl⟩)
    · intro q' _ hne
      exact if_neg fun hl => hne ((dSum_lands_iff idx r q' g q).mp hl).2
    · intro hq
      exact absurd (Finset.mem_univ q) hq
  · rw [if_neg hA]
    exact Finset.sum_eq_zero fun q' _ => if_neg fun hl => hA ((dSum_lands_iff idx r q' g q).mp hl).1

/-! ## The scatter of one `1.0` per row into the segments' counts -/

/-- The counts' scatter: the index's one component names the one axis, the updates have no window. -/
abbrev dCnt := scatter_S64_S100000x1_S100000_n_0_0_1

/-- Update `r` lands at row `r`'s word read signed. -/
theorem dCnt_axis0 (j : S100000.Idx) (idx : IVec S100000x1 32) :
    dCnt.start j idx 0 + (dCnt.window j 0 : Int) = (idx (ix2 (j 0) (0 : Fin 1))).toInt := by
  unfold ScatterDims.start ScatterDims.window
  rw [dif_pos (show (0 : Fin S64.rank) ∈ dCnt.scatterDimsToOperandDims by decide),
    dif_neg (show ¬(0 : Fin S64.rank) ∈ dCnt.sKept by decide)]
  have e : dCnt.siIdx j ⟨List.idxOf (0 : Fin S64.rank) dCnt.scatterDimsToOperandDims,
      List.idxOf_lt_length_iff.2 (show (0 : Fin S64.rank) ∈ dCnt.scatterDimsToOperandDims by decide)⟩
      = ix2 (j 0) (0 : Fin 1) := by
    funext b; refine Fin.ext ?_
    match b with
    | ⟨0, _⟩ => rfl
    | ⟨1, _⟩ => rfl
  rw [e]
  simp

/-- Update `r` lands on segment `g` exactly when row `r`'s word is `g`'s. -/
theorem dCnt_lands_iff (idx : IVec S100000x1 32) (r : Fin 100000) (g : Fin 64) :
    dCnt.resultIdx? (ix1 r) idx = some (ix1 g) ↔ idx (ix2 r (0 : Fin 1)) = BitVec.ofNat 32 g.val := by
  have h0 := dCnt_axis0 (ix1 r) idx
  have e0 : idx (ix2 ((ix1 r : S100000.Idx) 0) (0 : Fin 1)) = idx (ix2 r (0 : Fin 1)) := rfl
  rw [e0] at h0
  rw [← toInt_eq_iff_eq_ofNat _ g.val g.isLt]
  unfold ScatterDims.resultIdx?
  constructor
  · intro h
    split at h
    · rename_i hin
      have hv := Option.some.inj h
      have v0 := congrArg (fun i : S64.Idx => (i 0).val) hv
      dsimp only at v0
      have a0 := hin 0
      have g0 : ((ix1 g : S64.Idx) 0).val = g.val := rfl
      rw [g0] at v0
      rw [h0] at a0 v0
      omega
    · exact absurd h (by simp)
  · intro hg
    have hin : ∀ a, 0 ≤ dCnt.start (ix1 r) idx a + (dCnt.window (ix1 r) a : Int)
        ∧ dCnt.start (ix1 r) idx a + (dCnt.window (ix1 r) a : Int) < (S64.size a : Int) := by
      intro a
      match a with
      | ⟨0, _⟩ =>
        show 0 ≤ dCnt.start (ix1 r) idx 0 + (dCnt.window (ix1 r) 0 : Int)
          ∧ dCnt.start (ix1 r) idx 0 + (dCnt.window (ix1 r) 0 : Int) < (64 : Int)
        rw [h0, hg]; have := g.isLt; omega
    rw [dif_pos hin]
    refine congrArg some (funext fun a => Fin.ext ?_)
    match a with
    | ⟨0, _⟩ =>
      show (dCnt.start (ix1 r) idx 0 + (dCnt.window (ix1 r) 0 : Int)).toNat = g.val
      rw [h0, hg]; omega

/-- The accumulating scatter of one value per row, at segment `g`: what was there plus, over all rows, the value of
    the rows whose word is `g`'s. -/
theorem scatter_cnt_apply (x : FVec Ideal S64 .f32) (idx : IVec S100000x1 32) (u : FVec Ideal S100000 .f32) (g : Fin 64) :
    Host.scatterAdd dCnt x idx u (ix1 g)
      = x (ix1 g) + ∑ r : Fin 100000, if idx (ix2 r (0 : Fin 1)) = BitVec.ofNat 32 g.val then u (ix1 r) else 0 := by
  unfold Host.scatterAdd
  rw [Ideal.hostScatterAdd_def]
  unfold Ideal.hostScatterAdd
  refine congrArg (x (ix1 g) + ·) ?_
  rw [Finset.sum_filter, ← Equiv.sum_comp (idxEquiv1 (n := 100000)).symm]
  refine Finset.sum_congr rfl fun r _ => ?_
  exact if_congr (dCnt_lands_iff idx r g) rfl rfl

/-! ## The reference's pooled sums and counts -/

/-- The reference's batch column, made for the sums' scatter, holds the batch vector's word `r` at row `r`. -/
theorem v93_row (x2 : (⟨S100000, .i32⟩ : BufTy).Contents (Elt Ideal)) (r : Fin 100000) :
    ReadP.val_main_v93 (F := Ideal) x2 (ix2 r (0 : Fin 1)) = x2 (ix1 r) := by
  rw [ReadP.val_main_v93_apply]
  refine congrArg x2 (funext fun a => ?_)
  match a with
  | ⟨0, _⟩ => rfl

/-- So does the one made for the counts' scatter. -/
theorem v97_row (x2 : (⟨S100000, .i32⟩ : BufTy).Contents (Elt Ideal)) (r : Fin 100000) :
    ReadP.val_main_v97 (F := Ideal) x2 (ix2 r (0 : Fin 1)) = x2 (ix1 r) := by
  rw [ReadP.val_main_v97_apply]
  refine congrArg x2 (funext fun a => ?_)
  match a with
  | ⟨0, _⟩ => rfl

/-- The reference's segment sums of the second layer's output are the pooled sums, against any batch column that
    holds the batch vector's words. The scatter starts from zeros. -/
theorem ref_v94 (x0 : (⟨S100000x128, .f32⟩ : BufTy).Contents (Elt Ideal)) (x1 : (⟨S2x1600000, .i32⟩ : BufTy).Contents (Elt Ideal)) (x2 : (⟨S100000, .i32⟩ : BufTy).Contents (Elt Ideal))
    (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (batch2 : IVec S100000x1 32) (hbatch : ∀ r : Fin 100000, batch2 (ix2 r (0 : Fin 1)) = x2 (ix1 r)) (g q : Fin 64) :
    ReadP.val_main_v94 (F := Ideal) x0 x1 x2 x3 x4 x5 x6 (ix2 g q) = poolSum (ReadP.val_main_v91 (F := Ideal) x0 x1 x3 x4 x5 x6) batch2 (ix2 g q) := by
  unfold ReadP.val_main_v94
  refine (scatter_sums_apply _ _ _ g q).trans ?_
  rw [ReadP.val_main_v92_apply, ReadP.val_main_cst_20_apply]
  show Ideal.ofBits .f32 0x00000000#32 + _ = _
  rw [Ideal.ofBits_zero_f32, zero_add]
  show _ = ∑ r : Fin 100000, selH (ReadP.val_main_v91 (F := Ideal) x0 x1 x3 x4 x5 x6) batch2 g q r
  refine Finset.sum_congr rfl fun r _ => ?_
  unfold selH
  rw [v93_row, hbatch r]

/-- The reference's segment counts are the pooled counts: a `1.0` per row, scattered from zeros. -/
theorem ref_v98 (x2 : (⟨S100000, .i32⟩ : BufTy).Contents (Elt Ideal))
    (batch2 : IVec S100000x1 32) (hbatch : ∀ r : Fin 100000, batch2 (ix2 r (0 : Fin 1)) = x2 (ix1 r)) (g : Fin 64) :
    ReadP.val_main_v98 (F := Ideal) x2 (ix1 g) = poolCnt batch2 (ix2 g (0 : Fin 1)) := by
  unfold ReadP.val_main_v98
  refine (scatter_cnt_apply _ _ _ g).trans ?_
  rw [ReadP.val_main_v96_apply, ReadP.val_main_cst_22_apply]
  show Ideal.ofBits .f32 0x00000000#32 + _ = _
  rw [Ideal.ofBits_zero_f32, zero_add]
  show _ = ∑ r : Fin 100000, selC batch2 g r
  refine Finset.sum_congr rfl fun r _ => ?_
  unfold selC
  rw [v97_row, hbatch r, ReadP.val_main_v95_apply, ReadP.val_main_cst_21_apply]
  rfl

/-! ## The mean -/

/-- The reference's quotient of the sums by the counts raised to at least `1.0`, broadcast along the columns, is
    the mean entry by entry. -/
theorem ref_v103 (x0 : (⟨S100000x128, .f32⟩ : BufTy).Contents (Elt Ideal)) (x1 : (⟨S2x1600000, .i32⟩ : BufTy).Contents (Elt Ideal)) (x2 : (⟨S100000, .i32⟩ : BufTy).Contents (Elt Ideal))
    (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (batch2 : IVec S100000x1 32) (hbatch : ∀ r : Fin 100000, batch2 (ix2 r (0 : Fin 1)) = x2 (ix1 r)) (g k : Fin 64) :
    ReadP.val_main_v103 (F := Ideal) x0 x1 x2 x3 x4 x5 x6 (ix2 g k)
      = meanAt (poolSum (ReadP.val_main_v91 (F := Ideal) x0 x1 x3 x4 x5 x6) batch2) (poolCnt batch2) g k := by
  rw [ReadP.val_main_v103_apply]
  show Ideal.div _ _ = _
  unfold meanAt
  rw [ref_v94 x0 x1 x2 x3 x4 x5 x6 batch2 hbatch g k,
    ReadP.val_main_v102_apply, ReadP.val_main_v101_apply, ReadP.val_main_v100_apply, ReadP.val_main_v99_apply,
    ReadP.val_main_cst_23_apply]
  have e : ReadP.idx_main_v101 (ReadP.idx_main_v102 (ix2 g k)) = ix1 g := funext fun a => by
    match a with
    | ⟨0, _⟩ => rfl
  rw [e, ref_v98 x2 batch2 hbatch g]
  rfl

/-! ## The head -/

/-- The reference's `z`: the mean times the first head matrix plus the first head bias, the bias given as any
    `[1, 64]` row that holds the bias vector's entries. -/
theorem ref_v107 (x0 : (⟨S100000x128, .f32⟩ : BufTy).Contents (Elt Ideal)) (x1 : (⟨S2x1600000, .i32⟩ : BufTy).Contents (Elt Ideal)) (x2 : (⟨S100000, .i32⟩ : BufTy).Contents (Elt Ideal))
    (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (batch2 : IVec S100000x1 32) (hbatch : ∀ r : Fin 100000, batch2 (ix2 r (0 : Fin 1)) = x2 (ix1 r))
    (bp2 : FVec Ideal S1x64 .f32) (hbp : ∀ j : Fin 64, bp2 (ix2 (0 : Fin 1) j) = x8 (ix1 j)) :
    ReadP.val_main_v107 (F := Ideal) x0 x1 x2 x3 x4 x5 x6 x7 x8 = zOf (ReadP.val_main_v91 (F := Ideal) x0 x1 x3 x4 x5 x6) batch2 x7 bp2 := by
  funext i
  obtain ⟨g, q, rfl⟩ : ∃ (g q : Fin 64), i = ix2 g q := ⟨i 0, i 1, eq_ix2 i⟩
  rw [ReadP.val_main_v107_apply, ReadP.val_main_v104_apply, ReadP.val_main_v106_apply, ReadP.val_main_v105_apply]
  show (∑ k : Fin 64, _ * _) + _ = affineAt (meanAt (poolSum (ReadP.val_main_v91 (F := Ideal) x0 x1 x3 x4 x5 x6) batch2) (poolCnt batch2)) x7 bp2 g q
  unfold affineAt
  refine congrArg₂ (· + ·) (Finset.sum_congr rfl fun k _ => ?_) ?_
  · have el : ReadP.lidx_main_v104 (ix2 g q) k = ix2 g k := funext fun a => by
      match a with
      | ⟨0, _⟩ => rfl
      | ⟨1, _⟩ => rfl
    have er : ReadP.ridx_main_v104 (ix2 g q) k = ix2 k q := funext fun a => by
      match a with
      | ⟨0, _⟩ => rfl
      | ⟨1, _⟩ => rfl
    rw [el, er, ref_v103 x0 x1 x2 x3 x4 x5 x6 batch2 hbatch g k]
  · rw [hbp q]
    refine congrArg x8 (funext fun a => ?_)
    match a with
    | ⟨0, _⟩ => rfl

/-- The reference's logits: `z` times the second head matrix plus the second head bias, the bias given as any
    `[1, 6]` row that holds the bias vector's entries. -/
theorem ref_v111 (x0 : (⟨S100000x128, .f32⟩ : BufTy).Contents (Elt Ideal)) (x1 : (⟨S2x1600000, .i32⟩ : BufTy).Contents (Elt Ideal)) (x2 : (⟨S100000, .i32⟩ : BufTy).Contents (Elt Ideal))
    (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (x9 : (⟨S64x6, .f32⟩ : BufTy).Contents (Elt Ideal)) (x10 : (⟨S6, .f32⟩ : BufTy).Contents (Elt Ideal))
    (batch2 : IVec S100000x1 32) (hbatch : ∀ r : Fin 100000, batch2 (ix2 r (0 : Fin 1)) = x2 (ix1 r))
    (bp2 : FVec Ideal S1x64 .f32) (hbp : ∀ j : Fin 64, bp2 (ix2 (0 : Fin 1) j) = x8 (ix1 j))
    (bc2 : FVec Ideal S1x6 .f32) (hbc : ∀ j : Fin 6, bc2 (ix2 (0 : Fin 1) j) = x10 (ix1 j)) :
    ReadP.val_main_v111 (F := Ideal) x0 x1 x2 x3 x4 x5 x6 x7 x8 x9 x10 = logitsOf (ReadP.val_main_v91 (F := Ideal) x0 x1 x3 x4 x5 x6) batch2 x7 bp2 x9 bc2 := by
  funext i
  obtain ⟨g, c, rfl⟩ : ∃ (g : Fin 64) (c : Fin 6), i = ix2 g c := ⟨i 0, i 1, eq_ix2 i⟩
  rw [ReadP.val_main_v111_apply, ReadP.val_main_v108_apply, ReadP.val_main_v110_apply, ReadP.val_main_v109_apply,
    ref_v107 x0 x1 x2 x3 x4 x5 x6 x7 x8 batch2 hbatch bp2 hbp]
  show (∑ k : Fin 64, _ * _) + _
    = affineAt (fun a k => zOfAcc (poolSum (ReadP.val_main_v91 (F := Ideal) x0 x1 x3 x4 x5 x6) batch2) (poolCnt batch2) x7 bp2 (ix2 a k)) x9 bc2 g c
  unfold affineAt
  refine congrArg₂ (· + ·) (Finset.sum_congr rfl fun k _ => ?_) ?_
  · have el : ReadP.lidx_main_v108 (ix2 g c) k = ix2 g k := funext fun a => by
      match a with
      | ⟨0, _⟩ => rfl
      | ⟨1, _⟩ => rfl
    have er : ReadP.ridx_main_v108 (ix2 g c) k = ix2 k c := funext fun a => by
      match a with
      | ⟨0, _⟩ => rfl
      | ⟨1, _⟩ => rfl
    rw [el, er]
    rfl
  · rw [hbc c]
    refine congrArg x10 (funext fun a => ?_)
    match a with
    | ⟨0, _⟩ => rfl

end Cert.KernelIdeal.Val

end
-- ==== Proof.KIV.Bridge.lean ====
/-
  The two programs at the exact instance compute one function. The kernel's host stretches apply the reference's own
  operations (the self-looped edge lists, the degree normalisation, gather, scale, scatter-add) to what the regions
  leave, and each region's output array is the reference's stage of the same inputs: a row-tiled matrix product is the
  whole product (each output row is one row's sum over the contracted axis), a bias row added and clipped at zero tile
  by tile is the same map pointwise, and the ten per-tile one-hot products accumulated in scratch are the segment sums
  over the graph ids (a node whose id names no graph contributes nothing on either side), divided by the counts
  clipped at one and sent through the two dense layers. Walking the run's valuations from the launch to the end, every
  buffer the next item reads holds the reference's stage of the arguments; so do the two results.
-/
import proofs.«408011_j62371515072934_2_alg».proof.Defs
import proofs.«408011_j62371515072934_2_alg».proof.Proof.Gen.Pre_finite_inputs
import proofs.«408011_j62371515072934_2_alg».proof.Proof.KI.Frame
import proofs.«408011_j62371515072934_2_alg».proof.Proof.KIV.Final0
import proofs.«408011_j62371515072934_2_alg».proof.Proof.KIV.Final1
import proofs.«408011_j62371515072934_2_alg».proof.Proof.KIV.Final2
import proofs.«408011_j62371515072934_2_alg».proof.Proof.KIV.Final3
import proofs.«408011_j62371515072934_2_alg».proof.Proof.KIV.Final4
import proofs.«408011_j62371515072934_2_alg».proof.Proof.KIV.Host
import proofs.«408011_j62371515072934_2_alg».proof.Proof.KIV.RefOps
import proofs.«408011_j62371515072934_2_alg».proof.Proof.KIV.RefPool

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.Hand Cert.ReferenceIdeal.ReadP

variable (m : (ℓ : Loc nD τ sig) → Buf (Elt Ideal) ℓ) (c : Dev nD)

/-- The arguments' launch contents on core `c`. -/
abbrev X (r : Ref sig .tc) := m ((c : Thread nD τ).loc r)

/-! ## An argument is never written: at every boundary it holds its launch contents -/

/-- @main's eleven arguments. -/
abbrev argRefs : List (Ref sig .tc) :=
  [main_arg0, main_arg1, main_arg2, main_arg3, main_arg4, main_arg5, main_arg6, main_arg7, main_arg8, main_arg9, main_arg10]

theorem arg_not0 : ∀ r ∈ argRefs, r ∉ hostOps0_W := by decide
theorem arg_not0_1 : ∀ r ∈ argRefs, r ∉ hostOps0_1_W := by decide
theorem arg_not0_2 : ∀ r ∈ argRefs, r ∉ hostOps0_2_W := by decide
theorem arg_not1 : ∀ r ∈ argRefs, r ∉ hostOps1_W := by decide
theorem arg_not3 : ∀ r ∈ argRefs, r ∉ hostOps3_W := by decide
theorem arg_not4 : ∀ r ∈ argRefs, r ∉ hostOps4_W := by decide
theorem arg_notR0 : ∀ r ∈ argRefs, r ∉ ([main_v30] : List (Ref sig .tc)) := by decide
theorem arg_notR1 : ∀ r ∈ argRefs, r ∉ ([main_v45] : List (Ref sig .tc)) := by decide
theorem arg_notR2 : ∀ r ∈ argRefs, r ∉ ([main_v46] : List (Ref sig .tc)) := by decide
theorem arg_notR3 : ∀ r ∈ argRefs, r ∉ ([main_v61] : List (Ref sig .tc)) := by decide

theorem W3_arg (r : Ref sig .tc) (hr : r ∈ argRefs) : W3 m c (Proc.devRef .tc r) = X m c r :=
  (W3_of m c r (arg_not0_2 r hr)).trans <| (W2_of m c r (arg_not0_1 r hr)).trans <| (W1_of m c r (arg_not0 r hr)).trans (W0_apply m c r)
theorem W4_arg (r : Ref sig .tc) (hr : r ∈ argRefs) : W4 m c (Proc.devRef .tc r) = X m c r :=
  (W4_of m c r (arg_notR0 r hr)).trans (W3_arg m c r hr)
theorem W5_arg (r : Ref sig .tc) (hr : r ∈ argRefs) : W5 m c (Proc.devRef .tc r) = X m c r :=
  (W5_of m c r (arg_not1 r hr)).trans (W4_arg m c r hr)
theorem W6_arg (r : Ref sig .tc) (hr : r ∈ argRefs) : W6 m c (Proc.devRef .tc r) = X m c r :=
  (W6_of m c r (arg_notR1 r hr)).trans (W5_arg m c r hr)
theorem W7_arg (r : Ref sig .tc) (hr : r ∈ argRefs) : W7 m c (Proc.devRef .tc r) = X m c r :=
  (W7_of m c r (arg_notR2 r hr)).trans (W6_arg m c r hr)
theorem W8_arg (r : Ref sig .tc) (hr : r ∈ argRefs) : W8 m c (Proc.devRef .tc r) = X m c r :=
  (W8_of m c r (arg_not3 r hr)).trans (W7_arg m c r hr)
theorem W9_arg (r : Ref sig .tc) (hr : r ∈ argRefs) : W9 m c (Proc.devRef .tc r) = X m c r :=
  (W9_of m c r (arg_notR3 r hr)).trans (W8_arg m c r hr)
theorem W10_arg (r : Ref sig .tc) (hr : r ∈ argRefs) : W10 m c (Proc.devRef .tc r) = X m c r :=
  (W10_of m c r (arg_not4 r hr)).trans (W9_arg m c r hr)

/-! ## The edge lists and the coefficients: written before the first region, read by both scatter stretches -/

/-- The source, destination and coefficient vectors `main_v5`, `main_v6`, `main_v29`. -/
abbrev edgeRefs : List (Ref sig .tc) := [main_v5, main_v6, main_v29]

theorem edge_notR0 : ∀ r ∈ edgeRefs, r ∉ ([main_v30] : List (Ref sig .tc)) := by decide
theorem edge_not1 : ∀ r ∈ edgeRefs, r ∉ hostOps1_W := by decide
theorem edge_notR1 : ∀ r ∈ edgeRefs, r ∉ ([main_v45] : List (Ref sig .tc)) := by decide
theorem edge_notR2 : ∀ r ∈ edgeRefs, r ∉ ([main_v46] : List (Ref sig .tc)) := by decide

theorem W4_edge (r : Ref sig .tc) (hr : r ∈ edgeRefs) : W4 m c (Proc.devRef .tc r) = W3 m c (Proc.devRef .tc r) :=
  W4_of m c r (edge_notR0 r hr)
theorem W7_edge (r : Ref sig .tc) (hr : r ∈ edgeRefs) : W7 m c (Proc.devRef .tc r) = W3 m c (Proc.devRef .tc r) :=
  (W7_of m c r (edge_notR2 r hr)).trans <| (W6_of m c r (edge_notR1 r hr)).trans <| (W5_of m c r (edge_not1 r hr)).trans (W4_edge m c r hr)

theorem W3_v5 : W3 m c (Proc.devRef .tc main_v5) = val_main_v6 (F := Ideal) (X m c main_arg1) :=
  pre_v5 (W0 m c) _ (W0_apply m c main_arg1)
theorem W3_v6 : W3 m c (Proc.devRef .tc main_v6) = val_main_v7 (F := Ideal) (X m c main_arg1) :=
  pre_v6 (W0 m c) _ (W0_apply m c main_arg1)
theorem W3_v29 : W3 m c (Proc.devRef .tc main_v29) = val_main_v30 (F := Ideal) (X m c main_arg1) :=
  pre_v29 (W0 m c) _ (W0_apply m c main_arg1)

/-! ## Layer one -/

/-- Region 0 leaves the reference's first product. -/
theorem W4_v30 : W4 m c (Proc.devRef .tc main_v30) = val_main_v4 (F := Ideal) (X m c main_arg0) (X m c main_arg3) := by
  refine (W4_arr m c 2).trans ?_
  rw [final0, ref_mm128]
  exact congrArg₂ (mm 128) (W3_arg m c main_arg0 (by decide)) (W3_arg m c main_arg3 (by decide))

/-- The first scatter stretch leaves the reference's aggregated messages. -/
theorem W5_v43 : W5 m c (Proc.devRef .tc main_v43) = val_main_v43 (F := Ideal) (X m c main_arg0) (X m c main_arg1) (X m c main_arg3) :=
  host1_v43 (W4 m c) _ _ _ (W4_v30 m c) ((W4_edge m c main_v5 (by decide)).trans (W3_v5 m c))
    ((W4_edge m c main_v6 (by decide)).trans (W3_v6 m c)) ((W4_edge m c main_v29 (by decide)).trans (W3_v29 m c))

/-- and the first bias as a row. -/
theorem W5_v44 (j : Fin 64) : W5 m c (Proc.devRef .tc main_v44) (ValueIdx.ix2 0 j) = X m c main_arg4 (ValueIdx.ix1 j) :=
  (host1_v44_apply (W4 m c) j).trans (congrFun (W4_arg m c main_arg4 (by decide)) _)

/-- Region 1 leaves the reference's first hidden layer. -/
theorem W6_v45 : W6 m c (Proc.devRef .tc main_v45)
    = val_main_v47 (F := Ideal) (X m c main_arg0) (X m c main_arg1) (X m c main_arg3) (X m c main_arg4) := by
  refine (W6_arr m c 2).trans ?_
  rw [final1, show V5 m c main_v43 = _ from W5_v43 m c]
  exact (ref_v47 _ _ _ _ _ (fun j => W5_v44 m c j)).symm

/-! ## Layer two -/

/-- Region 2 leaves the reference's second product. -/
theorem W7_v46 : W7 m c (Proc.devRef .tc main_v46)
    = val_main_v48 (F := Ideal) (X m c main_arg0) (X m c main_arg1) (X m c main_arg3) (X m c main_arg4) (X m c main_arg5) := by
  refine (W7_arr m c 2).trans ?_
  rw [final2, show V6 m c main_v45 = _ from W6_v45 m c, show V6 m c main_arg5 = _ from W6_arg m c main_arg5 (by decide)]
  exact (ref_v48 _ _ _ _ _).symm

theorem W8_v59 : W8 m c (Proc.devRef .tc main_v59)
    = val_main_v87 (F := Ideal) (X m c main_arg0) (X m c main_arg1) (X m c main_arg3) (X m c main_arg4) (X m c main_arg5) :=
  host3_v59 (W7 m c) _ _ _ _ _ (W7_v46 m c) ((W7_edge m c main_v5 (by decide)).trans (W3_v5 m c))
    ((W7_edge m c main_v6 (by decide)).trans (W3_v6 m c)) ((W7_edge m c main_v29 (by decide)).trans (W3_v29 m c))

theorem W8_v60 (j : Fin 64) : W8 m c (Proc.devRef .tc main_v60) (ValueIdx.ix2 0 j) = X m c main_arg6 (ValueIdx.ix1 j) :=
  (host3_v60_apply (W7 m c) j).trans (congrFun (W7_arg m c main_arg6 (by decide)) _)

/-- Region 3 leaves the reference's second hidden layer. -/
theorem W9_v61 : W9 m c (Proc.devRef .tc main_v61)
    = val_main_v91 (F := Ideal) (X m c main_arg0) (X m c main_arg1) (X m c main_arg3) (X m c main_arg4) (X m c main_arg5) (X m c main_arg6) := by
  refine (W9_arr m c 2).trans ?_
  rw [final3, show V8 m c main_v59 = _ from W8_v59 m c]
  exact (ref_v91 _ _ _ _ _ _ _ (fun j => W8_v60 m c j)).symm

/-! ## Pooling and the head -/

theorem W10_v61 : W10 m c (Proc.devRef .tc main_v61)
    = val_main_v91 (F := Ideal) (X m c main_arg0) (X m c main_arg1) (X m c main_arg3) (X m c main_arg4) (X m c main_arg5) (X m c main_arg6) :=
  (W10_of m c main_v61 (by decide)).trans (W9_v61 m c)

/-- The graph ids as a column, the two head biases as rows. -/
theorem W10_v62 (r : Fin 100000) : W10 m c (Proc.devRef .tc main_v62) (ValueIdx.ix2 r 0) = X m c main_arg2 (ValueIdx.ix1 r) :=
  (host4_v62_apply (W9 m c) r).trans (congrFun (W9_arg m c main_arg2 (by decide)) _)
theorem W10_v63 (j : Fin 64) : W10 m c (Proc.devRef .tc main_v63) (ValueIdx.ix2 0 j) = X m c main_arg8 (ValueIdx.ix1 j) :=
  (host4_v63_apply (W9 m c) j).trans (congrFun (W9_arg m c main_arg8 (by decide)) _)
theorem W10_v64 (j : Fin 6) : W10 m c (Proc.devRef .tc main_v64) (ValueIdx.ix2 0 j) = X m c main_arg10 (ValueIdx.ix1 j) :=
  (host4_v64_apply (W9 m c) j).trans (congrFun (W9_arg m c main_arg10 (by decide)) _)

/-- Region 4 leaves the reference's pooled representation `z` … -/
theorem W11_v65_0 : W11 m c (Proc.devRef .tc main_v65_0) = val_main_v107 (F := Ideal) (X m c main_arg0) (X m c main_arg1) (X m c main_arg2) (X m c main_arg3) (X m c main_arg4) (X m c main_arg5) (X m c main_arg6) (X m c main_arg7) (X m c main_arg8) := by
  refine (W11_arr m c 6).trans ?_
  rw [final4_6, show V10 m c main_v61 = _ from W10_v61 m c, show V10 m c main_arg7 = _ from W10_arg m c main_arg7 (by decide)]
  exact (ref_v107 _ _ _ _ _ _ _ _ _ _ (fun r => W10_v62 m c r) _ (fun j => W10_v63 m c j)).symm

/-- … and its logits. -/
theorem W11_v65_1 : W11 m c (Proc.devRef .tc main_v65_1) = val_main_v111 (F := Ideal) (X m c main_arg0) (X m c main_arg1) (X m c main_arg2) (X m c main_arg3) (X m c main_arg4) (X m c main_arg5) (X m c main_arg6) (X m c main_arg7) (X m c main_arg8) (X m c main_arg9) (X m c main_arg10) := by
  refine (W11_arr m c 7).trans ?_
  rw [final4_7, show V10 m c main_v61 = _ from W10_v61 m c, show V10 m c main_arg7 = _ from W10_arg m c main_arg7 (by decide),
    show V10 m c main_arg9 = _ from W10_arg m c main_arg9 (by decide)]
  exact (ref_v111 _ _ _ _ _ _ _ _ _ _ _ _ (fun r => W10_v62 m c r) _ (fun j => W10_v63 m c j) _ (fun j => W10_v64 m c j)).symm

/-! ## The claim -/

/-- Both programs, from memories that agree on the arguments, end at the reference's two stages of the kernel's
    arguments: the kernel's run read at its last valuation, the reference's run with its arguments rewritten. -/
theorem algebraic : Cert.algebraic_KernelIdeal_ReferenceIdeal := by
  intro m ρ m' ρ' _ hagree
  refine ⟨fun c => val_main_v111 (F := Ideal) (X m c main_arg0) (X m c main_arg1) (X m c main_arg2) (X m c main_arg3) (X m c main_arg4) (X m c main_arg5) (X m c main_arg6) (X m c main_arg7) (X m c main_arg8) (X m c main_arg9) (X m c main_arg10), fun c => val_main_v107 (F := Ideal) (X m c main_arg0) (X m c main_arg1) (X m c main_arg2) (X m c main_arg3) (X m c main_arg4) (X m c main_arg5) (X m c main_arg6) (X m c main_arg7) (X m c main_arg8), ?_, ?_⟩
  · refine (θ_run Cert.KernelIdeal.defs _ _).mono (fun r h c => ?_) (run_all m ρ)
    exact ⟨(h c _ (mem_uc main_v65_1 (by decide))).trans (W11_v65_1 m c), (h c _ (mem_uc main_v65_0 (by decide))).trans (W11_v65_0 m c),
      (h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c),
      (h c _ (mem_uc main_arg4 (by decide))).trans (W11_main_arg4 m c),
      (h c _ (mem_uc main_arg5 (by decide))).trans (W11_main_arg5 m c),
      (h c _ (mem_uc main_arg6 (by decide))).trans (W11_main_arg6 m c),
      (h c _ (mem_uc main_arg7 (by decide))).trans (W11_main_arg7 m c),
      (h c _ (mem_uc main_arg8 (by decide))).trans (W11_main_arg8 m c),
      (h c _ (mem_uc main_arg9 (by decide))).trans (W11_main_arg9 m c),
      (h c _ (mem_uc main_arg10 (by decide))).trans (W11_main_arg10 m c)⟩
  · refine (θ_run Cert.ReferenceIdeal.defs _ _).mono (fun r h c => ?_) (Cert.ReferenceIdeal.ValueP.run (F := Ideal) m' ρ')
    obtain ⟨h111, h107, hargs⟩ := h c
    obtain ⟨e0, e1, e2, e3, e4, e5, e6, e7, e8, e9, e10⟩ := hagree c
    refine ⟨h111.trans ?_, h107.trans ?_, hargs⟩
    · rw [val_main_v111_eq, e0, e1, e2, e3, e4, e5, e6, e7, e8, e9, e10]
    · rw [val_main_v107_eq, e0, e1, e2, e3, e4, e5, e6, e7, e8]

end Cert.KernelIdeal.Val

end
-- ==== Proof.K.R0.lean ====
import proofs.«408011_j62371515072934_2_alg».proof.Proof.Gen.Kernel.Launch
import proofs.«408011_j62371515072934_2_alg».proof.Proof.Gen.Kernel.Skeleton
import proofs.«408011_j62371515072934_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: a row block times a weight matrix

The grid has ten points. At point `t` the body reads a block of ten thousand rows of the left operand
(128 columns), reads the whole weight (128 by 64), and writes their product, rounded
operands and a zero accumulator, over the whole of the output's block of ten thousand rows. Everything is stated at
a parameter `V`: the contents of the core's buffers when the region is entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`: the window's rectangle at `t` read out of its array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds the block of the point the body runs at. The window moves with the point and is
    fetched at each one; a body that leaves the buffer as it found it (`hafter`) over an array equal to `V`'s (`hA`)
    therefore finds the block of `t` there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the weight at every point. Its index map is constant, so it is fetched at the first
    point only; at a later point the block index is the one of the point before, the body left the buffer as it found
    it (`hafter`), and so what was fetched first is still there — and that is the block of `t`, the same rectangle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-! ## What the body leaves in the output's buffer -/

/-- The output's buffer after the body, from the two input blocks: one piece, the whole buffer, holding the product
    of the left block by the weight. -/
def out0_2 (x0 : Vec F S10000x128 .f32) (x1 : Vec F S128x64 .f32) : Vec F S10000x64 .f32 :=
  View.canon [⟨r0_2, k0_pay1 (View.ld x0 r0_0) (View.ld x1 r0_1)⟩]

/-- The one piece is the whole buffer, so every index of the buffer lies in it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The body on three whole buffers — the inputs' holding `x0` and `x1`, the output's holding anything — ends with the
    inputs' unchanged and the output's at `out0_2 x0 x1`. It loads both inputs whole, loads the output's buffer too (a
    value no later step reads, so whatever was there does not matter), and stores the product over the whole output
    buffer; a buffer overwritten by pieces that cover it reads as those pieces laid down. The grid coordinate is not
    read. -/
theorem sound_kernel0 (c : Dev nD) (E : Set ℕ) (i : grid0.Coords) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`. The arrays are `V`'s. After the body at `t` each input's buffer still
    holds its block and the output's holds the product of the two blocks. The invariant is the untouched rest (the
    scoped buffers and the generator register); every share is whole; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are `V`'s, by projecting the definition. -/
theorem A_eq0 (c : Dev nD) (w : Fin cfg0.W) : (dat0 V c).A w = V c (Pipeline.arrRef spec0 w) := by
  dsimp only [dat0]

/-- What the body leaves, window by window, by projecting the definition. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block when the body is handed it, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is handed at point `t`: the invariant, what the core owes, and each window's current buffer at what
    it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. The inputs' buffers hold their blocks, so the body's triple applies with `x0`, `x1` those
    blocks; the invariant and what the core owes are the same on both sides and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point: the separating product over the three windows written out, then the body's
    triple at that point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«408011_j62371515072934_2_alg».proof.Proof.Gen.Kernel.Launch
import proofs.«408011_j62371515072934_2_alg».proof.Proof.Gen.Kernel.Skeleton
import proofs.«408011_j62371515072934_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the bias-and-rectifier kernel, at a parameter `V`

The region walks ten row blocks of a `[100000, 64]` array. At each point the body reads the current
`[10000, 64]` block `x` and the whole `[1, 64]` bias row `b`, and writes `max (x + b) 0` (the row broadcast
down the rows) over the whole output block. Here: each window's block at a point, what the output's
buffer holds after the body as a function of the two input blocks, the body's triple, and the proof
data and body obligation of the pipeline, all at an arbitrary entry contents `V`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block): its current staging buffer holds its block at every point, for any proof
    data whose array is `V`'s and whose body leaves the block in place. The window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row): its index map is constant, so it is fetched at the first point only; at a later
    point the buffer still holds the previous point's block, and the block index has not moved, so that is this
    point's block too. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole `[10000, 64]` block: what the body loads of window 0 and stores to window 2. -/
abbrev r1_0 : Rect S10000x64 := Rect.unit (s := S10000x64) ![0, 0] S10000x64.size inb_S10000x64_S10000x64_0_0
/-- The whole `[1, 64]` row: what the body loads of window 1. -/
abbrev r1_1 : Rect S1x64 := Rect.unit (s := S1x64) ![0, 0] S1x64.size inb_S1x64_S1x64_0_0

/-! ## What the body leaves in the output window's buffer -/

/-- Window 2's staging buffer after the body, from the two input blocks: one store over the whole block, of
    `max (x0 + broadcast x1) 0`. -/
def out1_2 (x0 : Vec F S10000x64 .f32) (x1 : Vec F S1x64 .f32) : Vec F S10000x64 .f32 :=
  View.canon [⟨r1_0, k1_pay1 (View.ld x0 r1_0) (View.ld x1 r1_1)⟩]

/-- The one store is the whole block, so it covers the buffer. -/
theorem cover1_2 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

/-! ## The body's triple -/

set_option maxHeartbeats 1000000 in
/-- The kernel body on whole staging memrefs, the inputs' at contents `x0`, `x1` and the output's at anything, runs to
    the continuation holding the inputs' as they were and the output's at `out1_2 x0 x1`. The body also loads the
    output's buffer before storing over it; the value loaded is never used, and the store covers the buffer, so what
    it held drops out. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the pipeline on core `c`: the arrays as the region finds them; after the body at point `t`
    each input's buffer at its block and the output's at `out1_2` of the two input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«408011_j62371515072934_2_alg».proof.Proof.Gen.Kernel.Launch
import proofs.«408011_j62371515072934_2_alg».proof.Proof.Gen.Kernel.Skeleton
import proofs.«408011_j62371515072934_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: a row block times a weight matrix

The grid has ten points. At point `t` the body reads a block of ten thousand rows of the left operand
(64 columns), reads the whole weight (64 by 64), and writes their product, rounded
operands and a zero accumulator, over the whole of the output's block of ten thousand rows. Everything is stated at
a parameter `V`: the contents of the core's buffers when the region is entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`: the window's rectangle at `t` read out of its array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's buffer holds the block of the point the body runs at. The window moves with the point and is
    fetched at each one; a body that leaves the buffer as it found it (`hafter`) over an array equal to `V`'s (`hA`)
    therefore finds the block of `t` there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer holds the weight at every point. Its index map is constant, so it is fetched at the first
    point only; at a later point the block index is the one of the point before, the body left the buffer as it found
    it (`hafter`), and so what was fetched first is still there — and that is the block of `t`, the same rectangle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each the whole of its buffer -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x64 := Rect.unit (s := S10000x64) ![0, 0] S10000x64.size inb_S10000x64_S10000x64_0_0

/-! ## What the body leaves in the output's buffer -/

/-- The output's buffer after the body, from the two input blocks: one piece, the whole buffer, holding the product
    of the left block by the weight. -/
def out2_2 (x0 : Vec F S10000x64 .f32) (x1 : Vec F S64x64 .f32) : Vec F S10000x64 .f32 :=
  View.canon [⟨r2_2, k2_pay1 (View.ld x0 r2_0) (View.ld x1 r2_1)⟩]

/-- The one piece is the whole buffer, so every index of the buffer lies in it. -/
theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

/-! ## The body's triple -/

set_option maxHeartbeats 1000000 in
/-- The body on three whole buffers — the inputs' holding `x0` and `x1`, the output's holding anything — ends with the
    inputs' unchanged and the output's at `out2_2 x0 x1`. It loads both inputs whole, loads the output's buffer too (a
    value no later step reads, so whatever was there does not matter), and stores the product over the whole output
    buffer; a buffer overwritten by pieces that cover it reads as those pieces laid down. The grid coordinate is not
    read. -/
theorem sound_kernel2 (c : Dev nD) (E : Set ℕ) (i : grid2.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`. The arrays are `V`'s. After the body at `t` each input's buffer still
    holds its block and the output's holds the product of the two blocks. The invariant is the untouched rest (the
    scoped buffers and the generator register); every share is whole; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are `V`'s, by projecting the definition. -/
theorem A_eq2 (c : Dev nD) (w : Fin cfg2.W) : (dat2 V c).A w = V c (Pipeline.arrRef spec2 w) := by
  dsimp only [dat2]

/-- What the body leaves, window by window, by projecting the definition. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block when the body is handed it, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is handed at point `t`: the invariant, what the core owes, and each window's current buffer at what
    it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back: the same with each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point. The inputs' buffers hold their blocks, so the body's triple applies with `x0`, `x1` those
    blocks; the invariant and what the core owes are the same on both sides and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point: the separating product over the three windows written out, then the body's
    triple at that point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«408011_j62371515072934_2_alg».proof.Proof.Gen.Kernel.Launch
import proofs.«408011_j62371515072934_2_alg».proof.Proof.Gen.Kernel.Skeleton
import proofs.«408011_j62371515072934_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the bias-and-rectifier kernel, at a parameter `V`

The region walks ten row blocks of a `[100000, 64]` array. At each point the body reads the current
`[10000, 64]` block `x` and the whole `[1, 64]` bias row `b`, and writes `max (x + b) 0` (the row broadcast
down the rows) over the whole output block. Here: each window's block at a point, what the output's
buffer holds after the body as a function of the two input blocks, the body's triple, and the proof
data and body obligation of the pipeline, all at an arbitrary entry contents `V`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block): its current staging buffer holds its block at every point, for any proof
    data whose array is `V`'s and whose body leaves the block in place. The window is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row): its index map is constant, so it is fetched at the first point only; at a later
    point the buffer still holds the previous point's block, and the block index has not moved, so that is this
    point's block too. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole `[10000, 64]` block: what the body loads of window 0 and stores to window 2. -/
abbrev r3_0 : Rect S10000x64 := Rect.unit (s := S10000x64) ![0, 0] S10000x64.size inb_S10000x64_S10000x64_0_0
/-- The whole `[1, 64]` row: what the body loads of window 1. -/
abbrev r3_1 : Rect S1x64 := Rect.unit (s := S1x64) ![0, 0] S1x64.size inb_S1x64_S1x64_0_0

/-! ## What the body leaves in the output window's buffer -/

/-- Window 2's staging buffer after the body, from the two input blocks: one store over the whole block, of
    `max (x0 + broadcast x1) 0`. -/
def out3_2 (x0 : Vec F S10000x64 .f32) (x1 : Vec F S1x64 .f32) : Vec F S10000x64 .f32 :=
  View.canon [⟨r3_0, k3_pay1 (View.ld x0 r3_0) (View.ld x1 r3_1)⟩]

/-- The one store is the whole block, so it covers the buffer. -/
theorem cover3_2 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

/-! ## The body's triple -/

set_option maxHeartbeats 1000000 in
/-- The kernel body on whole staging memrefs, the inputs' at contents `x0`, `x1` and the output's at anything, runs to
    the continuation holding the inputs' as they were and the output's at `out3_2 x0 x1`. The body also loads the
    output's buffer before storing over it; the value loaded is never used, and the store covers the buffer, so what
    it held drops out. -/
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the pipeline on core `c`: the arrays as the region finds them; after the body at point `t`
    each input's buffer at its block and the output's at `out3_2` of the two input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Runs.lean ====
/- Region 4, the pooling and the classifier head: what its three runs share. The grid has ten points; at each the
   body adds the block's per-segment sums (a 64 by 10000 indicator times the 10000 by 64 block) and per-segment counts to two
   accumulators kept between points, after clearing them at the first point, and at the last point divides sums by counts,
   applies the projection and the classifier, and writes both outputs. Here: each window's block, the two conditions on
   the coordinate in closed form, where the outputs are idle, and the memrefs and invariant the runs are stated over. -/
import proofs.«408011_j62371515072934_2_alg».proof.Proof.Gen.Kernel.Launch
import proofs.«408011_j62371515072934_2_alg».proof.Proof.Gen.Kernel.Skeleton
import proofs.«408011_j62371515072934_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the hidden features' block of ten thousand rows) holds its block at every point, fetched there or not: where it is not fetched its
    block index has not moved, the window is uncut and never idle, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the segment ids' block of ten thousand rows) holds its block at every point, fetched there or not: where it is not fetched its
    block index has not moved, the window is uncut and never idle, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the projection matrix) holds its block at every point, fetched there or not: where it is not fetched its
    block index has not moved, the window is uncut and never idle, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the projection bias) holds its block at every point, fetched there or not: where it is not fetched its
    block index has not moved, the window is uncut and never idle, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the classifier matrix) holds its block at every point, fetched there or not: where it is not fetched its
    block index has not moved, the window is uncut and never idle, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the classifier bias) holds its block at every point, fetched there or not: where it is not fetched its
    block index has not moved, the window is uncut and never idle, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions on the grid coordinate -/

/-- The first conditional's test: the coordinate is zero (the accumulators are reset). -/
abbrev cond4_0 (i : grid4.Coords) : Prop := (Scalar.cmpi .ne (Scalar.extui (Scalar.cmpi .eq (BitVec.ofNat 32 (i 0).val) 0#32)) 0#32) = 1#1
/-- It holds at the first of the ten points only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's test: the coordinate is nine (the means are taken and both outputs written). -/
abbrev cond4_1 (i : grid4.Coords) : Prop := k4_cond2 i = 1#1
/-- It holds at the last of the ten points only. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle

Three cases: A, the first point (reset, then accumulate); B, points 1 to 8 (accumulate only); C, the last point
(accumulate, then finish). The inputs are never idle; the two outputs are stored at the last point only, so they are
idle and not written back in A and B, and live in C. -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem idleAt4_6_A : ∀ t : Fin cfg4.N, cond4_0 (grid4.coords t) → ¬cond4_1 (grid4.coords t) → cfg4.idle 6 (grid4.coords t) = true := by decide +kernel
theorem noFlush4_6_A : ∀ t : Fin cfg4.N, cond4_0 (grid4.coords t) → ¬cond4_1 (grid4.coords t) → (cfg4.win 6).flush t = false := by decide +kernel
theorem idleAt4_7_A : ∀ t : Fin cfg4.N, cond4_0 (grid4.coords t) → ¬cond4_1 (grid4.coords t) → cfg4.idle 7 (grid4.coords t) = true := by decide +kernel
theorem noFlush4_7_A : ∀ t : Fin cfg4.N, cond4_0 (grid4.coords t) → ¬cond4_1 (grid4.coords t) → (cfg4.win 7).flush t = false := by decide +kernel
theorem idleAt4_6_B : ∀ t : Fin cfg4.N, ¬cond4_0 (grid4.coords t) → ¬cond4_1 (grid4.coords t) → cfg4.idle 6 (grid4.coords t) = true := by decide +kernel
theorem noFlush4_6_B : ∀ t : Fin cfg4.N, ¬cond4_0 (grid4.coords t) → ¬cond4_1 (grid4.coords t) → (cfg4.win 6).flush t = false := by decide +kernel
theorem idleAt4_7_B : ∀ t : Fin cfg4.N, ¬cond4_0 (grid4.coords t) → ¬cond4_1 (grid4.coords t) → cfg4.idle 7 (grid4.coords t) = true := by decide +kernel
theorem noFlush4_7_B : ∀ t : Fin cfg4.N, ¬cond4_0 (grid4.coords t) → ¬cond4_1 (grid4.coords t) → (cfg4.win 7).flush t = false := by decide +kernel
theorem liveAt4_6_C : ∀ t : Fin cfg4.N, ¬cond4_0 (grid4.coords t) → cond4_1 (grid4.coords t) → cfg4.idle 6 (grid4.coords t) = false := by decide +kernel
theorem liveAt4_7_C : ∀ t : Fin cfg4.N, ¬cond4_0 (grid4.coords t) → cond4_1 (grid4.coords t) → cfg4.idle 7 (grid4.coords t) = false := by decide +kernel

/-! ## The memrefs the body is called with -/

/-- The one staging buffer of each output, through which its contents are stated. -/
abbrev VO4_6 : View sig .tc .vmem S64x64 .f32 := (Memref.whole cc4_stg6_0 : Memref sig .tc .vmem S64x64 .f32).view
abbrev VO4_7 : View sig .tc .vmem S64x6 .f32 := (Memref.whole cc4_stg7_0 : Memref sig .tc .vmem S64x6 .f32).view
/-- Each window's current staging memref at point `t`, and that it is a whole buffer. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x6 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x6 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S64x6 .f32 := win4_7.stage (cfg4.slots t 7)
abbrev hs4_7 (t : Fin cfg4.N) : (ms4_7 t).IsWhole := hstage4_7 ((cfg4.slots t 7).cast nbuf4_7)
/-- The two accumulators (segment sums, 64 by 64; segment counts, 64 by 1): whole buffers of the kernel's own, kept
    from one point to the next. -/
abbrev scM4_0 : Memref sig .tc .vmem S64x64 .f32 := Memref.whole cc4_scratch0
abbrev scM4_1 : Memref sig .tc .vmem S64x1 .f32 := Memref.whole cc4_scratch1
abbrev VS4_0 : View sig .tc .vmem S64x64 .f32 := scM4_0.view
abbrev VS4_1 : View sig .tc .vmem S64x1 .f32 := scM4_1.view

/-! ## The region's invariant, opened at the two accumulators -/

/-- The core's scoped buffers that are neither this call's staging buffers nor its two accumulators (the earlier calls'
    staging buffers), each at some contents: carried through every point unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class's invariant with the two accumulators split off as whole memrefs owned at some contents: what the body
    is handed before the first point and what it gives back after the last. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA
  rw [Pipeline.scopedRest_split_of_list spec4 c [cc4_scratch0, cc4_scratch1] (by decide) (by decide)]
  simp only [scM4_0, scM4_1, owns_whole]; try rfl

end Cert.Kernel.Hand

end
-- ==== Proof.K.R4RunA.lean ====
/- Region 4's body at the first grid point (case A): both accumulators are cleared, then the block's per-segment sums and
   counts are added to the cleared values and stored; neither output is touched. -/
import proofs.«408011_j62371515072934_2_alg».proof.Proof.K.R4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the two accumulators at the first point, as pieces (last first), with the proof that from
    whole memrefs — the six inputs at their contents, the two outputs at contents handed back untouched, the accumulators at
    anything — the body runs to the continuation holding the inputs and outputs as they were and each accumulator with its
    pieces written. The pieces are found by running the body's memory operations in order: the zeros stored first are what the
    later loads of the accumulators read. -/
noncomputable def kernelRun4_A (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) :
    Σ' (L6 : List (View.Piece (Elt F) S64x64 .f32)) (L7 : List (View.Piece (Elt F) S64x6 .f32)) (LS0 : List (View.Piece (Elt F) S64x64 .f32)), { LS1 : List (View.Piece (Elt F) S64x1 .f32) //
      ∀ (xi6 : Vec F S64x64 .f32) (xi7 : Vec F S64x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.R4RunB.lean ====
/- Region 4's body at the points strictly between the first and the last (case B): the block's per-segment sums and counts
   are added to what the accumulators held and stored; neither output is touched. -/
import proofs.«408011_j62371515072934_2_alg».proof.Proof.K.R4RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the two accumulators at a middle point, as pieces, with the proof that from whole
    memrefs — the six inputs at their contents, the two outputs at contents handed back untouched, the accumulators at what the
    point before left — the body runs to the continuation holding the inputs and outputs as they were and each accumulator
    with its pieces written. -/
noncomputable def kernelRun4_B (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    Σ' (L6 : List (View.Piece (Elt F) S64x64 .f32)) (L7 : List (View.Piece (Elt F) S64x6 .f32)) (LS0 : List (View.Piece (Elt F) S64x64 .f32)), { LS1 : List (View.Piece (Elt F) S64x1 .f32) //
      ∀ (xi6 : Vec F S64x64 .f32) (xi7 : Vec F S64x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.R4RunC.lean ====
/- Region 4's body at the last grid point (case C): the block's per-segment sums and counts are added to the accumulators,
   and from the totals just stored the means, their projection and the class scores are computed and written to the two outputs. -/
import proofs.«408011_j62371515072934_2_alg».proof.Proof.K.R4RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the two outputs and the two accumulators at the last point, as pieces, with the proof
    that from whole memrefs — the six inputs at their contents, the two outputs at anything, the accumulators at what the point
    before left — the body runs to the continuation holding the inputs as they were and each output and accumulator with its
    pieces written. The outputs are computed from loads of the accumulators made after this point's own stores into them. -/
noncomputable def kernelRun4_C (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) :
    Σ' (L6 : List (View.Piece (Elt F) S64x64 .f32)) (L7 : List (View.Piece (Elt F) S64x6 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.Kernel.Hand

end
-- ==== Proof.K.R4.lean ====
/- Region 4, the pooling and the classifier head, as a pipeline's proof data at the region-entry contents `V`: what each of the
   three cases leaves in the two outputs and the two accumulators; the accumulation point by point (`outsAt4`: totals after
   point `n` are totals after point `n - 1` plus block `n`'s segment sums and counts, starting from zero); the invariant that
   carries the accumulators between points; and the body obligation, by cases on the coordinate. -/
import proofs.«408011_j62371515072934_2_alg».proof.Proof.K.R4RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What each case leaves in the outputs and the accumulators -/

/-- At the first point nothing is stored into the pooled projection's buffer: no pieces, a placeholder nothing consults, the window
    being neither written back nor read at the next point. -/
def out4_A_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x64 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 hc0 hc1 x0 x1 x2 x3 x4 x5).1)

/-- Likewise for the class scores' buffer at the first point. -/
def out4_A_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x6 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 hc0 hc1 x0 x1 x2 x3 x4 x5).2.1)

/-- At the first point every store into the segment sums' accumulator is of the whole 64 by 64 buffer, so its pieces cover it. -/
theorem scover4_A_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (y : S64x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).2.2.1 S64x64.size (by sl_kernel_rfl) y

/-- What the first point leaves in the segment sums' accumulator: its pieces read back. -/
def sout4_A_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4 x5).2.2.1)

/-- At the first point every store into the segment counts' accumulator is of the whole 64 by 1 buffer, so its pieces cover it. -/
theorem scover4_A_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (y : S64x1.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).2.2.2.1 S64x1.size (by sl_kernel_rfl) y

/-- What the first point leaves in the segment counts' accumulator: its pieces read back. -/
def sout4_A_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) : Vec F S64x1 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 hc0 hc1 x0 x1 x2 x3 x4 x5).2.2.2.1)

/-- At a middle point nothing is stored into the pooled projection's buffer: no pieces, a placeholder nothing consults, the window
    being neither written back nor read at the next point. -/
def out4_B_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).1)

/-- Likewise for the class scores' buffer at a middle point. -/
def out4_B_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x6 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At a middle point every store into the segment sums' accumulator is of the whole 64 by 64 buffer, so its pieces cover it. -/
theorem scover4_B_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S64x64.size (by sl_kernel_rfl) y

/-- What a middle point leaves in the segment sums' accumulator: its pieces read back. -/
def sout4_B_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At a middle point every store into the segment counts' accumulator is of the whole 64 by 1 buffer, so its pieces cover it. -/
theorem scover4_B_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x1.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S64x1.size (by sl_kernel_rfl) y

/-- What a middle point leaves in the segment counts' accumulator: its pieces read back. -/
def sout4_B_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : ¬cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x1 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-- At the last point the one store into the pooled projection's buffer is of the whole 64 by 64 block, so its pieces cover it. -/
theorem cover4_C_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).1 S64x64.size (by sl_kernel_rfl) y

/-- What the last point leaves in the pooled projection's buffer: its pieces read back. -/
def out4_C_6 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).1)

/-- At the last point the one store into the class scores' buffer is of the whole 64 by 6 block, so its pieces cover it. -/
theorem cover4_C_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x6.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.1 S64x6.size (by sl_kernel_rfl) y

/-- What the last point leaves in the class scores' buffer: its pieces read back. -/
def out4_C_7 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x6 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At the last point every store into the segment sums' accumulator is of the whole 64 by 64 buffer, so its pieces cover it. -/
theorem scover4_C_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S64x64.size (by sl_kernel_rfl) y

/-- What the last point leaves in the segment sums' accumulator: its pieces read back. -/
def sout4_C_0 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At the last point every store into the segment counts' accumulator is of the whole 64 by 1 buffer, so its pieces cover it. -/
theorem scover4_C_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) (y : S64x1.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S64x1.size (by sl_kernel_rfl) y

/-- What the last point leaves in the segment counts' accumulator: its pieces read back. -/
def sout4_C_1 (c : Dev nD) (i : grid4.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x6 .f32) (harg5 : arg5.IsWhole) (arg6 : Memref sig .tc .vmem S1x6 .f32) (harg6 : arg6.IsWhole) (arg7 : Memref sig .tc .vmem S64x64 .f32) (harg7 : arg7.IsWhole) (arg8 : Memref sig .tc .vmem S64x6 .f32) (harg8 : arg8.IsWhole) (arg9 : Memref sig .tc .vmem S64x64 .f32) (harg9 : arg9.IsWhole) (arg10 : Memref sig .tc .vmem S64x1 .f32) (harg10 : arg10.IsWhole) (hc0 : ¬cond4_0 i) (hc1 : cond4_1 i)
    (x0 : Vec F S10000x64 .f32) (x1 : Vec F S10000x1 .i32) (x2 : Vec F S64x64 .f32) (x3 : Vec F S1x64 .f32) (x4 : Vec F S64x6 .f32) (x5 : Vec F S1x6 .f32) (xs0 : Vec F S64x64 .f32) (xs1 : Vec F S64x1 .f32) : Vec F S64x1 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-! ## What the outputs and the accumulators hold after each point -/

/-- THE ACCUMULATION. After the body at position `n`: the two outputs' buffers, then the two accumulators. The first point
    clears the accumulators and adds its block's segment sums and counts; every later point adds its block's to what the
    point before left; the last point, having added, also writes the outputs from the totals. A pair of conditions no
    point meets is no case. -/
def outsAt4 (c : Dev nD) : (n : ℕ) → n < cfg4.N → Vec F S64x64 .f32 × Vec F S64x6 .f32 × Vec F S64x64 .f32 × Vec F S64x1 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 10 = 0 then
      if h1 : (n + 1) % 10 = 9 then
        False.elim (by omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 10 = 9 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.1 (outsAt4 c n (Nat.lt_of_succ_lt hn)).2.2.2)

/-- `outsAt4` at the first point: the cleared accumulators plus the first block's sums and counts. -/
theorem outsAt4_A (c : Dev nD) (t : Fin cfg4.N) (h0 : t.val % 10 = 0) (h1 : ¬t.val % 10 = 9) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- `outsAt4` at a middle point: the block's sums and counts added to what the point before left. -/
theorem outsAt4_B (c : Dev nD) (t : Fin cfg4.N) (h0 : ¬t.val % 10 = 0) (h1 : ¬t.val % 10 = 9) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: the block's sums and counts added to what the point before left, and the outputs
    computed from those totals. -/
theorem outsAt4_C (c : Dev nD) (t : Fin cfg4.N) (h0 : ¬t.val % 10 = 0) (h1 : t.val % 10 = 9) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: before the first point the class's invariant (both accumulators at anything); afterwards each
    accumulator at what the point before left in it, beside the other calls' staging buffers and the generator register at
    some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n`: the accumulators at that point's totals. -/
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r)) := rfl

/-- Before a point that is not the first: the accumulators at the totals of the point before. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 (F := F) c) ∗ (∃ r, prngReg c r)) := by
  cases n with
  | zero => exact absurd rfl hz
  | succ n => rfl

/-! ## The pipeline's proof data -/

/-- The proof data of this region on core `c`: the arrays as the region finds them; after the body at point `t` each input's
    buffer at its block and the two outputs' at `outsAt4`'s first two components; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`: the invariant, what is owed, and each window's current staging buffer at what
    it then holds. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns: the next point's invariant, and each buffer at what the body leaves (an idle output's as found). -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' buffers hold their blocks; the coordinate's residue says which of the three cases the
    point is in; that case's run applies, handed the accumulators at what the point before left (at anything at the first
    point) and giving them back at this point's totals, which its whole-buffer stores cover; the two outputs are handed back
    as found except at the last point, where the run's stores cover them; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val % 10 = 0
  · by_cases h1 : t.val % 10 = 9
    · exfalso; omega
    · -- the first point
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
      rw [Dat.leavesExact_idle (dat4 V c) 7 t (idleAt4_7_A t ((hcond4_0 t).mpr h0) (fun h => h1 ((hcond4_1 t).mp h))) (noFlush4_7_A t ((hcond4_0 t).mpr h0) (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · exfalso; omega

  · by_cases h1 : t.val % 10 = 9
    · -- the last point
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6_C t (fun h => h0 ((hcond4_0 t).mp h)) ((hcond4_1 t).mpr h1)], after4_6]
      rw [show (dat4 V c).leavesExact 7 t = owns (c : Thread nD τ) (ms4_7 t) fullShare ((dat4 V c).after 7 t) from by
        unfold Dat.leavesExact; rw [liveAt4_7_C t (fun h => h0 ((hcond4_0 t).mp h)) ((hcond4_1 t).mpr h1)], after4_7]
      rw [outsAt4_C V c t h0 h1]
      unfold out4_C_6 out4_C_7 sout4_C_0 sout4_C_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover4_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _)

    · -- a middle point
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
      rw [Dat.leavesExact_idle (dat4 V c) 7 t (idleAt4_7_B t (fun h => h0 ((hcond4_0 t).mp h)) (fun h => h1 ((hcond4_1 t).mp h))) (noFlush4_7_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.K.Run.lean ====
import proofs.«408011_j62371515072934_2_alg».proof.Proof.K.R0
import proofs.«408011_j62371515072934_2_alg».proof.Proof.K.R1
import proofs.«408011_j62371515072934_2_alg».proof.Proof.K.R2
import proofs.«408011_j62371515072934_2_alg».proof.Proof.K.R3
import proofs.«408011_j62371515072934_2_alg».proof.Proof.K.R4
import proofs.«408011_j62371515072934_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over the five regions' proof data

@main is eleven segments: host stretches and kernel regions in order. This module states the buffer contents at
every segment boundary as a fold from the launch memory, makes each region a segment over the thread state "every
unscoped buffer at the boundary's contents, the generator register at some state, nothing owed", chains the
segments, and concludes that from any launch memory with zero counters every weakly fair execution terminates with
every unscoped buffer at the last boundary's contents. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary

A host stretch carries the contents before it to `StableHlo.after` of them; a kernel region leaves each of its
windows' arrays at what the write-backs make of it (`Dat.arrAt … N`: an input array as entered) and every other
buffer as entered (`Pipeline.withArrays`). `WJ` is the contents after segment `J - 1`, `VJ` the same read at the
TensorCore's references. -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- A reference `hostOps0` does not write keeps its contents. -/
theorem W1_of (c : Dev nD) (r : Ref sig .tc) (h : r ∉ hostOps0_W) :
    W1 m c (Proc.devRef .tc r) = W0 m c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- A reference `hostOps0_1` does not write keeps its contents. -/
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- A reference `hostOps0_2` does not write keeps its contents. -/
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h

/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
/-- At region 0's exit each of its arrays holds what the pipeline leaves, every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- A reference `hostOps1` does not write keeps its contents. -/
theorem W5_of (c : Dev nD) (r : Ref sig .tc) (h : r ∉ hostOps1_W) :
    W5 m c (Proc.devRef .tc r) = W4 m c (Proc.devRef .tc r) :=
  StableHlo.after_of_writes_sub hostOps1 _ hostOps1_writes h

/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
/-- At region 1's exit each of its arrays holds what the pipeline leaves, every other buffer what it held at entry. -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- At region 2's exit: its arrays at what the pipeline leaves, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
/-- At region 2's exit each of its arrays holds what the pipeline leaves, every other buffer what it held at entry. -/
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the host stretch `hostOps3`. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
/-- A reference `hostOps3` does not write keeps its contents. -/
theorem W8_of (c : Dev nD) (r : Ref sig .tc) (h : r ∉ hostOps3_W) :
    W8 m c (Proc.devRef .tc r) = W7 m c (Proc.devRef .tc r) :=
  StableHlo.after_of_writes_sub hostOps3 _ hostOps3_writes h

/-- At region 3's exit: its arrays at what the pipeline leaves, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9 : (c : Dev nD) → (b : Ref sig .tc) → Buf (Elt F) ((c : Thread nD τ).loc b) := fun c b => W9 m c b
/-- At region 3's exit each of its arrays holds what the pipeline leaves, every other buffer what it held at entry. -/
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- After the host stretch `hostOps4`. -/
abbrev W10 : Dev nD → Valuation τ sig (Elt F) := fun c => StableHlo.after hostOps4 (W9 m c)
abbrev V10 : (c : Dev nD) → (b : Ref sig .tc) → Buf (Elt F) ((c : Thread nD τ).loc b) := fun c b => W10 m c b
/-- A reference `hostOps4` does not write keeps its contents. -/
theorem W10_of (c : Dev nD) (r : Ref sig .tc) (h : r ∉ hostOps4_W) :
    W10 m c (Proc.devRef .tc r) = W9 m c (Proc.devRef .tc r) :=
  StableHlo.after_of_writes_sub hostOps4 _ hostOps4_writes h

/-- At region 4's exit: its arrays at what the pipeline leaves, every other buffer as entered. -/
def W11 (c : Dev nD) : Valuation τ sig (Elt F) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
abbrev V11 : (c : Dev nD) → (b : Ref sig .tc) → Buf (Elt F) ((c : Thread nD τ).loc b) := fun c b => W11 m c b
/-- At region 4's exit each of its arrays holds what the pipeline leaves, every other buffer what it held at entry. -/
theorem hF4 (c : Dev nD) (w : Fin cfg4.W) : (dat4 (V10 m) c).arrAt w cfg4.N = V11 m c (Pipeline.arrRef spec4 w) :=
  (W11_arr m c w).symm
theorem hrest4 (c : Dev nD) : ∀ b, b ∉ Finset.univ.image (Pipeline.arrRef spec4) → V11 m c b = V10 m c b :=
  fun b hb => W11_of_ne m c b fun w e => hb (Finset.mem_image.mpr ⟨w, Finset.mem_univ _, e⟩)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments

Each region is entered from every unscoped buffer at its entry contents and left at its exit contents: its arrays
split out of the unscoped buffers and put back at what the write-backs leave; the generator register goes into the
region's invariant and comes back; nothing is owed; the kernels have no semaphore of their own. -/

set_option backward.isDefEq.respectTransparency.types false in
/-- REGION 0 over the thread state: entered from every unscoped buffer at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W6`, left at `W7`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W8`, left at `W9`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W10`, left at `W11`. Its invariant is its own
    (the two scratch accumulators carried from point to point): it is entered from the scoped rest and the generator
    register (`hin4`) and gives them back after the last point (`hout4`). -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V10 m) c
    unfold Pipeline.ΦA at h
    rw [show (pdats m 4 c).Φ 0 = (dat4 (V10 m) c).Φ 0 from rfl]
    iintro ⟨Hp, -, Hr⟩
    iapply h
    isplitl [Hr]; · iexact Hr
    iexact Hp
  hout c := by
    have h := hout4 (V10 m) c
    unfold Pipeline.ΦA at h
    rw [Pipeline.ownSems0_none, show (pdats m 4 c).Φ (Fin.last _) = (dat4 (V10 m) c).Φ (Fin.last cfg4.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V10 m c) (V11 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 11 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)),
    .region (reg4 m) ]
/-- @main IS the run of the segments: @main is the chain of its items, and the segments' run is the chain of their
    fragments, which are those items. -/
theorem main_run (c : Dev nD) : main (F := F) c = Pipeline.Seg.run (segs m) := by
  rewrite [main_chain c, Pipeline.Seg.run_eq_chain,
    show (segs m).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in
/-- THE RUN: from any memory with zero counters, every weakly fair execution of @main on the TensorCores terminates,
    nothing faulting, and every final state holds each unscoped buffer at the last boundary's contents `W11`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun _ h => h)

end Cert.Kernel.Hand

end
-- ==== Proof.K.Frame.lean ====
import proofs.«408011_j62371515072934_2_alg».proof.Proof.K.Run
import proofs.«408011_j62371515072934_2_alg».proof.Proof.Gen.Kernel.Launch
import proofs.«408011_j62371515072934_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # What each region leaves unchanged

The contents of a core's buffers at the eleven segment boundaries are a fold from the launch memory: a host stretch
maps the contents before it to those after its operations, and a region replaces the arrays of its windows by what
its write-backs leave and keeps every other buffer. Only an output window is ever written back, so across a region
every buffer but its output arrays is unchanged. -/

/-- The launch contents read at a reference of the core are the launch memory at that reference's location. -/
theorem W0_apply (c : Dev nD) (r : Ref sig .tc) : W0 m c (Proc.devRef .tc r) = m ((c : Thread nD τ).loc r) := rfl

/-- Region 0 changes only its output array `main_v30`. A reference that is the array of one of its
    windows is, by `h`, the array of an input window (main_arg0, main_arg3), and an input window is never written back, so its
    array is left as the region was entered; on any other reference the region has no window and keeps the buffer. -/
theorem W4_of (c : Dev nD) (r : Ref sig .tc) (h : r ∉ ([main_v30] : List (Ref sig .tc))) :
    W4 m c (Proc.devRef .tc r) = W3 m c (Proc.devRef .tc r) := by
  by_cases hr : ∃ w, Pipeline.arrRef spec0 w = r
  · obtain ⟨w, rfl⟩ := hr
    have hin : (cfg0.win w).isOut = false := by
      match w with
      | ⟨0, _⟩ => rfl
      | ⟨1, _⟩ => rfl
      | ⟨2, _⟩ => exact absurd (List.mem_singleton.mpr rfl) h
    exact (W4_arr m c w).trans (((dat0 (V3 m) c).arrAt_in w hin _).trans (A_eq0 (V3 m) c w))
  · exact W4_of_ne m c r fun w e => hr ⟨w, e⟩

/-- Region 1 changes only its output array `main_v45`. A reference that is the array of one of its
    windows is, by `h`, the array of an input window (main_v43, main_v44), and an input window is never written back, so its
    array is left as the region was entered; on any other reference the region has no window and keeps the buffer. -/
theorem W6_of (c : Dev nD) (r : Ref sig .tc) (h : r ∉ ([main_v45] : List (Ref sig .tc))) :
    W6 m c (Proc.devRef .tc r) = W5 m c (Proc.devRef .tc r) := by
  by_cases hr : ∃ w, Pipeline.arrRef spec1 w = r
  · obtain ⟨w, rfl⟩ := hr
    have hin : (cfg1.win w).isOut = false := by
      match w with
      | ⟨0, _⟩ => rfl
      | ⟨1, _⟩ => rfl
      | ⟨2, _⟩ => exact absurd (List.mem_singleton.mpr rfl) h
    exact (W6_arr m c w).trans (((dat1 (V5 m) c).arrAt_in w hin _).trans (A_eq1 (V5 m) c w))
  · exact W6_of_ne m c r fun w e => hr ⟨w, e⟩

/-- Region 2 changes only its output array `main_v46`. A reference that is the array of one of its
    windows is, by `h`, the array of an input window (main_v45, main_arg5), and an input window is never written back, so its
    array is left as the region was entered; on any other reference the region has no window and keeps the buffer. -/
theorem W7_of (c : Dev nD) (r : Ref sig .tc) (h : r ∉ ([main_v46] : List (Ref sig .tc))) :
    W7 m c (Proc.devRef .tc r) = W6 m c (Proc.devRef .tc r) := by
  by_cases hr : ∃ w, Pipeline.arrRef spec2 w = r
  · obtain ⟨w, rfl⟩ := hr
    have hin : (cfg2.win w).isOut = false := by
      match w with
      | ⟨0, _⟩ => rfl
      | ⟨1, _⟩ => rfl
      | ⟨2, _⟩ => exact absurd (List.mem_singleton.mpr rfl) h
    exact (W7_arr m c w).trans (((dat2 (V6 m) c).arrAt_in w hin _).trans (A_eq2 (V6 m) c w))
  · exact W7_of_ne m c r fun w e => hr ⟨w, e⟩

/-- Region 3 changes only its output array `main_v61`. A reference that is the array of one of its
    windows is, by `h`, the array of an input window (main_v59, main_v60), and an input window is never written back, so its
    array is left as the region was entered; on any other reference the region has no window and keeps the buffer. -/
theorem W9_of (c : Dev nD) (r : Ref sig .tc) (h : r ∉ ([main_v61] : List (Ref sig .tc))) :
    W9 m c (Proc.devRef .tc r) = W8 m c (Proc.devRef .tc r) := by
  by_cases hr : ∃ w, Pipeline.arrRef spec3 w = r
  · obtain ⟨w, rfl⟩ := hr
    have hin : (cfg3.win w).isOut = false := by
      match w with
      | ⟨0, _⟩ => rfl
      | ⟨1, _⟩ => rfl
      | ⟨2, _⟩ => exact absurd (List.mem_singleton.mpr rfl) h
    exact (W9_arr m c w).trans (((dat3 (V8 m) c).arrAt_in w hin _).trans (A_eq3 (V8 m) c w))
  · exact W9_of_ne m c r fun w e => hr ⟨w, e⟩

/-- Region 4 changes only its output arrays `main_v65_0`, `main_v65_1`. A reference that is the array of one of its
    windows is, by `h`, the array of an input window (main_v61, main_v62, main_arg7, main_v63, main_arg9, main_v64), and an input window is never written back, so its
    array is left as the region was entered; on any other reference the region has no window and keeps the buffer. -/
theorem W11_of (c : Dev nD) (r : Ref sig .tc) (h : r ∉ ([main_v65_0, main_v65_1] : List (Ref sig .tc))) :
    W11 m c (Proc.devRef .tc r) = W10 m c (Proc.devRef .tc r) := by
  by_cases hr : ∃ w, Pipeline.arrRef spec4 w = r
  · obtain ⟨w, rfl⟩ := hr
    have hin : (cfg4.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd (List.mem_cons.mpr (Or.inl rfl)) h
      | ⟨7, _⟩ => exact absurd (List.mem_cons.mpr (Or.inr (List.mem_singleton.mpr rfl))) h
    exact (W11_arr m c w).trans (((dat4 (V10 m) c).arrAt_in w hin _).trans (A_eq4 (V10 m) c w))
  · exact W11_of_ne m c r fun w e => hr ⟨w, e⟩

/-! # The arguments end as launched

Read at an argument's buffer the fold walks back to the launch memory, one boundary at a time: no host stretch
writes an argument and no region has an argument as an output array. -/

/-- `main_arg0` ends as launched: it is written by no host stretch and is the output array of no region. -/
theorem W11_main_arg0 (c : Dev nD) : W11 m c (Proc.devRef .tc main_arg0) = m ((c : Thread nD τ).loc main_arg0) :=
  (W11_of m c main_arg0 (by decide)).trans <| (W10_of m c main_arg0 (by decide)).trans <| (W9_of m c main_arg0 (by decide)).trans <|
  (W8_of m c main_arg0 (by decide)).trans <| (W7_of m c main_arg0 (by decide)).trans <| (W6_of m c main_arg0 (by decide)).trans <|
  (W5_of m c main_arg0 (by decide)).trans <| (W4_of m c main_arg0 (by decide)).trans <| (W3_of m c main_arg0 (by decide)).trans <|
  (W2_of m c main_arg0 (by decide)).trans <| (W1_of m c main_arg0 (by decide)).trans (W0_apply m c main_arg0)

/-- `main_arg1` ends as launched: it is written by no host stretch and is the output array of no region. -/
theorem W11_main_arg1 (c : Dev nD) : W11 m c (Proc.devRef .tc main_arg1) = m ((c : Thread nD τ).loc main_arg1) :=
  (W11_of m c main_arg1 (by decide)).trans <| (W10_of m c main_arg1 (by decide)).trans <| (W9_of m c main_arg1 (by decide)).trans <|
  (W8_of m c main_arg1 (by decide)).trans <| (W7_of m c main_arg1 (by decide)).trans <| (W6_of m c main_arg1 (by decide)).trans <|
  (W5_of m c main_arg1 (by decide)).trans <| (W4_of m c main_arg1 (by decide)).trans <| (W3_of m c main_arg1 (by decide)).trans <|
  (W2_of m c main_arg1 (by decide)).trans <| (W1_of m c main_arg1 (by decide)).trans (W0_apply m c main_arg1)

/-- `main_arg2` ends as launched: it is written by no host stretch and is the output array of no region. -/
theorem W11_main_arg2 (c : Dev nD) : W11 m c (Proc.devRef .tc main_arg2) = m ((c : Thread nD τ).loc main_arg2) :=
  (W11_of m c main_arg2 (by decide)).trans <| (W10_of m c main_arg2 (by decide)).trans <| (W9_of m c main_arg2 (by decide)).trans <|
  (W8_of m c main_arg2 (by decide)).trans <| (W7_of m c main_arg2 (by decide)).trans <| (W6_of m c main_arg2 (by decide)).trans <|
  (W5_of m c main_arg2 (by decide)).trans <| (W4_of m c main_arg2 (by decide)).trans <| (W3_of m c main_arg2 (by decide)).trans <|
  (W2_of m c main_arg2 (by decide)).trans <| (W1_of m c main_arg2 (by decide)).trans (W0_apply m c main_arg2)

/-- `main_arg3` ends as launched: it is written by no host stretch and is the output array of no region. -/
theorem W11_main_arg3 (c : Dev nD) : W11 m c (Proc.devRef .tc main_arg3) = m ((c : Thread nD τ).loc main_arg3) :=
  (W11_of m c main_arg3 (by decide)).trans <| (W10_of m c main_arg3 (by decide)).trans <| (W9_of m c main_arg3 (by decide)).trans <|
  (W8_of m c main_arg3 (by decide)).trans <| (W7_of m c main_arg3 (by decide)).trans <| (W6_of m c main_arg3 (by decide)).trans <|
  (W5_of m c main_arg3 (by decide)).trans <| (W4_of m c main_arg3 (by decide)).trans <| (W3_of m c main_arg3 (by decide)).trans <|
  (W2_of m c main_arg3 (by decide)).trans <| (W1_of m c main_arg3 (by decide)).trans (W0_apply m c main_arg3)

/-- `main_arg4` ends as launched: it is written by no host stretch and is the output array of no region. -/
theorem W11_main_arg4 (c : Dev nD) : W11 m c (Proc.devRef .tc main_arg4) = m ((c : Thread nD τ).loc main_arg4) :=
  (W11_of m c main_arg4 (by decide)).trans <| (W10_of m c main_arg4 (by decide)).trans <| (W9_of m c main_arg4 (by decide)).trans <|
  (W8_of m c main_arg4 (by decide)).trans <| (W7_of m c main_arg4 (by decide)).trans <| (W6_of m c main_arg4 (by decide)).trans <|
  (W5_of m c main_arg4 (by decide)).trans <| (W4_of m c main_arg4 (by decide)).trans <| (W3_of m c main_arg4 (by decide)).trans <|
  (W2_of m c main_arg4 (by decide)).trans <| (W1_of m c main_arg4 (by decide)).trans (W0_apply m c main_arg4)

/-- `main_arg5` ends as launched: it is written by no host stretch and is the output array of no region. -/
theorem W11_main_arg5 (c : Dev nD) : W11 m c (Proc.devRef .tc main_arg5) = m ((c : Thread nD τ).loc main_arg5) :=
  (W11_of m c main_arg5 (by decide)).trans <| (W10_of m c main_arg5 (by decide)).trans <| (W9_of m c main_arg5 (by decide)).trans <|
  (W8_of m c main_arg5 (by decide)).trans <| (W7_of m c main_arg5 (by decide)).trans <| (W6_of m c main_arg5 (by decide)).trans <|
  (W5_of m c main_arg5 (by decide)).trans <| (W4_of m c main_arg5 (by decide)).trans <| (W3_of m c main_arg5 (by decide)).trans <|
  (W2_of m c main_arg5 (by decide)).trans <| (W1_of m c main_arg5 (by decide)).trans (W0_apply m c main_arg5)

/-- `main_arg6` ends as launched: it is written by no host stretch and is the output array of no region. -/
theorem W11_main_arg6 (c : Dev nD) : W11 m c (Proc.devRef .tc main_arg6) = m ((c : Thread nD τ).loc main_arg6) :=
  (W11_of m c main_arg6 (by decide)).trans <| (W10_of m c main_arg6 (by decide)).trans <| (W9_of m c main_arg6 (by decide)).trans <|
  (W8_of m c main_arg6 (by decide)).trans <| (W7_of m c main_arg6 (by decide)).trans <| (W6_of m c main_arg6 (by decide)).trans <|
  (W5_of m c main_arg6 (by decide)).trans <| (W4_of m c main_arg6 (by decide)).trans <| (W3_of m c main_arg6 (by decide)).trans <|
  (W2_of m c main_arg6 (by decide)).trans <| (W1_of m c main_arg6 (by decide)).trans (W0_apply m c main_arg6)

/-- `main_arg7` ends as launched: it is written by no host stretch and is the output array of no region. -/
theorem W11_main_arg7 (c : Dev nD) : W11 m c (Proc.devRef .tc main_arg7) = m ((c : Thread nD τ).loc main_arg7) :=
  (W11_of m c main_arg7 (by decide)).trans <| (W10_of m c main_arg7 (by decide)).trans <| (W9_of m c main_arg7 (by decide)).trans <|
  (W8_of m c main_arg7 (by decide)).trans <| (W7_of m c main_arg7 (by decide)).trans <| (W6_of m c main_arg7 (by decide)).trans <|
  (W5_of m c main_arg7 (by decide)).trans <| (W4_of m c main_arg7 (by decide)).trans <| (W3_of m c main_arg7 (by decide)).trans <|
  (W2_of m c main_arg7 (by decide)).trans <| (W1_of m c main_arg7 (by decide)).trans (W0_apply m c main_arg7)

/-- `main_arg8` ends as launched: it is written by no host stretch and is the output array of no region. -/
theorem W11_main_arg8 (c : Dev nD) : W11 m c (Proc.devRef .tc main_arg8) = m ((c : Thread nD τ).loc main_arg8) :=
  (W11_of m c main_arg8 (by decide)).trans <| (W10_of m c main_arg8 (by decide)).trans <| (W9_of m c main_arg8 (by decide)).trans <|
  (W8_of m c main_arg8 (by decide)).trans <| (W7_of m c main_arg8 (by decide)).trans <| (W6_of m c main_arg8 (by decide)).trans <|
  (W5_of m c main_arg8 (by decide)).trans <| (W4_of m c main_arg8 (by decide)).trans <| (W3_of m c main_arg8 (by decide)).trans <|
  (W2_of m c main_arg8 (by decide)).trans <| (W1_of m c main_arg8 (by decide)).trans (W0_apply m c main_arg8)

/-- `main_arg9` ends as launched: it is written by no host stretch and is the output array of no region. -/
theorem W11_main_arg9 (c : Dev nD) : W11 m c (Proc.devRef .tc main_arg9) = m ((c : Thread nD τ).loc main_arg9) :=
  (W11_of m c main_arg9 (by decide)).trans <| (W10_of m c main_arg9 (by decide)).trans <| (W9_of m c main_arg9 (by decide)).trans <|
  (W8_of m c main_arg9 (by decide)).trans <| (W7_of m c main_arg9 (by decide)).trans <| (W6_of m c main_arg9 (by decide)).trans <|
  (W5_of m c main_arg9 (by decide)).trans <| (W4_of m c main_arg9 (by decide)).trans <| (W3_of m c main_arg9 (by decide)).trans <|
  (W2_of m c main_arg9 (by decide)).trans <| (W1_of m c main_arg9 (by decide)).trans (W0_apply m c main_arg9)

/-- `main_arg10` ends as launched: it is written by no host stretch and is the output array of no region. -/
theorem W11_main_arg10 (c : Dev nD) : W11 m c (Proc.devRef .tc main_arg10) = m ((c : Thread nD τ).loc main_arg10) :=
  (W11_of m c main_arg10 (by decide)).trans <| (W10_of m c main_arg10 (by decide)).trans <| (W9_of m c main_arg10 (by decide)).trans <|
  (W8_of m c main_arg10 (by decide)).trans <| (W7_of m c main_arg10 (by decide)).trans <| (W6_of m c main_arg10 (by decide)).trans <|
  (W5_of m c main_arg10 (by decide)).trans <| (W4_of m c main_arg10 (by decide)).trans <| (W3_of m c main_arg10 (by decide)).trans <|
  (W2_of m c main_arg10 (by decide)).trans <| (W1_of m c main_arg10 (by decide)).trans (W0_apply m c main_arg10)

/-! # The frame -/

/-- From any memory with zero counters every weakly fair execution of the program terminates without a fault, and in
    every final state each of the eleven argument arrays holds its launch contents. The run ends with every unscoped
    buffer at the last boundary's contents; an argument is unscoped, and the last boundary's contents at an argument
    are the launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c),
    (h c _ (mem_uc main_arg9 (by decide))).trans (W11_main_arg9 m c),
    (h c _ (mem_uc main_arg10 (by decide))).trans (W11_main_arg10 m c)⟩) (run_all m ρ)

end Cert.Kernel.Hand

end
-- ==== Proof.lean ====
/-
  The certificate of a two-layer graph convolution with mean pooling and a two-layer head: a Pallas program of five
  pipelined kernels (two row-tiled matrix products, two bias-and-clip maps, one pooling kernel that accumulates
  one-hot products over ten row tiles in scratch and finishes with the head) among host stretches that build the
  self-looped edge lists, the symmetric degree normalisation, and gather / scale / scatter-add the messages, against
  the plain reference.

  The three frames: each kernel region runs point by point from its entry contents (a tile's block is read where the
  index map says, the output block is one whole store; the pooling kernel's two accumulators are carried from point to
  point as an invariant of the region), the host stretches are pure, and no item writes an argument; the reference
  has no kernel and its frame is its run with the results dropped. The idealisation rewrote nothing, so what it
  preserves is trivially so. The equivalence: on the extended reals every region's output array is the reference's
  stage of the same inputs and the host stretches are the reference's own operations (Proof/KIV/Bridge.lean), so both
  programs end at the reference's two result functions of the arguments.
-/
import proofs.«408011_j62371515072934_2_alg».proof.Proof.KIV.Bridge
import proofs.«408011_j62371515072934_2_alg».proof.Proof.K.Frame
import proofs.«408011_j62371515072934_2_alg».proof.Defs
import proofs.«408011_j62371515072934_2_alg».proof.Proof.Gen.Pre_finite_inputs

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference is host operations only: its run names both results and leaves every argument; the frame keeps the
    arguments. -/
theorem frame_ri : Cert.frame_ReferenceIdeal := fun m ρ _ =>
  (θ_run Cert.ReferenceIdeal.defs _ _).mono (fun _ h c => (h c).2.2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.KernelIdeal.Val.algebraic⟩

end Cert.Proof

end
